-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S500000 : Shape := ⟨1, ![500000]⟩
abbrev S250000 : Shape := ⟨1, ![250000]⟩
abbrev S125000 : Shape := ⟨1, ![125000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S256x128 .f32) (main_arg8 : FVec F S256x128 .f32) (main_arg9 : FVec F S128 .f32) (main_v33 : IVec S_ 1) : IVec S_ 1 :=
  let main_v34 : FVec F S256x128 .f32 := Host.absf main_arg7
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S256x128 .f32 := Host.absf main_arg8
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S256x256 .f32) (main_arg5 : FVec F S256x256 .f32) (main_arg6 : FVec F S256 .f32) (main_arg7 : FVec F S256x128 .f32) (main_arg8 : FVec F S256x128 .f32) (main_arg9 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S256x256 .f32) (main_arg2 : FVec F S256x256 .f32) (main_arg3 : FVec F S256 .f32) (main_arg4 : FVec F S256x256 .f32) (main_arg5 : FVec F S256x256 .f32) (main_arg6 : FVec F S256 .f32) (main_arg7 : FVec F S256x128 .f32) (main_arg8 : FVec F S256x128 .f32) (main_arg9 : FVec F S128 .f32) (main_arg10 : IVec S500000 32) (main_arg11 : IVec S500000 32) (main_arg12 : IVec S250000 32) (main_arg13 : IVec S250000 32) (main_arg14 : IVec S125000 32) (main_arg15 : IVec S125000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S500000 : Shape := ⟨1, ![500000]⟩
abbrev S250000 : Shape := ⟨1, ![250000]⟩
abbrev S125000 : Shape := ⟨1, ![125000]⟩
abbrev S_ : Shape := ⟨0, ![]⟩
abbrev S500000x1 : Shape := ⟨2, ![500000, 1]⟩
abbrev S500000x256 : Shape := ⟨2, ![500000, 256]⟩
abbrev S50000x256 : Shape := ⟨2, ![50000, 256]⟩
abbrev S50000 : Shape := ⟨1, ![50000]⟩
abbrev S50000x1 : Shape := ⟨2, ![50000, 1]⟩
abbrev S50176x256 : Shape := ⟨2, ![50176, 256]⟩
abbrev S1x256 : Shape := ⟨2, ![1, 256]⟩
abbrev S1024x256 : Shape := ⟨2, ![1024, 256]⟩
abbrev S250000x1 : Shape := ⟨2, ![250000, 1]⟩
abbrev S250000x256 : Shape := ⟨2, ![250000, 256]⟩
abbrev S25000x256 : Shape := ⟨2, ![25000, 256]⟩
abbrev S25000 : Shape := ⟨1, ![25000]⟩
abbrev S25000x1 : Shape := ⟨2, ![25000, 1]⟩
abbrev S25600x256 : Shape := ⟨2, ![25600, 256]⟩
abbrev S125000x1 : Shape := ⟨2, ![125000, 1]⟩
abbrev S125000x256 : Shape := ⟨2, ![125000, 256]⟩
abbrev S12500x256 : Shape := ⟨2, ![12500, 256]⟩
abbrev S12500 : Shape := ⟨1, ![12500]⟩
abbrev S12500x1 : Shape := ⟨2, ![12500, 1]⟩
abbrev S13312x256 : Shape := ⟨2, ![13312, 256]⟩
abbrev S1x128 : Shape := ⟨2, ![1, 128]⟩
abbrev S13312x128 : Shape := ⟨2, ![13312, 128]⟩
abbrev S1024x128 : Shape := ⟨2, ![1024, 128]⟩
abbrev S12500x128 : Shape := ⟨2, ![12500, 128]⟩

abbrev nBuf : Space → Nat
  | .hbm => 133
  | .vmem => 27
  | .smem => 0
  | _ => 0

abbrev hbmTy0_0 (i : Nat) : BufTy := match i % 128 with
  | 0 => ⟨S100000x256, .f32⟩
  | 1 => ⟨S256x256, .f32⟩
  | 2 => ⟨S256x256, .f32⟩
  | 3 => ⟨S256, .f32⟩
  | 4 => ⟨S256x256, .f32⟩
  | 5 => ⟨S256x256, .f32⟩
  | 6 => ⟨S256, .f32⟩
  | 7 => ⟨S256x128, .f32⟩
  | 8 => ⟨S256x128, .f32⟩
  | 9 => ⟨S128, .f32⟩
  | 10 => ⟨S500000, .i32⟩
  | 11 => ⟨S500000, .i32⟩
  | 12 => ⟨S250000, .i32⟩
  | 13 => ⟨S250000, .i32⟩
  | 14 => ⟨S125000, .i32⟩
  | 15 => ⟨S125000, .i32⟩
  | 16 => ⟨S_, .i32⟩
  | 17 => ⟨S500000, .i32⟩
  | 18 => ⟨S500000, .i1⟩
  | 19 => ⟨S_, .i32⟩
  | 20 => ⟨S500000, .i32⟩
  | 21 => ⟨S500000, .i32⟩
  | 22 => ⟨S500000, .i32⟩
  | 23 => ⟨S500000x1, .i32⟩
  | 24 => ⟨S500000x256, .f32⟩
  | 25 => ⟨S_, .f32⟩
  | 26 => ⟨S50000x256, .f32⟩
  | 27 => ⟨S500000x1, .i32⟩
  | 28 => ⟨S50000x256, .f32⟩
  | 29 => ⟨S_, .f32⟩
  | 30 => ⟨S500000, .f32⟩
  | 31 => ⟨S_, .f32⟩
  | 32 => ⟨S50000, .f32⟩
  | 33 => ⟨S500000x1, .i32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x256, .f32⟩
  | 40 => ⟨S50000x256, .f32⟩
  | 41 => ⟨S50000x256, .f32⟩
  | 42 => ⟨S50000x256, .bf16⟩
  | 43 => ⟨S50000x256, .bf16⟩
  | 44 => ⟨S256x256, .bf16⟩
  | 45 => ⟨S256x256, .bf16⟩
  | 46 => ⟨S_, .i32⟩
  | 47 => ⟨S_, .bf16⟩
  | 48 => ⟨S50176x256, .bf16⟩
  | 49 => ⟨S_, .i32⟩
  | 50 => ⟨S_, .bf16⟩
  | 51 => ⟨S50176x256, .bf16⟩
  | 52 => ⟨S1x256, .f32⟩
  | 53 => ⟨S50176x256, .f32⟩
  | 54 => ⟨S50000x256, .f32⟩
  | 55 => ⟨S_, .i32⟩
  | 56 => ⟨S250000, .i32⟩
  | 57 => ⟨S250000, .i1⟩
  | 58 => ⟨S_, .i32⟩
  | 59 => ⟨S250000, .i32⟩
  | 60 => ⟨S250000, .i32⟩
  | 61 => ⟨S250000, .i32⟩
  | 62 => ⟨S250000x1, .i32⟩
  | 63 => ⟨S250000x256, .f32⟩
  | 64 => ⟨S_, .f32⟩
  | 65 => ⟨S25000x256, .f32⟩
  | 66 => ⟨S250000x1, .i32⟩
  | 67 => ⟨S25000x256, .f32⟩
  | 68 => ⟨S_, .f32⟩
  | 69 => ⟨S250000, .f32⟩
  | 70 => ⟨S_, .f32⟩
  | 71 => ⟨S25000, .f32⟩
  | 72 => ⟨S250000x1, .i32⟩
  | 73 => ⟨S25000, .f32⟩
  | 74 => ⟨S_, .f32⟩
  | 75 => ⟨S25000, .f32⟩
  | 76 => ⟨S25000, .f32⟩
  | 77 => ⟨S25000x1, .f32⟩
  | 78 => ⟨S25000x256, .f32⟩
  | 79 => ⟨S25000x256, .f32⟩
  | 80 => ⟨S25000x256, .f32⟩
  | 81 => ⟨S25000x256, .bf16⟩
  | 82 => ⟨S25000x256, .bf16⟩
  | 83 => ⟨S256x256, .bf16⟩
  | 84 => ⟨S256x256, .bf16⟩
  | 85 => ⟨S_, .i32⟩
  | 86 => ⟨S_, .bf16⟩
  | 87 => ⟨S25600x256, .bf16⟩
  | 88 => ⟨S_, .i32⟩
  | 89 => ⟨S_, .bf16⟩
  | 90 => ⟨S25600x256, .bf16⟩
  | 91 => ⟨S1x256, .f32⟩
  | 92 => ⟨S25600x256, .f32⟩
  | 93 => ⟨S25000x256, .f32⟩
  | 94 => ⟨S_, .i32⟩
  | 95 => ⟨S125000, .i32⟩
  | 96 => ⟨S125000, .i1⟩
  | 97 => ⟨S_, .i32⟩
  | 98 => ⟨S125000, .i32⟩
  | 99 => ⟨S125000, .i32⟩
  | 100 => ⟨S125000, .i32⟩
  | 101 => ⟨S125000x1, .i32⟩
  | 102 => ⟨S125000x256, .f32⟩
  | 103 => ⟨S_, .f32⟩
  | 104 => ⟨S12500x256, .f32⟩
  | 105 => ⟨S125000x1, .i32⟩
  | 106 => ⟨S12500x256, .f32⟩
  | 107 => ⟨S_, .f32⟩
  | 108 => ⟨S125000, .f32⟩
  | 109 => ⟨S_, .f32⟩
  | 110 => ⟨S12500, .f32⟩
  | 111 => ⟨S125000x1, .i32⟩
  | 112 => ⟨S12500, .f32⟩
  | 113 => ⟨S_, .f32⟩
  | 114 => ⟨S12500, .f32⟩
  | 115 => ⟨S12500, .f32⟩
  | 116 => ⟨S12500x1, .f32⟩
  | 117 => ⟨S12500x256, .f32⟩
  | 118 => ⟨S12500x256, .f32⟩
  | 119 => ⟨S12500x256, .f32⟩
  | 120 => ⟨S12500x256, .bf16⟩
  | 121 => ⟨S12500x256, .bf16⟩
  | 122 => ⟨S256x128, .bf16⟩
  | 123 => ⟨S256x128, .bf16⟩
  | 124 => ⟨S_, .i32⟩
  | 125 => ⟨S_, .bf16⟩
  | 126 => ⟨S13312x256, .bf16⟩
  | 127 => ⟨S_, .i32⟩
  | _ => ⟨S100000x256, .f32⟩

abbrev hbmTy0_1 (i : Nat) : BufTy := match i % 128 with
  | 0 => ⟨S_, .bf16⟩
  | 1 => ⟨S13312x256, .bf16⟩
  | 2 => ⟨S1x128, .f32⟩
  | 3 => ⟨S13312x128, .f32⟩
  | 4 => ⟨S12500x128, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x256, .bf16⟩
  | .local _ .vmem, ⟨5, _⟩ => ⟨S256x256, .bf16⟩
  | .local _ .vmem, ⟨6, _⟩ => ⟨S1x256, .f32⟩
  | .local _ .vmem, ⟨7, _⟩ => ⟨S1024x256, .f32⟩
  | .local _ .vmem, ⟨8, _⟩ => ⟨S1024x256, .f32⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S256x256, .bf16⟩
  | .local _ .vmem, ⟨14, _⟩ => ⟨S256x256, .bf16⟩
  | .local _ .vmem, ⟨15, _⟩ => ⟨S1x256, .f32⟩
  | .local _ .vmem, ⟨16, _⟩ => ⟨S1024x256, .f32⟩
  | .local _ .vmem, ⟨17, _⟩ => ⟨S1024x256, .f32⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S256x128, .bf16⟩
  | .local _ .vmem, ⟨23, _⟩ => ⟨S256x128, .bf16⟩
  | .local _ .vmem, ⟨24, _⟩ => ⟨S1x128, .f32⟩
  | .local _ .vmem, ⟨25, _⟩ => ⟨S1024x128, .f32⟩
  | .local _ .vmem, ⟨26, _⟩ => ⟨S1024x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c_4 : Ref sig .tc := ⟨.hbm, 46, rfl⟩
abbrev main_call0_v0 : Ref sig .tc := ⟨.hbm, 47, rfl⟩
abbrev main_v24 : Ref sig .tc := ⟨.hbm, 48, rfl⟩
abbrev main_c_5 : Ref sig .tc := ⟨.hbm, 49, rfl⟩
abbrev main_call1_v0 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_c_6 : Ref sig .tc := ⟨.hbm, 55, rfl⟩
abbrev main_v29 : Ref sig .tc := ⟨.hbm, 56, rfl⟩
abbrev main_v30 : Ref sig .tc := ⟨.hbm, 57, rfl⟩
abbrev main_c_7 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_8 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_cst_9 : Ref sig .tc := ⟨.hbm, 68, rfl⟩
abbrev main_v39 : Ref sig .tc := ⟨.hbm, 69, rfl⟩
abbrev main_cst_10 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_cst_11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_c_12 : Ref sig .tc := ⟨.hbm, 85, rfl⟩
abbrev main_call2_v0 : Ref sig .tc := ⟨.hbm, 86, rfl⟩
abbrev main_v53 : Ref sig .tc := ⟨.hbm, 87, rfl⟩
abbrev main_c_13 : Ref sig .tc := ⟨.hbm, 88, rfl⟩
abbrev main_call3_v0 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_v57 : Ref sig .tc := ⟨.hbm, 93, rfl⟩
abbrev main_c_14 : Ref sig .tc := ⟨.hbm, 94, rfl⟩
abbrev main_v58 : Ref sig .tc := ⟨.hbm, 95, rfl⟩
abbrev main_v59 : Ref sig .tc := ⟨.hbm, 96, rfl⟩
abbrev main_c_15 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_cst_16 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_cst_17 : Ref sig .tc := ⟨.hbm, 107, rfl⟩
abbrev main_v68 : Ref sig .tc := ⟨.hbm, 108, rfl⟩
abbrev main_cst_18 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_cst_19 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_c_20 : Ref sig .tc := ⟨.hbm, 124, rfl⟩
abbrev main_call4_v0 : Ref sig .tc := ⟨.hbm, 125, rfl⟩
abbrev main_v82 : Ref sig .tc := ⟨.hbm, 126, rfl⟩
abbrev main_c_21 : Ref sig .tc := ⟨.hbm, 127, rfl⟩
abbrev main_call5_v0 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1024x256 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x128 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1024x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  slices_S100000x256_S50000x256_0_0 : S100000x256.Slices ![0, 0] S50000x256
  bitsLt_bf16_f32 : FTy.bits .bf16 < FTy.bits .f32
  pads_S50000x256_S50176x256_01760_000 : S50000x256.Pads (![0, 0] : Fin 2 → Nat) ![176, 0] ![0, 0] S50176x256
  h_S_ : 0 < S_.numel
  shapeCasts_S256_S1x256 : S256.ShapeCasts S1x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  slices_S50176x256_S50000x256_0_0 : S50176x256.Slices ![0, 0] S50000x256
  bcast_S_S250000 : S_.BroadcastsInDim S250000 (![] : Fin 0 → Fin S250000.rank)
  bcast_S250000_S250000x1_0 : S250000.BroadcastsInDim S250000x1 (![0] : Fin 1 → Fin S250000x1.rank)
  bcast_S_S25000x256 : S_.BroadcastsInDim S25000x256 (![] : Fin 0 → Fin S25000x256.rank)
  bcast_S_S25000 : S_.BroadcastsInDim S25000 (![] : Fin 0 → Fin S25000.rank)
  bcast_S25000_S25000x1_0 : S25000.BroadcastsInDim S25000x1 (![0] : Fin 1 → Fin S25000x1.rank)
  bcast_S25000x1_S25000x256_0_1 : S25000x1.BroadcastsInDim S25000x256 (![0, 1] : Fin 2 → Fin S25000x256.rank)
  slices_S50000x256_S25000x256_0_0 : S50000x256.Slices ![0, 0] S25000x256
  pads_S25000x256_S25600x256_06000_000 : S25000x256.Pads (![0, 0] : Fin 2 → Nat) ![600, 0] ![0, 0] S25600x256
  slices_S25600x256_S25000x256_0_0 : S25600x256.Slices ![0, 0] S25000x256
  bcast_S_S125000 : S_.BroadcastsInDim S125000 (![] : Fin 0 → Fin S125000.rank)
  bcast_S125000_S125000x1_0 : S125000.BroadcastsInDim S125000x1 (![0] : Fin 1 → Fin S125000x1.rank)
  bcast_S_S12500x256 : S_.BroadcastsInDim S12500x256 (![] : Fin 0 → Fin S12500x256.rank)
  bcast_S_S12500 : S_.BroadcastsInDim S12500 (![] : Fin 0 → Fin S12500.rank)
  bcast_S12500_S12500x1_0 : S12500.BroadcastsInDim S12500x1 (![0] : Fin 1 → Fin S12500x1.rank)
  bcast_S12500x1_S12500x256_0_1 : S12500x1.BroadcastsInDim S12500x256 (![0, 1] : Fin 2 → Fin S12500x256.rank)
  slices_S25000x256_S12500x256_0_0 : S25000x256.Slices ![0, 0] S12500x256
  pads_S12500x256_S13312x256_08120_000 : S12500x256.Pads (![0, 0] : Fin 2 → Nat) ![812, 0] ![0, 0] S13312x256
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  inb_S1024x128_S1024x128_0_0 : ∀ a, (![0, 0] : Fin 2 → Nat) a + S1024x128.size a ≤ S1024x128.size a
  h_S1024x128 : 0 < S1024x128.numel
  slices_S13312x128_S12500x128_0_0 : S13312x128.Slices ![0, 0] S12500x128
  gather_S100000x256_S500000x1_S500000x256_1_0_n_n_0_1_1256_wf : GatherDims.WF S100000x256 S500000x1 S500000x256 [1] [0] [] [0] [] 1 ![1, 256]
  scatter_S50000x256_S500000x1_S500000x256_1_0_0_1_wf : ScatterDims.WF S50000x256 S500000x1 S500000x256 [1] [0] [0] 1
  scatter_S50000_S500000x1_S500000_n_0_0_1_wf : ScatterDims.WF S50000 S500000x1 S500000 [] [0] [0] 1
  dot_S1024x256_S256x256_S1024x256_1_0_0_1_n_n_wf : DotDims.WF S1024x256 S256x256 S1024x256 [1] [0] [0] [1] [] []
  gather_S50000x256_S250000x1_S250000x256_1_0_n_n_0_1_1256_wf : GatherDims.WF S50000x256 S250000x1 S250000x256 [1] [0] [] [0] [] 1 ![1, 256]
  scatter_S25000x256_S250000x1_S250000x256_1_0_0_1_wf : ScatterDims.WF S25000x256 S250000x1 S250000x256 [1] [0] [0] 1
  scatter_S25000_S250000x1_S250000_n_0_0_1_wf : ScatterDims.WF S25000 S250000x1 S250000 [] [0] [0] 1
  gather_S25000x256_S125000x1_S125000x256_1_0_n_n_0_1_1256_wf : GatherDims.WF S25000x256 S125000x1 S125000x256 [1] [0] [] [0] [] 1 ![1, 256]
  scatter_S12500x256_S125000x1_S125000x256_1_0_0_1_wf : ScatterDims.WF S12500x256 S125000x1 S125000x256 [1] [0] [0] 1
  scatter_S12500_S125000x1_S125000_n_0_0_1_wf : ScatterDims.WF S12500 S125000x1 S125000 [] [0] [0] 1
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S50176x256.size a
  hwx0_0 : ∀ i : grid0.Coords, EltTy.bits .bf16 = 32 ∨ (Rect.block (s := S50176x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S50176x256.size a
  hwx0_1 : ∀ i : grid0.Coords, EltTy.bits .bf16 = 32 ∨ (Rect.block (s := S50176x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .bf16 = 32 ∨ (Rect.block (s := S256x256) S256x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x256.size a ≤ S50176x256.size a
  hwx0_5 : ∀ i : grid0.Coords, EltTy.bits .f32 = 32 ∨ (Rect.block (s := S50176x256) S1024x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S25600x256.size a
  hwx1_0 : ∀ i : grid1.Coords, EltTy.bits .bf16 = 32 ∨ (Rect.block (s := S25600x256) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S25600x256.size a
  hwx1_1 : ∀ i : grid1.Coords, EltTy.bits .bf16 = 32 ∨ (Rect.block (s := S25600x256) S1024x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x256.size a ≤ S25600x256.size a
  hwx1_5 : ∀ i : grid1.Coords, EltTy.bits .f32 = 32 ∨ (Rect.block (s := S25600x256) S1024x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S13312x256.size a
  hwx2_0 : ∀ i : grid2.Coords, EltTy.bits .bf16 = 32 ∨ (Rect.block (s := S13312x256) S1024x256.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x256.size a ≤ S13312x256.size a
  hwx2_1 : ∀ i : grid2.Coords, EltTy.bits .bf16 = 32 ∨ (Rect.block (s := S13312x256) S1024x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S256x128.size a
  hwx2_2 : ∀ i : grid2.Coords, EltTy.bits .bf16 = 32 ∨ (Rect.block (s := S256x128) S256x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S256x128.size a
  hwx2_3 : ∀ i : grid2.Coords, EltTy.bits .bf16 = 32 ∨ (Rect.block (s := S256x128) S256x128.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1024x128.size a ≤ S13312x128.size a
  hwx2_5 : ∀ i : grid2.Coords, EltTy.bits .f32 = 32 ∨ (Rect.block (s := S13312x128) S1024x128.size (cc2_transform_5 i) (hinb2_5 i)).WholeWords (EltTy.packing .f32)

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S25000x256_S250000x1_S250000x256_1_0_0_1 : ScatterDims S25000x256 S250000x1 S250000x256 where
  updateWindowDims := [1]
  insertedWindowDims := [0]
  scatterDimsToOperandDims := [0]
  indexVectorDim := 1
  wf := scatter_S25000x256_S250000x1_S250000x256_1_0_0_1_wf
def scatter_S25000_S250000x1_S250000_n_0_0_1 : ScatterDims S25000 S250000x1 S250000 where
  updateWindowDims := []
  insertedWindowDims := [0]
  scatterDimsToOperandDims := [0]
  indexVectorDim := 1
  wf := scatter_S25000_S250000x1_S250000_n_0_0_1_wf
def gather_S25000x256_S125000x1_S125000x256_1_0_n_n_0_1_1256 : GatherDims S25000x256 S125000x1 S125000x256 where
  offsetDims := [1]
  collapsedSliceDims := [0]
  operandBatchingDims := []
  startIndicesBatchingDims := []
  startIndexMap := [0]
  indexVectorDim := 1
  sliceSizes := ![1, 256]
  wf := gather_S25000x256_S125000x1_S125000x256_1_0_n_n_0_1_1256_wf
def scatter_S12500x256_S125000x1_S125000x256_1_0_0_1 : ScatterDims S12500x256 S125000x1 S125000x256 where
  updateWindowDims := [1]
  insertedWindowDims := [0]
  scatterDimsToOperandDims := [0]
  indexVectorDim := 1
  wf := scatter_S12500x256_S125000x1_S125000x256_1_0_0_1_wf
def scatter_S12500_S125000x1_S125000_n_0_0_1 : ScatterDims S12500 S125000x1 S125000 where
  updateWindowDims := []
  insertedWindowDims := [0]
  scatterDimsToOperandDims := [0]
  indexVectorDim := 1
  wf := scatter_S12500_S125000x1_S125000_n_0_0_1_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_v24) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v23) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1024x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v53) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v54) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v52) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v55) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v56) S1024x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v82) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v83) S1024x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v80) S256x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v81) S256x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v85) S1024x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x256 : Shape := ⟨2, ![100000, 256]⟩
abbrev S256x256 : Shape := ⟨2, ![256, 256]⟩
abbrev S256 : Shape := ⟨1, ![256]⟩
abbrev S256x128 : Shape := ⟨2, ![256, 128]⟩
abbrev S128 : Shape := ⟨1, ![128]⟩
abbrev S500000 : Shape := ⟨1, ![500000]⟩
abbrev S250000 : Shape := ⟨1, ![250000]⟩
abbrev S125000 : Shape := ⟨1, ![125000]⟩
abbrev S_ : Shape := ⟨0, ![]⟩
abbrev S500000x1 : Shape := ⟨2, ![500000, 1]⟩
abbrev S500000x256 : Shape := ⟨2, ![500000, 256]⟩
abbrev S50000x256 : Shape := ⟨2, ![50000, 256]⟩
abbrev S50000x1 : Shape := ⟨2, ![50000, 1]⟩
abbrev S1x256 : Shape := ⟨2, ![1, 256]⟩
abbrev S250000x1 : Shape := ⟨2, ![250000, 1]⟩
abbrev S250000x256 : Shape := ⟨2, ![250000, 256]⟩
abbrev S25000x256 : Shape := ⟨2, ![25000, 256]⟩
abbrev S25000x1 : Shape := ⟨2, ![25000, 1]⟩
abbrev S125000x1 : Shape := ⟨2, ![125000, 1]⟩
abbrev S125000x256 : Shape := ⟨2, ![125000, 256]⟩
abbrev S12500x256 : Shape := ⟨2, ![12500, 256]⟩
abbrev S12500x1 : Shape := ⟨2, ![12500, 1]⟩
abbrev S12500x128 : Shape := ⟨2, ![12500, 128]⟩
abbrev S1x128 : Shape := ⟨2, ![1, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256x256, .f32⟩
  | .hbm, ⟨6, _⟩ => ⟨S256, .f32⟩
  | .hbm, ⟨7, _⟩ => ⟨S256x128, .f32⟩
  | .hbm, ⟨8, _⟩ => ⟨S256x128, .f32⟩
  | .hbm, ⟨9, _⟩ => ⟨S128, .f32⟩
  | .hbm, ⟨10, _⟩ => ⟨S500000, .i32⟩
  | .hbm, ⟨11, _⟩ => ⟨S500000, .i32⟩
  | .hbm, ⟨12, _⟩ => ⟨S250000, .i32⟩
  | .hbm, ⟨13, _⟩ => ⟨S250000, .i32⟩
  | .hbm, ⟨14, _⟩ => ⟨S125000, .i32⟩
  | .hbm, ⟨15, _⟩ => ⟨S125000, .i32⟩
  | .hbm, ⟨16, _⟩ => ⟨S_, .i32⟩
  | .hbm, ⟨17, _⟩ => ⟨S500000, .i32⟩
  | .hbm, ⟨18, _⟩ => ⟨S500000, .i1⟩
  | .hbm, ⟨19, _⟩ => ⟨S_, .i32⟩
  | .hbm, ⟨20, _⟩ => ⟨S500000, .i32⟩
  | .hbm, ⟨21, _⟩ => ⟨S500000, .i32⟩
  | .hbm, ⟨22, _⟩ => ⟨S500000, .i32⟩
  | .hbm, ⟨23, _⟩ => ⟨S500000x1, .i32⟩
  | .hbm, ⟨24, _⟩ => ⟨S500000x256, .f32⟩
  | .hbm, ⟨25, _⟩ => ⟨S_, .f32⟩
  | .hbm, ⟨26, _⟩ => ⟨S50000x256, .f32⟩
  | .hbm, ⟨27, _⟩ => ⟨S500000x1, .i32⟩
  | .hbm, ⟨28, _⟩ => ⟨S50000x256, .f32⟩
  | .hbm, ⟨29, _⟩ => ⟨S_, .f32⟩
  | .hbm, ⟨30, _⟩ => ⟨S500000x1, .f32⟩
  | .hbm, ⟨31, _⟩ => ⟨S_, .f32⟩
  | .hbm, ⟨32, _⟩ => ⟨S50000x1, .f32⟩
  | .hbm, ⟨33, _⟩ => ⟨S500000x1, .i32⟩
  | .hbm, ⟨34, _⟩ => ⟨S50000x1, .f32⟩
  | .hbm, ⟨35, _⟩ => ⟨S_, .f32⟩
  | .hbm, ⟨36, _⟩ => ⟨S50000x1, .f32⟩
  | .hbm, ⟨37, _⟩ => ⟨S50000x1, .f32⟩
  | .hbm, ⟨38, _⟩ => ⟨S50000x256, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S50000x256, .f32⟩
  | .hbm, ⟨43, _⟩ => ⟨S50000x256, .f32⟩
  | .hbm, ⟨44, _⟩ => ⟨S1x256, .f32⟩
  | .hbm, ⟨45, _⟩ => ⟨S50000x256, .f32⟩
  | .hbm, ⟨46, _⟩ => ⟨S50000x256, .f32⟩
  | .hbm, ⟨47, _⟩ => ⟨S_, .f32⟩
  | .hbm, ⟨48, _⟩ => ⟨S50000x256, .f32⟩
  | .hbm, ⟨49, _⟩ => ⟨S50000x256, .f32⟩
  | .hbm, ⟨50, _⟩ => ⟨S_, .i32⟩
  | .hbm, ⟨51, _⟩ => ⟨S250000, .i32⟩
  | .hbm, ⟨52, _⟩ => ⟨S250000, .i1⟩
  | .hbm, ⟨53, _⟩ => ⟨S_, .i32⟩
  | .hbm, ⟨54, _⟩ => ⟨S250000, .i32⟩
  | .hbm, ⟨55, _⟩ => ⟨S250000, .i32⟩
  | .hbm, ⟨56, _⟩ => ⟨S250000, .i32⟩
  | .hbm, ⟨57, _⟩ => ⟨S250000x1, .i32⟩
  | .hbm, ⟨58, _⟩ => ⟨S250000x256, .f32⟩
  | .hbm, ⟨59, _⟩ => ⟨S_, .f32⟩
  | .hbm, ⟨60, _⟩ => ⟨S25000x256, .f32⟩
  | .hbm, ⟨61, _⟩ => ⟨S250000x1, .i32⟩
  | .hbm, ⟨62, _⟩ => ⟨S25000x256, .f32⟩
  | .hbm, ⟨63, _⟩ => ⟨S_, .f32⟩
  | .hbm, ⟨64, _⟩ => ⟨S250000x1, .f32⟩
  | .hbm, ⟨65, _⟩ => ⟨S_, .f32⟩
  | .hbm, ⟨66, _⟩ => ⟨S25000x1, .f32⟩
  | .hbm, ⟨67, _⟩ => ⟨S250000x1, .i32⟩
  | .hbm, ⟨68, _⟩ => ⟨S25000x1, .f32⟩
  | .hbm, ⟨69, _⟩ => ⟨S_, .f32⟩
  | .hbm, ⟨70, _⟩ => ⟨S25000x1, .f32⟩
  | .hbm, ⟨71, _⟩ => ⟨S25000x1, .f32⟩
  | .hbm, ⟨72, _⟩ => ⟨S25000x256, .f32⟩
  | .hbm, ⟨73, _⟩ => ⟨S25000x256, .f32⟩
  | .hbm, ⟨74, _⟩ => ⟨S25000x256, .f32⟩
  | .hbm, ⟨75, _⟩ => ⟨S25000x256, .f32⟩
  | .hbm, ⟨76, _⟩ => ⟨S25000x256, .f32⟩
  | .hbm, ⟨77, _⟩ => ⟨S25000x256, .f32⟩
  | .hbm, ⟨78, _⟩ => ⟨S1x256, .f32⟩
  | .hbm, ⟨79, _⟩ => ⟨S25000x256, .f32⟩
  | .hbm, ⟨80, _⟩ => ⟨S25000x256, .f32⟩
  | .hbm, ⟨81, _⟩ => ⟨S_, .f32⟩
  | .hbm, ⟨82, _⟩ => ⟨S25000x256, .f32⟩
  | .hbm, ⟨83, _⟩ => ⟨S25000x256, .f32⟩
  | .hbm, ⟨84, _⟩ => ⟨S_, .i32⟩
  | .hbm, ⟨85, _⟩ => ⟨S125000, .i32⟩
  | .hbm, ⟨86, _⟩ => ⟨S125000, .i1⟩
  | .hbm, ⟨87, _⟩ => ⟨S_, .i32⟩
  | .hbm, ⟨88, _⟩ => ⟨S125000, .i32⟩
  | .hbm, ⟨89, _⟩ => ⟨S125000, .i32⟩
  | .hbm, ⟨90, _⟩ => ⟨S125000, .i32⟩
  | .hbm, ⟨91, _⟩ => ⟨S125000x1, .i32⟩
  | .hbm, ⟨92, _⟩ => ⟨S125000x256, .f32⟩
  | .hbm, ⟨93, _⟩ => ⟨S_, .f32⟩
  | .hbm, ⟨94, _⟩ => ⟨S12500x256, .f32⟩
  | .hbm, ⟨95, _⟩ => ⟨S125000x1, .i32⟩
  | .hbm, ⟨96, _⟩ => ⟨S12500x256, .f32⟩
  | .hbm, ⟨97, _⟩ => ⟨S_, .f32⟩
  | .hbm, ⟨98, _⟩ => ⟨S125000x1, .f32⟩
  | .hbm, ⟨99, _⟩ => ⟨S_, .f32⟩
  | .hbm, ⟨100, _⟩ => ⟨S12500x1, .f32⟩
  | .hbm, ⟨101, _⟩ => ⟨S125000x1, .i32⟩
  | .hbm, ⟨102, _⟩ => ⟨S12500x1, .f32⟩
  | .hbm, ⟨103, _⟩ => ⟨S_, .f32⟩
  | .hbm, ⟨104, _⟩ => ⟨S12500x1, .f32⟩
  | .hbm, ⟨105, _⟩ => ⟨S12500x1, .f32⟩
  | .hbm, ⟨106, _⟩ => ⟨S12500x256, .f32⟩
  | .hbm, ⟨107, _⟩ => ⟨S12500x256, .f32⟩
  | .hbm, ⟨108, _⟩ => ⟨S12500x128, .f32⟩
  | .hbm, ⟨109, _⟩ => ⟨S12500x256, .f32⟩
  | .hbm, ⟨110, _⟩ => ⟨S12500x128, .f32⟩
  | .hbm, ⟨111, _⟩ => ⟨S12500x128, .f32⟩
  | .hbm, ⟨112, _⟩ => ⟨S1x128, .f32⟩
  | .hbm, ⟨113, _⟩ => ⟨S12500x128, .f32⟩
  | .hbm, ⟨114, _⟩ => ⟨S12500x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_cst_1 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_cst_3 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call0_cst : Ref sig .tc := ⟨.hbm, 47, rfl⟩
abbrev main_call0_v0 : Ref sig .tc := ⟨.hbm, 48, rfl⟩
abbrev main_v25 : Ref sig .tc := ⟨.hbm, 49, rfl⟩
abbrev main_c_4 : Ref sig .tc := ⟨.hbm, 50, rfl⟩
abbrev main_v26 : Ref sig .tc := ⟨.hbm, 51, rfl⟩
abbrev main_v27 : Ref sig .tc := ⟨.hbm, 52, rfl⟩
abbrev main_c_5 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_6 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_7 : Ref sig .tc := ⟨.hbm, 63, rfl⟩
abbrev main_v36 : Ref sig .tc := ⟨.hbm, 64, rfl⟩
abbrev main_cst_8 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_cst_9 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call1_cst : Ref sig .tc := ⟨.hbm, 81, rfl⟩
abbrev main_call1_v0 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_c_11 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_12 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_cst_13 : Ref sig .tc := ⟨.hbm, 97, rfl⟩
abbrev main_v62 : Ref sig .tc := ⟨.hbm, 98, rfl⟩
abbrev main_cst_14 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_15 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S50000x256 : S_.BroadcastsInDim S50000x256 (![] : Fin 0 → Fin S50000x256.rank)
  bcast_S_S500000x1 : S_.BroadcastsInDim S500000x1 (![] : Fin 0 → Fin S500000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  slices_S100000x256_S50000x256_0_0 : S100000x256.Slices ![0, 0] S50000x256
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S250000 : S_.BroadcastsInDim S250000 (![] : Fin 0 → Fin S250000.rank)
  bcast_S250000_S250000x1_0 : S250000.BroadcastsInDim S250000x1 (![0] : Fin 1 → Fin S250000x1.rank)
  bcast_S_S25000x256 : S_.BroadcastsInDim S25000x256 (![] : Fin 0 → Fin S25000x256.rank)
  bcast_S_S250000x1 : S_.BroadcastsInDim S250000x1 (![] : Fin 0 → Fin S250000x1.rank)
  bcast_S_S25000x1 : S_.BroadcastsInDim S25000x1 (![] : Fin 0 → Fin S25000x1.rank)
  bcast_S25000x1_S25000x256_0_1 : S25000x1.BroadcastsInDim S25000x256 (![0, 1] : Fin 2 → Fin S25000x256.rank)
  slices_S50000x256_S25000x256_0_0 : S50000x256.Slices ![0, 0] S25000x256
  bcast_S1x256_S25000x256_0_1 : S1x256.BroadcastsInDim S25000x256 (![0, 1] : Fin 2 → Fin S25000x256.rank)
  bcast_S_S125000 : S_.BroadcastsInDim S125000 (![] : Fin 0 → Fin S125000.rank)
  bcast_S125000_S125000x1_0 : S125000.BroadcastsInDim S125000x1 (![0] : Fin 1 → Fin S125000x1.rank)
  bcast_S_S12500x256 : S_.BroadcastsInDim S12500x256 (![] : Fin 0 → Fin S12500x256.rank)
  bcast_S_S125000x1 : S_.BroadcastsInDim S125000x1 (![] : Fin 0 → Fin S125000x1.rank)
  bcast_S_S12500x1 : S_.BroadcastsInDim S12500x1 (![] : Fin 0 → Fin S12500x1.rank)
  bcast_S12500x1_S12500x256_0_1 : S12500x1.BroadcastsInDim S12500x256 (![0, 1] : Fin 2 → Fin S12500x256.rank)
  slices_S25000x256_S12500x256_0_0 : S25000x256.Slices ![0, 0] S12500x256
  bcast_S128_S1x128_1 : S128.BroadcastsInDim S1x128 (![1] : Fin 1 → Fin S1x128.rank)
  bcast_S1x128_S12500x128_0_1 : S1x128.BroadcastsInDim S12500x128 (![0, 1] : Fin 2 → Fin S12500x128.rank)
  gather_S100000x256_S500000x1_S500000x256_1_0_n_n_0_1_1256_wf : GatherDims.WF S100000x256 S500000x1 S500000x256 [1] [0] [] [0] [] 1 ![1, 256]
  scatter_S50000x256_S500000x1_S500000x256_1_0_0_1_wf : ScatterDims.WF S50000x256 S500000x1 S500000x256 [1] [0] [0] 1
  scatter_S50000x1_S500000x1_S500000x1_1_0_0_1_wf : ScatterDims.WF S50000x1 S500000x1 S500000x1 [1] [0] [0] 1
  dot_S50000x256_S256x256_S50000x256_1_0_0_1_n_n_wf : DotDims.WF S50000x256 S256x256 S50000x256 [1] [0] [0] [1] [] []
  gather_S50000x256_S250000x1_S250000x256_1_0_n_n_0_1_1256_wf : GatherDims.WF S50000x256 S250000x1 S250000x256 [1] [0] [] [0] [] 1 ![1, 256]
  scatter_S25000x256_S250000x1_S250000x256_1_0_0_1_wf : ScatterDims.WF S25000x256 S250000x1 S250000x256 [1] [0] [0] 1
  scatter_S25000x1_S250000x1_S250000x1_1_0_0_1_wf : ScatterDims.WF S25000x1 S250000x1 S250000x1 [1] [0] [0] 1
  dot_S25000x256_S256x256_S25000x256_1_0_0_1_n_n_wf : DotDims.WF S25000x256 S256x256 S25000x256 [1] [0] [0] [1] [] []
  gather_S25000x256_S125000x1_S125000x256_1_0_n_n_0_1_1256_wf : GatherDims.WF S25000x256 S125000x1 S125000x256 [1] [0] [] [0] [] 1 ![1, 256]
  scatter_S12500x256_S125000x1_S125000x256_1_0_0_1_wf : ScatterDims.WF S12500x256 S125000x1 S125000x256 [1] [0] [0] 1
  scatter_S12500x1_S125000x1_S125000x1_1_0_0_1_wf : ScatterDims.WF S12500x1 S125000x1 S125000x1 [1] [0] [0] 1
  dot_S12500x256_S256x128_S12500x128_1_0_0_1_n_n_wf : DotDims.WF S12500x256 S256x128 S12500x128 [1] [0] [0] [1] [] []

variable [Facts₀]

def gather_S100000x256_S500000x1_S500000x256_1_0_n_n_0_1_1256 : GatherDims S100000x256 S500000x1 S500000x256 where
  offsetDims := [1]
  collapsedSliceDims := [0]
  operandBatchingDims := []
  startIndicesBatchingDims := []
  startIndexMap := [0]
  indexVectorDim := 1
  sliceSizes := ![1, 256]
  wf := gather_S100000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def scatter_S50000x1_S500000x1_S500000x1_1_0_0_1 : ScatterDims S50000x1 S500000x1 S500000x1 where
  updateWindowDims := [1]
  insertedWindowDims := [0]
  scatterDimsToOperandDims := [0]
  indexVectorDim := 1
  wf := scatter_S50000x1_S500000x1_S500000x1_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S250000x1_S250000x256_1_0_n_n_0_1_1256 : GatherDims S50000x256 S250000x1 S250000x256 where
  offsetDims := [1]
  collapsedSliceDims := [0]
  operandBatchingDims := []
  startIndicesBatchingDims := []
  startIndexMap := [0]
  indexVectorDim := 1
  sliceSizes := ![1, 256]
  wf := gather_S50000x256_S250000x1_S250000x256_1_0_n_n_0_1_1256_wf
def scatter_S25000x256_S250000x1_S250000x256_1_0_0_1 : ScatterDims S25000x256 S250000x1 S250000x256 where
  updateWindowDims := [1]
  insertedWindowDims := [0]
  scatterDimsToOperandDims := [0]
  indexVectorDim := 1
  wf := scatter_S25000x256_S250000x1_S250000x256_1_0_0_1_wf
def scatter_S25000x1_S250000x1_S250000x1_1_0_0_1 : ScatterDims S25000x1 S250000x1 S250000x1 where
  updateWindowDims := [1]
  insertedWindowDims := [0]
  scatterDimsToOperandDims := [0]
  indexVectorDim := 1
  wf := scatter_S25000x1_S250000x1_S250000x1_1_0_0_1_wf
def dot_S25000x256_S256x256_S25000x256_1_0_0_1_n_n : DotDims S25000x256 S256x256 S25000x256 where
  lhsContracting := [1]
  rhsContracting := [0]
  lhsNonContracting := [0]
  rhsNonContracting := [1]
  lhsBatch := []
  rhsBatch := []
  wf := dot_S25000x256_S256x256_S25000x256_1_0_0_1_n_n_wf
def gather_S25000x256_S125000x1_S125000x256_1_0_n_n_0_1_1256 : GatherDims S25000x256 S125000x1 S125000x256 where
  offsetDims := [1]
  collapsedSliceDims := [0]
  operandBatchingDims := []
  startIndicesBatchingDims := []
  startIndexMap := [0]
  indexVectorDim := 1
  sliceSizes := ![1, 256]
  wf := gather_S25000x256_S125000x1_S125000x256_1_0_n_n_0_1_1256_wf
def scatter_S12500x256_S125000x1_S125000x256_1_0_0_1 : ScatterDims S12500x256 S125000x1 S125000x256 where
  updateWindowDims := [1]
  insertedWindowDims := [0]
  scatterDimsToOperandDims := [0]
  indexVectorDim := 1
  wf := scatter_S12500x256_S125000x1_S125000x256_1_0_0_1_wf
def scatter_S12500x1_S125000x1_S125000x1_1_0_0_1 : ScatterDims S12500x1 S125000x1 S125000x1 where
  updateWindowDims := [1]
  insertedWindowDims := [0]
  scatterDimsToOperandDims := [0]
  indexVectorDim := 1
  wf := scatter_S12500x1_S125000x1_S125000x1_1_0_0_1_wf
def dot_S12500x256_S256x128_S12500x128_1_0_0_1_n_n : DotDims S12500x256 S256x128 S12500x128 where
  lhsContracting := [1]
  rhsContracting := [0]
  lhsNonContracting := [0]
  rhsNonContracting := [1]
  lhsBatch := []
  rhsBatch := []
  wf := dot_S12500x256_S256x128_S12500x128_1_0_0_1_n_n_wf

class Facts : Prop extends Facts₀ where

variable [Facts]
-- ==== Proof.Spec.lean ====
/-
  One SAGE convolution's dense part, entry by entry.

  For an M×K array `a` (the neighbour means), an M×K array `s` (the nodes' own features), two K×N weight arrays and a
  1×N bias row, `lin` is the M×N array whose entry (p, q) is
      Σ_k a(p, k) · wn(k, q)  +  Σ_k s(p, k) · ws(k, q)  +  b(0, q)
  on the extended reals, the two sums taken separately and added in this order; `linRelu` is its positive part.
  Row p of the result reads row p of `a` and of `s` only.
-/
import Idealize.ShloMosaic.PureOps.Ideal.Laws
import Idealize.ShloMosaic.Lib.ValueIdx

namespace Cert.Sage

open Idealize.ShloMosaic Idealize.ShloMosaic.ValueIdx

/-- Entry (p, q): the two row-by-column sums and the bias, added left to right. -/
noncomputable def lin {M K N : Nat} (a s : (⟨2, ![M, K]⟩ : Shape).Idx → EReal) (wn ws : (⟨2, ![K, N]⟩ : Shape).Idx → EReal)
    (b : (⟨2, ![1, N]⟩ : Shape).Idx → EReal) : (⟨2, ![M, N]⟩ : Shape).Idx → EReal :=
  fun i => (∑ k : Fin K, a (ix2 (i 0) k) * wn (ix2 k (i 1))) + (∑ k : Fin K, s (ix2 (i 0) k) * ws (ix2 k (i 1)))
    + b (ix2 (0 : Fin 1) (i 1))

/-- The positive part of `lin`. -/
noncomputable def linRelu {M K N : Nat} (a s : (⟨2, ![M, K]⟩ : Shape).Idx → EReal) (wn ws : (⟨2, ![K, N]⟩ : Shape).Idx → EReal)
    (b : (⟨2, ![1, N]⟩ : Shape).Idx → EReal) : (⟨2, ![M, N]⟩ : Shape).Idx → EReal :=
  fun i => max (lin a s wn ws b i) 0

end Cert.Sage
-- ==== Proof.KernelLayer0.lean ====
/-
  One layer of the kernel program as a function of whole arrays (the extents say which).

  The layer gathers the source rows, sums them by destination row, divides by max(count, 1), pads the mean rows and
  the nodes' own rows with rows of the padding value up to a multiple of 1024, applies the dense part (Spec.lean) and
  keeps the first rows. The count is summed as a VECTOR here (one entry per destination row).
-/
import proofs.«180757_j19524921327629_1_alg».proof.Proof.Gen.KernelIdeal
import proofs.«180757_j19524921327629_1_alg».proof.Proof.Spec

noncomputable section

namespace Cert.KernelIdeal.Layers

open Idealize.ShloMosaic Cert.KernelIdeal Cert.KernelIdeal.Gen

/-- The start rows of the gather, negative ids wrapped once. -/
def srcIx0 (src : IVec S500000 32) : IVec S500000x1 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- The messages summed by destination row. -/
def agg0 (h : FVec Ideal S100000x256 .f32) (src dst : IVec S500000 32) : FVec Ideal S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0 dst)
    (Host.gather gather_S100000x256_S500000x1_S500000x256_1_0_n_n_0_1_1256 h (srcIx0 src))

/-- The number of messages per destination row, as a vector. -/
def cnt0 (dst : IVec S500000 32) : FVec Ideal S50000 .f32 :=
  Host.scatterAdd scatter_S50000_S500000x1_S500000_n_0_0_1
    (broadcastInDim S50000 ![] bcast_S_S50000 (constant S_ .f32 0x00000000#32))
    (broadcastInDim S500000x1 ![0] bcast_S500000_S500000x1_0 dst)
    (broadcastInDim S500000 ![] bcast_S_S500000 (constant S_ .f32 0x3F800000#32))

/-- The mean message per destination row (the sum over max(count, 1)). -/
def mean0 (h : FVec Ideal S100000x256 .f32) (src dst : IVec S500000 32) : FVec Ideal S50000x256 .f32 :=
  Host.divf (agg0 h src dst)
    (broadcastInDim S50000x256 ![0, 1] bcast_S50000x1_S50000x256_0_1
      (broadcastInDim S50000x1 ![0] bcast_S50000_S50000x1_0
        (maximumf (cnt0 dst) (broadcastInDim S50000 ![] bcast_S_S50000 (constant S_ .f32 0x3F800000#32)))))

/-- The padded mean rows the call reads (rows past 50000 hold the padding value). -/
def meanPad0 (h : FVec Ideal S100000x256 .f32) (src dst : IVec S500000 32) : FVec Ideal S50176x256 .bf16 :=
  pad S50176x256 ![0, 0] ![176, 0] ![0, 0] (truncf .bf16 (mean0 h src dst) bitsLt_bf16_f32)
    (sitofp .bf16 (constantI S_ 32 0#32) : FVec Ideal S_ .bf16) pads_S50000x256_S50176x256_01760_000 h_S_

/-- The padded own rows the call reads. -/
def selfPad0 (h : FVec Ideal S100000x256 .f32) : FVec Ideal S50176x256 .bf16 :=
  pad S50176x256 ![0, 0] ![176, 0] ![0, 0]
    (truncf .bf16 (extractStridedSlice S50000x256 ![0, 0] h slices_S100000x256_S50000x256_0_0) bitsLt_bf16_f32)
    (sitofp .bf16 (constantI S_ 32 0#32) : FVec Ideal S_ .bf16) pads_S50000x256_S50176x256_01760_000 h_S_

/-- The layer as one function of its inputs: the call's array, then its first 50000 rows. -/
def KL0 (h : FVec Ideal S100000x256 .f32) (src dst : IVec S500000 32) (Wn Ws : FVec Ideal S256x256 .f32)
    (b : FVec Ideal S256 .f32) : FVec Ideal S50000x256 .f32 :=
  extractStridedSlice S50000x256 ![0, 0]
    (Cert.Sage.linRelu (meanPad0 h src dst) (selfPad0 h) (truncf .bf16 Wn bitsLt_bf16_f32) (truncf .bf16 Ws bitsLt_bf16_f32)
      (shapeCast S1x256 b shapeCasts_S256_S1x256) : FVec Ideal S50176x256 .f32)
    slices_S50176x256_S50000x256_0_0

end Cert.KernelIdeal.Layers

end
-- ==== Proof.LibPlainDot.lean ====
/-
  A plain matrix product read at an entry.

  For the dimension numbers `⟨[1], [0], [0], [1], [], []⟩` (an M×K operand times a K×N operand, no batch axis), the
  product accumulated into a zero array has, at entry (p, q), the value Σ_k lhs (p, k) · rhs (k, q) on the extended
  reals: no rounding and no order of summation is left in it. The statement is generic in the three extents and in the
  operands' float formats (a change of format is the identity on the extended reals), so it serves every plain product
  of a kernel body; a printed dimension record with these six lists IS `DotDims.plain M K N` (its well-formedness
  proof is a proposition), so the lemma applies to it as it stands.
-/
import Idealize.ShloMosaic.PureOps.Ideal.Laws
import Idealize.ShloMosaic.Lib.ValueIdx

namespace Idealize.ShloMosaic.PlainDot

open Idealize.ShloMosaic Idealize.ShloMosaic.ValueIdx

/-- The left operand's row coordinate at output entry `i` is `i`'s row. -/
theorem lhs_row (M K N : Nat) (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The left operand's column coordinate is the contraction index. -/
theorem lhs_col (M K N : Nat) (i : (⟨2, ![M, N]⟩ : Shape).Idx) (c : (DotDims.plain M K N).contr.Idx) :
    ((DotDims.plain M K N).lhsIdx i c 1).val = (c ⟨0, Nat.one_pos⟩).val :=
  (DotDims.plain M K N).lhsIdx_val_of_single rfl i c

/-- The right operand's row coordinate is the contraction index. -/
theorem rhs_row (M K N : Nat) (i : (⟨2, ![M, N]⟩ : Shape).Idx) (c : (DotDims.plain M K N).contr.Idx) :
    ((DotDims.plain M K N).rhsIdx i c 0).val = (c ⟨0, Nat.one_pos⟩).val :=
  (DotDims.plain M K N).rhsIdx_val_of_single rfl i c

/-- The right operand's column coordinate at output entry `i` is `i`'s column. -/
theorem rhs_col (M K N : Nat) (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- A plain M×K by K×N product into the zero array, at entry (p, q), is `Σ_k lhs (p, k) · rhs (k, q)`. -/
theorem matmul_zero_apply {φ₁ φ₂ : FTy} (M K N : Nat) (lhs : FVec Ideal ⟨2, ![M, K]⟩ φ₁) (rhs : FVec Ideal ⟨2, ![K, N]⟩ φ₂)
    (p : Fin M) (q : Fin N) :
    FloatOps.matmul (DotDims.plain M K N) none lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p q) ((contrEquiv1 (DotDims.plain M K N) K rfl rfl).symm k) = ix2 k q :=
    funext fun a => Fin.ext (by
      match a with
      | ⟨0, _⟩ => exact (rhs_row M K N _ _).trans hk
      | ⟨1, _⟩ => exact rhs_col M K N _ _)
  rw [el, er]

end Idealize.ShloMosaic.PlainDot
-- ==== Proof.Region0.lean ====
/-
  What the pipelined call `cfg0` leaves in its output array.

  The call walks 49 row blocks of 1024 rows; at block t it reads rows [1024 t, 1024 t + 1024) of the two row
  operands and the whole of the two weight arrays and of the bias row, and writes rows [1024 t, 1024 t + 1024) of the
  output with the dense part's positive part (Spec.lean `linRelu`) of those blocks. Row p of `linRelu` reads row p of
  the row operands only, so each written block is the restriction of ONE whole-array function of the five arrays,
  and the blocks tile the output.
-/
import proofs.«180757_j19524921327629_1_alg».proof.Proof.Gen.KernelIdeal.Frame
import proofs.«180757_j19524921327629_1_alg».proof.Proof.Spec
import proofs.«180757_j19524921327629_1_alg».proof.Proof.LibPlainDot
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of a whole-buffer access, spelt as the constant function. -/
theorem lin0_offs : (![0, 0] : Fin 2 → Nat) = fun _ => 0 :=
  funext fun a => match a with | ⟨0, _⟩ => rfl | ⟨1, _⟩ => rfl

/-! ## The body's value at an entry -/

/-- The body's value at entry (p, q) of its block: the two row-by-column sums of the loaded blocks, the bias row's
    entry q, added in this order, and the positive part. -/
theorem lin0_pay_apply (x0 x1 : FVec Ideal S1024x256 .bf16) (x2 x3 : FVec Ideal S256x256 .bf16) (x4 : FVec Ideal S1x256 .f32)
    (p : Fin 1024) (q : Fin 256) :
    k0_pay1 (F := Ideal) x0 x1 x2 x3 x4 (ix2 p q)
      = max ((∑ k : Fin 256, x0 (ix2 p k) * x2 (ix2 k q)) + (∑ k : Fin 256, x1 (ix2 p k) * x3 (ix2 k q))
          + x4 (ix2 (0 : Fin 1) q)) 0 := by
  unfold k0_pay1
  simp only [shapeCast_self]
  rw [maximumf_apply, addf_apply, addf_apply, broadcast_apply]
  have e1 : matmul dot_S1024x256_S256x256_S1024x256_1_0_0_1_n_n none x0 x2 (constant (F := Ideal) S1024x256 .f32 0x00000000#32) (ix2 p q)
      = ∑ k : Fin 256, x0 (ix2 p k) * x2 (ix2 k q) := PlainDot.matmul_zero_apply 1024 256 256 x0 x2 p q
  have e2 : matmul dot_S1024x256_S256x256_S1024x256_1_0_0_1_n_n none x1 x3 (constant (F := Ideal) S1024x256 .f32 0x00000000#32) (ix2 p q)
      = ∑ k : Fin 256, x1 (ix2 p k) * x3 (ix2 k q) := PlainDot.matmul_zero_apply 1024 256 256 x1 x3 p q
  have e3 : broadcastTo S1024x256 x4 broadcasts_S1x256_S1024x256 (ix2 p q) = x4 (ix2 (0 : Fin 1) q) :=
    broadcastTo_apply x4 broadcasts_S1x256_S1024x256 (ix2 p q) (ix2 (0 : Fin 1) q) fun a =>
      match a with | ⟨0, _⟩ => rfl | ⟨1, _⟩ => rfl
  have ez : (FloatOps.ofBits (F := Ideal) .f32 0x00000000#32 : EReal) = 0 := Ideal.ofBits_zero_f32
  rw [e1, e2, e3, ez]

/-- An entry of the body's value on blocks that are row block `n` of two row arrays, the whole weight arrays and the
    whole bias row, is the entry of `linRelu` of the arrays at the array row `n · 1024 + p`: row p of the block is that row
    of the arrays, and `linRelu` reads no other row. -/
theorem lin0_pay_block (A0 A1 : FVec Ideal S50176x256 .bf16) (W0 W1 : FVec Ideal S256x256 .bf16) (b : FVec Ideal S1x256 .f32)
    (x0 x1 : FVec Ideal S1024x256 .bf16) (x2 x3 : FVec Ideal S256x256 .bf16) (x4 : FVec Ideal S1x256 .f32) (n : Nat)
    (h0 : ∀ (y : S1024x256.Idx) (i : S50176x256.Idx), (i 0).val = n * 1024 + (y 0).val → (i 1).val = (y 1).val → x0 y = A0 i)
    (h1 : ∀ (y : S1024x256.Idx) (i : S50176x256.Idx), (i 0).val = n * 1024 + (y 0).val → (i 1).val = (y 1).val → x1 y = A1 i)
    (h2 : x2 = W0) (h3 : x3 = W1) (h4 : x4 = b)
    (y : S1024x256.Idx) (i : S50176x256.Idx) (hi0 : (i 0).val = n * 1024 + (y 0).val) (hi1 : (i 1).val = (y 1).val) :
    k0_pay1 (F := Ideal) x0 x1 x2 x3 x4 y = Cert.Sage.linRelu (M := 50176) (K := 256) (N := 256) A0 A1 W0 W1 b i := by
  subst h2 h3 h4
  obtain ⟨p, q, rfl⟩ : ∃ (p : Fin 1024) (q : Fin 256), y = ix2 p q := ⟨y 0, y 1, eq_ix2 y⟩
  obtain ⟨r, s, rfl⟩ : ∃ (r : Fin 50176) (s : Fin 256), i = ix2 r s := ⟨i 0, i 1, eq_ix2 i⟩
  obtain rfl : s = q := Fin.ext hi1
  rw [lin0_pay_apply]
  have e0 : ∀ k : Fin 256, x0 (ix2 p k) = A0 (ix2 r k) := fun k => h0 (ix2 p k) (ix2 r k) hi0 rfl
  have e1 : ∀ k : Fin 256, x1 (ix2 p k) = A1 (ix2 r k) := fun k => h1 (ix2 p k) (ix2 r k) hi0 rfl
  simp only [e0, e1]
  rfl

/-! ## The blocks the body is given -/

/-- Where the printed index maps send point `t`: the two row operands' and the output's block is row block `t` of its
    array; the weight arrays' and the bias row's one block is the whole array. Decided over the grid. -/
theorem lin0_idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- The first row operand's block at point `t` is rows `t · 1024 + ·` of its array. -/
theorem lin0_rows_a (y : S1024x256.Idx) (i : S50176x256.Idx) (hi0 : (i 0).val = t.val * 1024 + (y 0).val)
    (hi1 : (i 1).val = (y 1).val) : iblk0 V c 0 t y = V c (Pipeline.arrRef spec0 0) i := by
  obtain ⟨e0, e1, -⟩ := lin0_idx t
  show V c (Pipeline.arrRef spec0 0) (((cfg0.win 0).blk t).view.emb y) = V c (Pipeline.arrRef spec0 0) i
  refine congrArg _ (funext fun a => Fin.ext ?_)
  match a with
  | ⟨0, _⟩ => show win0_0.index t (0 : Fin 2) * 1024 + 1 * (y 0).val = (i 0).val; rw [e0, hi0]; omega
  | ⟨1, _⟩ => show win0_0.index t (1 : Fin 2) * 256 + 1 * (y 1).val = (i 1).val; rw [e1, hi1]; omega

/-- The second row operand's block at point `t` is rows `t · 1024 + ·` of its array. -/
theorem lin0_rows_s (y : S1024x256.Idx) (i : S50176x256.Idx) (hi0 : (i 0).val = t.val * 1024 + (y 0).val)
    (hi1 : (i 1).val = (y 1).val) : iblk0 V c 1 t y = V c (Pipeline.arrRef spec0 1) i := by
  obtain ⟨-, -, e0, e1, -⟩ := lin0_idx t
  show V c (Pipeline.arrRef spec0 1) (((cfg0.win 1).blk t).view.emb y) = V c (Pipeline.arrRef spec0 1) i
  refine congrArg _ (funext fun a => Fin.ext ?_)
  match a with
  | ⟨0, _⟩ => show win0_1.index t (0 : Fin 2) * 1024 + 1 * (y 0).val = (i 0).val; rw [e0, hi0]; omega
  | ⟨1, _⟩ => show win0_1.index t (1 : Fin 2) * 256 + 1 * (y 1).val = (i 1).val; rw [e1, hi1]; omega

/-- The first weight array's block is the whole array. -/
theorem lin0_wn : (iblk0 V c 2 t : FVec Ideal S256x256 .bf16) = V c (Pipeline.arrRef spec0 2) := by
  obtain ⟨-, -, -, -, e0, e1, -⟩ := lin0_idx t
  funext y
  show V c (Pipeline.arrRef spec0 2) (((cfg0.win 2).blk t).view.emb y) = V c (Pipeline.arrRef spec0 2) y
  refine congrArg _ (funext fun a => Fin.ext ?_)
  match a with
  | ⟨0, _⟩ => show win0_2.index t (0 : Fin 2) * 256 + 1 * (y 0).val = (y 0).val; rw [e0]; omega
  | ⟨1, _⟩ => show win0_2.index t (1 : Fin 2) * 256 + 1 * (y 1).val = (y 1).val; rw [e1]; omega

/-- The second weight array's block is the whole array. -/
theorem lin0_ws : (iblk0 V c 3 t : FVec Ideal S256x256 .bf16) = V c (Pipeline.arrRef spec0 3) := by
  obtain ⟨-, -, -, -, -, -, e0, e1, -⟩ := lin0_idx t
  funext y
  show V c (Pipeline.arrRef spec0 3) (((cfg0.win 3).blk t).view.emb y) = V c (Pipeline.arrRef spec0 3) y
  refine congrArg _ (funext fun a => Fin.ext ?_)
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The bias row's block is the whole row. -/
theorem lin0_bias : (iblk0 V c 4 t : FVec Ideal S1x256 .f32) = V c (Pipeline.arrRef spec0 4) := by
  obtain ⟨-, -, -, -, -, -, -, -, e0, e1, -⟩ := lin0_idx t
  funext y
  show V c (Pipeline.arrRef spec0 4) (((cfg0.win 4).blk t).view.emb y) = V c (Pipeline.arrRef spec0 4) y
  refine congrArg _ (funext fun a => Fin.ext ?_)
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega

/-! ## What a point writes back -/

/-- What point `t` writes back is block `t` of `linRelu` of the five arrays as the region finds them. -/
theorem lin0_flushed :
    (dat0 (F := Ideal) V c).flushed 5 t
      = ((cfg0.win 5).blk t).view.read (Elt Ideal) (Cert.Sage.linRelu (M := 50176) (K := 256) (N := 256)
          (V c (Pipeline.arrRef spec0 0)) (V c (Pipeline.arrRef spec0 1)) (V c (Pipeline.arrRef spec0 2))
          (V c (Pipeline.arrRef spec0 3)) (V c (Pipeline.arrRef spec0 4))) := by
  show (cfg0.win 5).cut (grid0.coords t) ((dat0 V c).after 5 t) = _
  rw [after0_5]
  unfold out0_5
  rw [View.canon_unit_zero lin0_offs]
  simp only [View.ld_unit_zero (S := S1024x256) lin0_offs, View.ld_unit_zero (S := S256x256) lin0_offs,
    View.ld_unit_zero (S := S1x256) lin0_offs]
  obtain ⟨-, -, -, -, -, -, -, -, -, -, e0, e1⟩ := lin0_idx t
  funext j
  refine lin0_pay_block (V c (Pipeline.arrRef spec0 0)) (V c (Pipeline.arrRef spec0 1)) (V c (Pipeline.arrRef spec0 2))
    (V c (Pipeline.arrRef spec0 3)) (V c (Pipeline.arrRef spec0 4))
    (iblk0 V c 0 t) (iblk0 V c 1 t) (iblk0 V c 2 t) (iblk0 V c 3 t) (iblk0 V c 4 t) t.val
    (lin0_rows_a V c t) (lin0_rows_s V c t) (lin0_wn V c t) (lin0_ws V c t) (lin0_bias V c t)
    j (((cfg0.win 5).blk t).view.emb j) ?_ ?_
  · show win0_5.index t (0 : Fin 2) * 1024 + 1 * (j 0).val = t.val * 1024 + (j 0).val; rw [e0]; omega
  · show win0_5.index t (1 : Fin 2) * 256 + 1 * (j 1).val = (j 1).val; rw [e1]; omega

end Blocks

/-! ## The blocks tile the output -/

/-- An index of the output array is in point `t`'s block iff each coordinate is in the block's range on its axis. -/
theorem lin0_mem_blk (t : Fin cfg0.N) (i : S50176x256.Idx) :
    i ∈ ((cfg0.win 5).blk t).view.set ↔ ∀ a : Fin 2, win0_5.index t a * S1024x256.size a ≤ (i a).val
      ∧ (i a).val < win0_5.index t a * S1024x256.size a + S1024x256.size a := by
  show i ∈ ((View.whole main_v27).slice (win0_5.rect t)).set ↔ _
  rw [View.set_slice_whole, Rect.mem_set_unit]
  exact Iff.rfl

/-- Row `r` of the output lies in the block of point `r / 1024`, which is written back. -/
theorem lin0_cover (i : S50176x256.Idx) :
    ∃ t : Fin cfg0.N, (cfg0.win 5).flush t = true ∧ i ∈ ((cfg0.win 5).blk t).view.set := by
  have h0 : (i 0).val < 50176 := idx2_lt0 i
  have h1 : (i 1).val < 256 := idx2_lt1 i
  have hN : cfg0.N = 49 := N_0
  have ht : (i 0).val / 1024 < cfg0.N := (show (i 0).val / 1024 < 49 by omega).trans_eq hN.symm
  obtain ⟨-, -, -, -, -, -, -, -, -, -, e0, e1⟩ := lin0_idx ⟨(i 0).val / 1024, ht⟩
  refine ⟨⟨(i 0).val / 1024, ht⟩, flush0_5 _, ?_⟩
  rw [lin0_mem_blk]
  intro a
  match a with
  | ⟨0, _⟩ =>
    show win0_5.index ⟨(i 0).val / 1024, ht⟩ (0 : Fin 2) * 1024 ≤ (i 0).val
      ∧ (i 0).val < win0_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, ht⟩ (1 : Fin 2) * 256 ≤ (i 1).val
      ∧ (i 1).val < win0_5.index ⟨(i 0).val / 1024, ht⟩ (1 : Fin 2) * 256 + 256
    rw [e1]; omega

/-! ## The array -/

/-- After the region, from ANY entry contents `V`: the output window's array is `linRelu` of the five input windows'
    arrays as the region found them. -/
theorem region0_arr (V : (c : Dev nD) → (b : Ref sig .tc) → Buf (Elt Ideal) ((c : Thread nD τ).loc b)) (c : Dev nD) :
    (dat0 (F := Ideal) V c).arrAt 5 cfg0.N
      = (Cert.Sage.linRelu (M := 50176) (K := 256) (N := 256)
          (V c (Pipeline.arrRef spec0 0)) (V c (Pipeline.arrRef spec0 1)) (V c (Pipeline.arrRef spec0 2))
          (V c (Pipeline.arrRef spec0 3)) (V c (Pipeline.arrRef spec0 4))) := by
  exact (dat0 (F := Ideal) V c).arrAt_eq_of_cover 5 _ (fun t _ => lin0_flushed V c t) lin0_cover

end Cert.KernelIdeal.Regions

end
-- ==== Proof.Fold0.lean ====
/-
  The kernel program up to the first call's return: the buffers the call reads, what it leaves, and layer 0's output.

  The host operations before the call compute, from the launch contents of the arguments, the padded mean rows, the
  padded own rows, the two weight arrays cast to the narrower format and the bias as a row: the five arrays the
  call's windows read. The call leaves `linRelu` of them in its output array (Region0.lean), and the first host
  operation after it keeps the first 50000 rows: layer 0 (KernelLayer0.lean `KL0`) of the arguments.
-/
import proofs.«180757_j19524921327629_1_alg».proof.Proof.Gen.KernelIdeal.Frame
import proofs.«180757_j19524921327629_1_alg».proof.Proof.KernelLayer0
import proofs.«180757_j19524921327629_1_alg».proof.Proof.Region0
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Layers Cert.KernelIdeal.Regions

variable (m : (ℓ : Loc nD τ sig) → Buf (Elt Ideal) ℓ) (ρ : Dev nD → PrngReg)

/-- A weight array cast to the narrower float format (the identity on the extended reals). -/
abbrev castW {s : Shape} (W : FVec Ideal s .f32) : FVec Ideal s .bf16 := truncf .bf16 W bitsLt_bf16_f32

/-- Layer 0's output as a function of the launch contents. -/
def H1 (c : Dev nD) : FVec Ideal S50000x256 .f32 :=
  KL0 (m ((c.tc : Thread nD τ).loc main_arg0)) (m ((c.tc : Thread nD τ).loc main_arg10)) (m ((c.tc : Thread nD τ).loc main_arg11)) (m ((c.tc : Thread nD τ).loc main_arg1)) (m ((c.tc : Thread nD τ).loc main_arg2)) (m ((c.tc : Thread nD τ).loc main_arg3))

set_option maxHeartbeats 4000000 in
/-- The first row operand at the call's entry: the padded mean rows. -/
theorem e0_0 (c : Dev nD) : W5 (F := Ideal) m ρ c (Proc.devRef .tc main_v24) = meanPad0 (m ((c.tc : Thread nD τ).loc main_arg0)) (m ((c.tc : Thread nD τ).loc main_arg10)) (m ((c.tc : Thread nD τ).loc main_arg11)) := by
  dsimp only [W5, W4, W3, W2, W1]
  simp only [hostOps0, hostOps0_1, hostOps0_2, hostOps0_3, hostOps0_4]
  after_results_simp
  rfl

set_option maxHeartbeats 4000000 in
/-- The second row operand at the call's entry: the padded own rows. -/
theorem e0_1 (c : Dev nD) : W5 (F := Ideal) m ρ c (Proc.devRef .tc main_v25) = selfPad0 (m ((c.tc : Thread nD τ).loc main_arg0)) := by
  dsimp only [W5, W4, W3, W2, W1]
  simp only [hostOps0, hostOps0_1, hostOps0_2, hostOps0_3, hostOps0_4]
  after_results_simp
  rfl

set_option maxHeartbeats 4000000 in
/-- The neighbour weights at the call's entry. -/
theorem e0_2 (c : Dev nD) : W5 (F := Ideal) m ρ c (Proc.devRef .tc main_v22) = castW (s := S256x256) (m ((c.tc : Thread nD τ).loc main_arg1)) := by
  dsimp only [W5, W4, W3, W2, W1]
  simp only [hostOps0, hostOps0_1, hostOps0_2, hostOps0_3, hostOps0_4]
  after_results_simp

set_option maxHeartbeats 4000000 in
/-- The own-row weights at the call's entry. -/
theorem e0_3 (c : Dev nD) : W5 (F := Ideal) m ρ c (Proc.devRef .tc main_v23) = castW (s := S256x256) (m ((c.tc : Thread nD τ).loc main_arg2)) := by
  dsimp only [W5, W4, W3, W2, W1]
  simp only [hostOps0, hostOps0_1, hostOps0_2, hostOps0_3, hostOps0_4]
  after_results_simp

set_option maxHeartbeats 4000000 in
/-- The bias row at the call's entry. -/
theorem e0_4 (c : Dev nD) : W5 (F := Ideal) m ρ c (Proc.devRef .tc main_v26) = shapeCast S1x256 (m ((c.tc : Thread nD τ).loc main_arg3)) shapeCasts_S256_S1x256 := by
  dsimp only [W5, W4, W3, W2, W1]
  simp only [hostOps0, hostOps0_1, hostOps0_2, hostOps0_3, hostOps0_4]
  after_results_simp
  rfl

/-- What the first call leaves in its output array, over the launch contents. -/
theorem x0 (c : Dev nD) : W6 (F := Ideal) m ρ c (Proc.devRef .tc main_v27)
    = Cert.Sage.linRelu (M := 50176) (K := 256) (N := 256) (meanPad0 (m ((c.tc : Thread nD τ).loc main_arg0)) (m ((c.tc : Thread nD τ).loc main_arg10)) (m ((c.tc : Thread nD τ).loc main_arg11))) (selfPad0 (m ((c.tc : Thread nD τ).loc main_arg0)))
        (castW (s := S256x256) (m ((c.tc : Thread nD τ).loc main_arg1))) (castW (s := S256x256) (m ((c.tc : Thread nD τ).loc main_arg2))) (shapeCast S1x256 (m ((c.tc : Thread nD τ).loc main_arg3)) shapeCasts_S256_S1x256) := by
  refine (W6_arr m ρ c 5).trans ((region0_arr (V5 m ρ) c).trans ?_)
  show Cert.Sage.linRelu (M := 50176) (K := 256) (N := 256) (W5 (F := Ideal) m ρ c (Proc.devRef .tc main_v24)) (W5 (F := Ideal) m ρ c (Proc.devRef .tc main_v25))
    (W5 (F := Ideal) m ρ c (Proc.devRef .tc main_v22)) (W5 (F := Ideal) m ρ c (Proc.devRef .tc main_v23)) (W5 (F := Ideal) m ρ c (Proc.devRef .tc main_v26)) = _
  rw [e0_0, e0_1, e0_2, e0_3, e0_4]

set_option maxHeartbeats 4000000 in
/-- Layer 0's output: the first 50000 rows of the call's array. -/
theorem h1 (c : Dev nD) : W7 (F := Ideal) m ρ c (Proc.devRef .tc main_v28) = H1 m c := by
  dsimp only [W7]
  simp only [hostOps1]
  after_results_simp
  rw [x0]
  rfl

set_option maxHeartbeats 4000000 in
/-- Argument 4 is as launched when the first call returns: nothing before it writes it, and the call leaves it. -/
theorem W6_arg4 (c : Dev nD) : W6 (F := Ideal) m ρ c (Proc.devRef .tc main_arg4) = m ((c.tc : Thread nD τ).loc main_arg4) := by
  rw [W6_of_ne m ρ c main_arg4 (by decide)]
  dsimp only [W5, W4, W3, W2, W1]
  simp only [hostOps0, hostOps0_1, hostOps0_2, hostOps0_3, hostOps0_4]
  after_results_simp

set_option maxHeartbeats 4000000 in
/-- Argument 5 is as launched when the first call returns: nothing before it writes it, and the call leaves it. -/
theorem W6_arg5 (c : Dev nD) : W6 (F := Ideal) m ρ c (Proc.devRef .tc main_arg5) = m ((c.tc : Thread nD τ).loc main_arg5) := by
  rw [W6_of_ne m ρ c main_arg5 (by decide)]
  dsimp only [W5, W4, W3, W2, W1]
  simp only [hostOps0, hostOps0_1, hostOps0_2, hostOps0_3, hostOps0_4]
  after_results_simp

set_option maxHeartbeats 4000000 in
/-- Argument 6 is as launched when the first call returns: nothing before it writes it, and the call leaves it. -/
theorem W6_arg6 (c : Dev nD) : W6 (F := Ideal) m ρ c (Proc.devRef .tc main_arg6) = m ((c.tc : Thread nD τ).loc main_arg6) := by
  rw [W6_of_ne m ρ c main_arg6 (by decide)]
  dsimp only [W5, W4, W3, W2, W1]
  simp only [hostOps0, hostOps0_1, hostOps0_2, hostOps0_3, hostOps0_4]
  after_results_simp

set_option maxHeartbeats 4000000 in
/-- Argument 12 is as launched when the first call returns: nothing before it writes it, and the call leaves it. -/
theorem W6_arg12 (c : Dev nD) : W6 (F := Ideal) m ρ c (Proc.devRef .tc main_arg12) = m ((c.tc : Thread nD τ).loc main_arg12) := by
  rw [W6_of_ne m ρ c main_arg12 (by decide)]
  dsimp only [W5, W4, W3, W2, W1]
  simp only [hostOps0, hostOps0_1, hostOps0_2, hostOps0_3, hostOps0_4]
  after_results_simp

set_option maxHeartbeats 4000000 in
/-- Argument 13 is as launched when the first call returns: nothing before it writes it, and the call leaves it. -/
theorem W6_arg13 (c : Dev nD) : W6 (F := Ideal) m ρ c (Proc.devRef .tc main_arg13) = m ((c.tc : Thread nD τ).loc main_arg13) := by
  rw [W6_of_ne m ρ c main_arg13 (by decide)]
  dsimp only [W5, W4, W3, W2, W1]
  simp only [hostOps0, hostOps0_1, hostOps0_2, hostOps0_3, hostOps0_4]
  after_results_simp

set_option maxHeartbeats 4000000 in
/-- Argument 7 is as launched when the first call returns: nothing before it writes it, and the call leaves it. -/
theorem W6_arg7 (c : Dev nD) : W6 (F := Ideal) m ρ c (Proc.devRef .tc main_arg7) = m ((c.tc : Thread nD τ).loc main_arg7) := by
  rw [W6_of_ne m ρ c main_arg7 (by decide)]
  dsimp only [W5, W4, W3, W2, W1]
  simp only [hostOps0, hostOps0_1, hostOps0_2, hostOps0_3, hostOps0_4]
  after_results_simp

set_option maxHeartbeats 4000000 in
/-- Argument 8 is as launched when the first call returns: nothing before it writes it, and the call leaves it. -/
theorem W6_arg8 (c : Dev nD) : W6 (F := Ideal) m ρ c (Proc.devRef .tc main_arg8) = m ((c.tc : Thread nD τ).loc main_arg8) := by
  rw [W6_of_ne m ρ c main_arg8 (by decide)]
  dsimp only [W5, W4, W3, W2, W1]
  simp only [hostOps0, hostOps0_1, hostOps0_2, hostOps0_3, hostOps0_4]
  after_results_simp

set_option maxHeartbeats 4000000 in
/-- Argument 9 is as launched when the first call returns: nothing before it writes it, and the call leaves it. -/
theorem W6_arg9 (c : Dev nD) : W6 (F := Ideal) m ρ c (Proc.devRef .tc main_arg9) = m ((c.tc : Thread nD τ).loc main_arg9) := by
  rw [W6_of_ne m ρ c main_arg9 (by decide)]
  dsimp only [W5, W4, W3, W2, W1]
  simp only [hostOps0, hostOps0_1, hostOps0_2, hostOps0_3, hostOps0_4]
  after_results_simp

set_option maxHeartbeats 4000000 in
/-- Argument 14 is as launched when the first call returns: nothing before it writes it, and the call leaves it. -/
theorem W6_arg14 (c : Dev nD) : W6 (F := Ideal) m ρ c (Proc.devRef .tc main_arg14) = m ((c.tc : Thread nD τ).loc main_arg14) := by
  rw [W6_of_ne m ρ c main_arg14 (by decide)]
  dsimp only [W5, W4, W3, W2, W1]
  simp only [hostOps0, hostOps0_1, hostOps0_2, hostOps0_3, hostOps0_4]
  after_results_simp

set_option maxHeartbeats 4000000 in
/-- Argument 15 is as launched when the first call returns: nothing before it writes it, and the call leaves it. -/
theorem W6_arg15 (c : Dev nD) : W6 (F := Ideal) m ρ c (Proc.devRef .tc main_arg15) = m ((c.tc : Thread nD τ).loc main_arg15) := by
  rw [W6_of_ne m ρ c main_arg15 (by decide)]
  dsimp only [W5, W4, W3, W2, W1]
  simp only [hostOps0, hostOps0_1, hostOps0_2, hostOps0_3, hostOps0_4]
  after_results_simp

end Cert.KernelIdeal.Fold

end
-- ==== Proof.KernelLayer1.lean ====
/-
  One layer of the kernel program as a function of whole arrays (the extents say which).

  The layer gathers the source rows, sums them by destination row, divides by max(count, 1), pads the mean rows and
  the nodes' own rows with rows of the padding value up to a multiple of 1024, applies the dense part (Spec.lean) and
  keeps the first rows. The count is summed as a VECTOR here (one entry per destination row).
-/
import proofs.«180757_j19524921327629_1_alg».proof.Proof.Gen.KernelIdeal
import proofs.«180757_j19524921327629_1_alg».proof.Proof.Spec

noncomputable section

namespace Cert.KernelIdeal.Layers

open Idealize.ShloMosaic Cert.KernelIdeal Cert.KernelIdeal.Gen

/-- The start rows of the gather, negative ids wrapped once. -/
def srcIx1 (src : IVec S250000 32) : IVec S250000x1 32 :=
  broadcastInDim S250000x1 ![0] bcast_S250000_S250000x1_0
    (select (cmpi .slt src (broadcastInDim S250000 ![] bcast_S_S250000 (constantI S_ 32 0#32)))
      (addi src (broadcastInDim S250000 ![] bcast_S_S250000 (constantI S_ 32 50000#32))) src)

/-- The messages summed by destination row. -/
def agg1 (h : FVec Ideal S50000x256 .f32) (src dst : IVec S250000 32) : FVec Ideal S25000x256 .f32 :=
  Host.scatterAdd scatter_S25000x256_S250000x1_S250000x256_1_0_0_1
    (broadcastInDim S25000x256 ![] bcast_S_S25000x256 (constant S_ .f32 0x00000000#32))
    (broadcastInDim S250000x1 ![0] bcast_S250000_S250000x1_0 dst)
    (Host.gather gather_S50000x256_S250000x1_S250000x256_1_0_n_n_0_1_1256 h (srcIx1 src))

/-- The number of messages per destination row, as a vector. -/
def cnt1 (dst : IVec S250000 32) : FVec Ideal S25000 .f32 :=
  Host.scatterAdd scatter_S25000_S250000x1_S250000_n_0_0_1
    (broadcastInDim S25000 ![] bcast_S_S25000 (constant S_ .f32 0x00000000#32))
    (broadcastInDim S250000x1 ![0] bcast_S250000_S250000x1_0 dst)
    (broadcastInDim S250000 ![] bcast_S_S250000 (constant S_ .f32 0x3F800000#32))

/-- The mean message per destination row (the sum over max(count, 1)). -/
def mean1 (h : FVec Ideal S50000x256 .f32) (src dst : IVec S250000 32) : FVec Ideal S25000x256 .f32 :=
  Host.divf (agg1 h src dst)
    (broadcastInDim S25000x256 ![0, 1] bcast_S25000x1_S25000x256_0_1
      (broadcastInDim S25000x1 ![0] bcast_S25000_S25000x1_0
        (maximumf (cnt1 dst) (broadcastInDim S25000 ![] bcast_S_S25000 (constant S_ .f32 0x3F800000#32)))))

/-- The padded mean rows the call reads (rows past 25000 hold the padding value). -/
def meanPad1 (h : FVec Ideal S50000x256 .f32) (src dst : IVec S250000 32) : FVec Ideal S25600x256 .bf16 :=
  pad S25600x256 ![0, 0] ![600, 0] ![0, 0] (truncf .bf16 (mean1 h src dst) bitsLt_bf16_f32)
    (sitofp .bf16 (constantI S_ 32 0#32) : FVec Ideal S_ .bf16) pads_S25000x256_S25600x256_06000_000 h_S_

/-- The padded own rows the call reads. -/
def selfPad1 (h : FVec Ideal S50000x256 .f32) : FVec Ideal S25600x256 .bf16 :=
  pad S25600x256 ![0, 0] ![600, 0] ![0, 0]
    (truncf .bf16 (extractStridedSlice S25000x256 ![0, 0] h slices_S50000x256_S25000x256_0_0) bitsLt_bf16_f32)
    (sitofp .bf16 (constantI S_ 32 0#32) : FVec Ideal S_ .bf16) pads_S25000x256_S25600x256_06000_000 h_S_

/-- The layer as one function of its inputs: the call's array, then its first 25000 rows. -/
def KL1 (h : FVec Ideal S50000x256 .f32) (src dst : IVec S250000 32) (Wn Ws : FVec Ideal S256x256 .f32)
    (b : FVec Ideal S256 .f32) : FVec Ideal S25000x256 .f32 :=
  extractStridedSlice S25000x256 ![0, 0]
    (Cert.Sage.linRelu (meanPad1 h src dst) (selfPad1 h) (truncf .bf16 Wn bitsLt_bf16_f32) (truncf .bf16 Ws bitsLt_bf16_f32)
      (shapeCast S1x256 b shapeCasts_S256_S1x256) : FVec Ideal S25600x256 .f32)
    slices_S25600x256_S25000x256_0_0

end Cert.KernelIdeal.Layers

end
-- ==== Proof.Region1.lean ====
/-
  What the pipelined call `cfg1` leaves in its output array.

  The call walks 25 row blocks of 1024 rows; at block t it reads rows [1024 t, 1024 t + 1024) of the two row
  operands and the whole of the two weight arrays and of the bias row, and writes rows [1024 t, 1024 t + 1024) of the
  output with the dense part's positive part (Spec.lean `linRelu`) of those blocks. Row p of `linRelu` reads row p of
  the row operands only, so each written block is the restriction of ONE whole-array function of the five arrays,
  and the blocks tile the output.
-/
import proofs.«180757_j19524921327629_1_alg».proof.Proof.Gen.KernelIdeal.Frame
import proofs.«180757_j19524921327629_1_alg».proof.Proof.Spec
import proofs.«180757_j19524921327629_1_alg».proof.Proof.LibPlainDot
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of a whole-buffer access, spelt as the constant function. -/
theorem lin1_offs : (![0, 0] : Fin 2 → Nat) = fun _ => 0 :=
  funext fun a => match a with | ⟨0, _⟩ => rfl | ⟨1, _⟩ => rfl

/-! ## The body's value at an entry -/

/-- The body's value at entry (p, q) of its block: the two row-by-column sums of the loaded blocks, the bias row's
    entry q, added in this order, and the positive part. -/
theorem lin1_pay_apply (x0 x1 : FVec Ideal S1024x256 .bf16) (x2 x3 : FVec Ideal S256x256 .bf16) (x4 : FVec Ideal S1x256 .f32)
    (p : Fin 1024) (q : Fin 256) :
    k1_pay1 (F := Ideal) x0 x1 x2 x3 x4 (ix2 p q)
      = max ((∑ k : Fin 256, x0 (ix2 p k) * x2 (ix2 k q)) + (∑ k : Fin 256, x1 (ix2 p k) * x3 (ix2 k q))
          + x4 (ix2 (0 : Fin 1) q)) 0 := by
  unfold k1_pay1
  simp only [shapeCast_self]
  rw [maximumf_apply, addf_apply, addf_apply, broadcast_apply]
  have e1 : matmul dot_S1024x256_S256x256_S1024x256_1_0_0_1_n_n none x0 x2 (constant (F := Ideal) S1024x256 .f32 0x00000000#32) (ix2 p q)
      = ∑ k : Fin 256, x0 (ix2 p k) * x2 (ix2 k q) := PlainDot.matmul_zero_apply 1024 256 256 x0 x2 p q
  have e2 : matmul dot_S1024x256_S256x256_S1024x256_1_0_0_1_n_n none x1 x3 (constant (F := Ideal) S1024x256 .f32 0x00000000#32) (ix2 p q)
      = ∑ k : Fin 256, x1 (ix2 p k) * x3 (ix2 k q) := PlainDot.matmul_zero_apply 1024 256 256 x1 x3 p q
  have e3 : broadcastTo S1024x256 x4 broadcasts_S1x256_S1024x256 (ix2 p q) = x4 (ix2 (0 : Fin 1) q) :=
    broadcastTo_apply x4 broadcasts_S1x256_S1024x256 (ix2 p q) (ix2 (0 : Fin 1) q) fun a =>
      match a with | ⟨0, _⟩ => rfl | ⟨1, _⟩ => rfl
  have ez : (FloatOps.ofBits (F := Ideal) .f32 0x00000000#32 : EReal) = 0 := Ideal.ofBits_zero_f32
  rw [e1, e2, e3, ez]

/-- An entry of the body's value on blocks that are row block `n` of two row arrays, the whole weight arrays and the
    whole bias row, is the entry of `linRelu` of the arrays at the array row `n · 1024 + p`: row p of the block is that row
    of the arrays, and `linRelu` reads no other row. -/
theorem lin1_pay_block (A0 A1 : FVec Ideal S25600x256 .bf16) (W0 W1 : FVec Ideal S256x256 .bf16) (b : FVec Ideal S1x256 .f32)
    (x0 x1 : FVec Ideal S1024x256 .bf16) (x2 x3 : FVec Ideal S256x256 .bf16) (x4 : FVec Ideal S1x256 .f32) (n : Nat)
    (h0 : ∀ (y : S1024x256.Idx) (i : S25600x256.Idx), (i 0).val = n * 1024 + (y 0).val → (i 1).val = (y 1).val → x0 y = A0 i)
    (h1 : ∀ (y : S1024x256.Idx) (i : S25600x256.Idx), (i 0).val = n * 1024 + (y 0).val → (i 1).val = (y 1).val → x1 y = A1 i)
    (h2 : x2 = W0) (h3 : x3 = W1) (h4 : x4 = b)
    (y : S1024x256.Idx) (i : S25600x256.Idx) (hi0 : (i 0).val = n * 1024 + (y 0).val) (hi1 : (i 1).val = (y 1).val) :
    k1_pay1 (F := Ideal) x0 x1 x2 x3 x4 y = Cert.Sage.linRelu (M := 25600) (K := 256) (N := 256) A0 A1 W0 W1 b i := by
  subst h2 h3 h4
  obtain ⟨p, q, rfl⟩ : ∃ (p : Fin 1024) (q : Fin 256), y = ix2 p q := ⟨y 0, y 1, eq_ix2 y⟩
  obtain ⟨r, s, rfl⟩ : ∃ (r : Fin 25600) (s : Fin 256), i = ix2 r s := ⟨i 0, i 1, eq_ix2 i⟩
  obtain rfl : s = q := Fin.ext hi1
  rw [lin1_pay_apply]
  have e0 : ∀ k : Fin 256, x0 (ix2 p k) = A0 (ix2 r k) := fun k => h0 (ix2 p k) (ix2 r k) hi0 rfl
  have e1 : ∀ k : Fin 256, x1 (ix2 p k) = A1 (ix2 r k) := fun k => h1 (ix2 p k) (ix2 r k) hi0 rfl
  simp only [e0, e1]
  rfl

/-! ## The blocks the body is given -/

/-- Where the printed index maps send point `t`: the two row operands' and the output's block is row block `t` of its
    array; the weight arrays' and the bias row's one block is the whole array. Decided over the grid. -/
theorem lin1_idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

section Blocks
variable (V : (c : Dev nD) → (b : Ref sig .tc) → Buf (Elt Ideal) ((c : Thread nD τ).loc b)) (c : Dev nD) (t : Fin cfg1.N)

/-- The first row operand's block at point `t` is rows `t · 1024 + ·` of its array. -/
theorem lin1_rows_a (y : S1024x256.Idx) (i : S25600x256.Idx) (hi0 : (i 0).val = t.val * 1024 + (y 0).val)
    (hi1 : (i 1).val = (y 1).val) : iblk1 V c 0 t y = V c (Pipeline.arrRef spec1 0) i := by
  obtain ⟨e0, e1, -⟩ := lin1_idx t
  show V c (Pipeline.arrRef spec1 0) (((cfg1.win 0).blk t).view.emb y) = V c (Pipeline.arrRef spec1 0) i
  refine congrArg _ (funext fun a => Fin.ext ?_)
  match a with
  | ⟨0, _⟩ => show win1_0.index t (0 : Fin 2) * 1024 + 1 * (y 0).val = (i 0).val; rw [e0, hi0]; omega
  | ⟨1, _⟩ => show win1_0.index t (1 : Fin 2) * 256 + 1 * (y 1).val = (i 1).val; rw [e1, hi1]; omega

/-- The second row operand's block at point `t` is rows `t · 1024 + ·` of its array. -/
theorem lin1_rows_s (y : S1024x256.Idx) (i : S25600x256.Idx) (hi0 : (i 0).val = t.val * 1024 + (y 0).val)
    (hi1 : (i 1).val = (y 1).val) : iblk1 V c 1 t y = V c (Pipeline.arrRef spec1 1) i := by
  obtain ⟨-, -, e0, e1, -⟩ := lin1_idx t
  show V c (Pipeline.arrRef spec1 1) (((cfg1.win 1).blk t).view.emb y) = V c (Pipeline.arrRef spec1 1) i
  refine congrArg _ (funext fun a => Fin.ext ?_)
  match a with
  | ⟨0, _⟩ => show win1_1.index t (0 : Fin 2) * 1024 + 1 * (y 0).val = (i 0).val; rw [e0, hi0]; omega
  | ⟨1, _⟩ => show win1_1.index t (1 : Fin 2) * 256 + 1 * (y 1).val = (i 1).val; rw [e1, hi1]; omega

/-- The first weight array's block is the whole array. -/
theorem lin1_wn : (iblk1 V c 2 t : FVec Ideal S256x256 .bf16) = V c (Pipeline.arrRef spec1 2) := by
  obtain ⟨-, -, -, -, e0, e1, -⟩ := lin1_idx t
  funext y
  show V c (Pipeline.arrRef spec1 2) (((cfg1.win 2).blk t).view.emb y) = V c (Pipeline.arrRef spec1 2) y
  refine congrArg _ (funext fun a => Fin.ext ?_)
  match a with
  | ⟨0, _⟩ => show win1_2.index t (0 : Fin 2) * 256 + 1 * (y 0).val = (y 0).val; rw [e0]; omega
  | ⟨1, _⟩ => show win1_2.index t (1 : Fin 2) * 256 + 1 * (y 1).val = (y 1).val; rw [e1]; omega

/-- The second weight array's block is the whole array. -/
theorem lin1_ws : (iblk1 V c 3 t : FVec Ideal S256x256 .bf16) = V c (Pipeline.arrRef spec1 3) := by
  obtain ⟨-, -, -, -, -, -, e0, e1, -⟩ := lin1_idx t
  funext y
  show V c (Pipeline.arrRef spec1 3) (((cfg1.win 3).blk t).view.emb y) = V c (Pipeline.arrRef spec1 3) y
  refine congrArg _ (funext fun a => Fin.ext ?_)
  match a with
  | ⟨0, _⟩ => show win1_3.index t (0 : Fin 2) * 256 + 1 * (y 0).val = (y 0).val; rw [e0]; omega
  | ⟨1, _⟩ => show win1_3.index t (1 : Fin 2) * 256 + 1 * (y 1).val = (y 1).val; rw [e1]; omega

/-- The bias row's block is the whole row. -/
theorem lin1_bias : (iblk1 V c 4 t : FVec Ideal S1x256 .f32) = V c (Pipeline.arrRef spec1 4) := by
  obtain ⟨-, -, -, -, -, -, -, -, e0, e1, -⟩ := lin1_idx t
  funext y
  show V c (Pipeline.arrRef spec1 4) (((cfg1.win 4).blk t).view.emb y) = V c (Pipeline.arrRef spec1 4) y
  refine congrArg _ (funext fun a => Fin.ext ?_)
  match a with
  | ⟨0, _⟩ => show win1_4.index t (0 : Fin 2) * 1 + 1 * (y 0).val = (y 0).val; rw [e0]; omega
  | ⟨1, _⟩ => show win1_4.index t (1 : Fin 2) * 256 + 1 * (y 1).val = (y 1).val; rw [e1]; omega

/-! ## What a point writes back -/

/-- What point `t` writes back is block `t` of `linRelu` of the five arrays as the region finds them. -/
theorem lin1_flushed :
    (dat1 (F := Ideal) V c).flushed 5 t
      = ((cfg1.win 5).blk t).view.read (Elt Ideal) (Cert.Sage.linRelu (M := 25600) (K := 256) (N := 256)
          (V c (Pipeline.arrRef spec1 0)) (V c (Pipeline.arrRef spec1 1)) (V c (Pipeline.arrRef spec1 2))
          (V c (Pipeline.arrRef spec1 3)) (V c (Pipeline.arrRef spec1 4))) := by
  show (cfg1.win 5).cut (grid1.coords t) ((dat1 V c).after 5 t) = _
  rw [after1_5]
  unfold out1_5
  rw [View.canon_unit_zero lin1_offs]
  simp only [View.ld_unit_zero (S := S1024x256) lin1_offs, View.ld_unit_zero (S := S256x256) lin1_offs,
    View.ld_unit_zero (S := S1x256) lin1_offs]
  obtain ⟨-, -, -, -, -, -, -, -, -, -, e0, e1⟩ := lin1_idx t
  funext j
  refine lin1_pay_block (V c (Pipeline.arrRef spec1 0)) (V c (Pipeline.arrRef spec1 1)) (V c (Pipeline.arrRef spec1 2))
    (V c (Pipeline.arrRef spec1 3)) (V c (Pipeline.arrRef spec1 4))
    (iblk1 V c 0 t) (iblk1 V c 1 t) (iblk1 V c 2 t) (iblk1 V c 3 t) (iblk1 V c 4 t) t.val
    (lin1_rows_a V c t) (lin1_rows_s V c t) (lin1_wn V c t) (lin1_ws V c t) (lin1_bias V c t)
    j (((cfg1.win 5).blk t).view.emb j) ?_ ?_
  · show win1_5.index t (0 : Fin 2) * 1024 + 1 * (j 0).val = t.val * 1024 + (j 0).val; rw [e0]; omega
  · show win1_5.index t (1 : Fin 2) * 256 + 1 * (j 1).val = (j 1).val; rw [e1]; omega

end Blocks

/-! ## The blocks tile the output -/

/-- An index of the output array is in point `t`'s block iff each coordinate is in the block's range on its axis. -/
theorem lin1_mem_blk (t : Fin cfg1.N) (i : S25600x256.Idx) :
    i ∈ ((cfg1.win 5).blk t).view.set ↔ ∀ a : Fin 2, win1_5.index t a * S1024x256.size a ≤ (i a).val
      ∧ (i a).val < win1_5.index t a * S1024x256.size a + S1024x256.size a := by
  show i ∈ ((View.whole main_v56).slice (win1_5.rect t)).set ↔ _
  rw [View.set_slice_whole, Rect.mem_set_unit]
  exact Iff.rfl

/-- Row `r` of the output lies in the block of point `r / 1024`, which is written back. -/
theorem lin1_cover (i : S25600x256.Idx) :
    ∃ t : Fin cfg1.N, (cfg1.win 5).flush t = true ∧ i ∈ ((cfg1.win 5).blk t).view.set := by
  have h0 : (i 0).val < 25600 := idx2_lt0 i
  have h1 : (i 1).val < 256 := idx2_lt1 i
  have hN : cfg1.N = 25 := N_1
  have ht : (i 0).val / 1024 < cfg1.N := (show (i 0).val / 1024 < 25 by omega).trans_eq hN.symm
  obtain ⟨-, -, -, -, -, -, -, -, -, -, e0, e1⟩ := lin1_idx ⟨(i 0).val / 1024, ht⟩
  refine ⟨⟨(i 0).val / 1024, ht⟩, flush1_5 _, ?_⟩
  rw [lin1_mem_blk]
  intro a
  match a with
  | ⟨0, _⟩ =>
    show win1_5.index ⟨(i 0).val / 1024, ht⟩ (0 : Fin 2) * 1024 ≤ (i 0).val
      ∧ (i 0).val < win1_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win1_5.index ⟨(i 0).val / 1024, ht⟩ (1 : Fin 2) * 256 ≤ (i 1).val
      ∧ (i 1).val < win1_5.index ⟨(i 0).val / 1024, ht⟩ (1 : Fin 2) * 256 + 256
    rw [e1]; omega

/-! ## The array -/

/-- After the region, from ANY entry contents `V`: the output window's array is `linRelu` of the five input windows'
    arrays as the region found them. -/
theorem region1_arr (V : (c : Dev nD) → (b : Ref sig .tc) → Buf (Elt Ideal) ((c : Thread nD τ).loc b)) (c : Dev nD) :
    (dat1 (F := Ideal) V c).arrAt 5 cfg1.N
      = (Cert.Sage.linRelu (M := 25600) (K := 256) (N := 256)
          (V c (Pipeline.arrRef spec1 0)) (V c (Pipeline.arrRef spec1 1)) (V c (Pipeline.arrRef spec1 2))
          (V c (Pipeline.arrRef spec1 3)) (V c (Pipeline.arrRef spec1 4))) := by
  exact (dat1 (F := Ideal) V c).arrAt_eq_of_cover 5 _ (fun t _ => lin1_flushed V c t) lin1_cover

end Cert.KernelIdeal.Regions

end
-- ==== Proof.Fold1.lean ====
/-
  The kernel program from the first call's return to the second's: layer 1's output.

  The host operations between the calls read layer 0's output (the first rows of the first call's array) and the
  launch contents of layer 1's edge lists, weights and bias, and compute the five arrays the second call's windows
  read; the call leaves `linRelu` of them (Region1.lean), and the next host operation keeps the first 25000 rows:
  layer 1 (KernelLayer1.lean `KL1`) of layer 0's output.
-/
import proofs.«180757_j19524921327629_1_alg».proof.Proof.Fold0
import proofs.«180757_j19524921327629_1_alg».proof.Proof.KernelLayer1
import proofs.«180757_j19524921327629_1_alg».proof.Proof.Region1
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Layers Cert.KernelIdeal.Regions

variable (m : (ℓ : Loc nD τ sig) → Buf (Elt Ideal) ℓ) (ρ : Dev nD → PrngReg)

/-- Layer 1's output as a function of the launch contents. -/
def H2 (c : Dev nD) : FVec Ideal S25000x256 .f32 :=
  KL1 (H1 m c) (m ((c.tc : Thread nD τ).loc main_arg12)) (m ((c.tc : Thread nD τ).loc main_arg13)) (m ((c.tc : Thread nD τ).loc main_arg4)) (m ((c.tc : Thread nD τ).loc main_arg5)) (m ((c.tc : Thread nD τ).loc main_arg6))

set_option maxHeartbeats 4000000 in
/-- The first row operand at the call's entry: the padded mean rows of layer 0's output. -/
theorem e1_0 (c : Dev nD) : W11 (F := Ideal) m ρ c (Proc.devRef .tc main_v53) = meanPad1 (H1 m c) (m ((c.tc : Thread nD τ).loc main_arg12)) (m ((c.tc : Thread nD τ).loc main_arg13)) := by
  dsimp only [W11, W10, W9, W8, W7]
  simp only [hostOps1, hostOps1_1, hostOps1_2, hostOps1_3, hostOps1_4]
  after_results_simp
  rw [W6_arg12, W6_arg13, x0]
  rfl

set_option maxHeartbeats 4000000 in
/-- The second row operand at the call's entry: the padded first rows of layer 0's output. -/
theorem e1_1 (c : Dev nD) : W11 (F := Ideal) m ρ c (Proc.devRef .tc main_v54) = selfPad1 (H1 m c) := by
  dsimp only [W11, W10, W9, W8, W7]
  simp only [hostOps1, hostOps1_1, hostOps1_2, hostOps1_3, hostOps1_4]
  after_results_simp
  rw [x0]
  rfl

set_option maxHeartbeats 4000000 in
/-- The neighbour weights at the call's entry. -/
theorem e1_2 (c : Dev nD) : W11 (F := Ideal) m ρ c (Proc.devRef .tc main_v51) = castW (s := S256x256) (m ((c.tc : Thread nD τ).loc main_arg4)) := by
  dsimp only [W11, W10, W9, W8, W7]
  simp only [hostOps1, hostOps1_1, hostOps1_2, hostOps1_3, hostOps1_4]
  after_results_simp
  rw [W6_arg4]

set_option maxHeartbeats 4000000 in
/-- The own-row weights at the call's entry. -/
theorem e1_3 (c : Dev nD) : W11 (F := Ideal) m ρ c (Proc.devRef .tc main_v52) = castW (s := S256x256) (m ((c.tc : Thread nD τ).loc main_arg5)) := by
  dsimp only [W11, W10, W9, W8, W7]
  simp only [hostOps1, hostOps1_1, hostOps1_2, hostOps1_3, hostOps1_4]
  after_results_simp
  rw [W6_arg5]

set_option maxHeartbeats 4000000 in
/-- The bias row at the call's entry. -/
theorem e1_4 (c : Dev nD) : W11 (F := Ideal) m ρ c (Proc.devRef .tc main_v55) = shapeCast S1x256 (m ((c.tc : Thread nD τ).loc main_arg6)) shapeCasts_S256_S1x256 := by
  dsimp only [W11, W10, W9, W8, W7]
  simp only [hostOps1, hostOps1_1, hostOps1_2, hostOps1_3, hostOps1_4]
  after_results_simp
  rw [W6_arg6] <;> rfl

/-- What the second call leaves in its output array, over the launch contents. -/
theorem x1 (c : Dev nD) : W12 (F := Ideal) m ρ c (Proc.devRef .tc main_v56)
    = Cert.Sage.linRelu (M := 25600) (K := 256) (N := 256) (meanPad1 (H1 m c) (m ((c.tc : Thread nD τ).loc main_arg12)) (m ((c.tc : Thread nD τ).loc main_arg13))) (selfPad1 (H1 m c))
        (castW (s := S256x256) (m ((c.tc : Thread nD τ).loc main_arg4))) (castW (s := S256x256) (m ((c.tc : Thread nD τ).loc main_arg5))) (shapeCast S1x256 (m ((c.tc : Thread nD τ).loc main_arg6)) shapeCasts_S256_S1x256) := by
  refine (W12_arr m ρ c 5).trans ((region1_arr (V11 m ρ) c).trans ?_)
  show Cert.Sage.linRelu (M := 25600) (K := 256) (N := 256) (W11 (F := Ideal) m ρ c (Proc.devRef .tc main_v53)) (W11 (F := Ideal) m ρ c (Proc.devRef .tc main_v54))
    (W11 (F := Ideal) m ρ c (Proc.devRef .tc main_v51)) (W11 (F := Ideal) m ρ c (Proc.devRef .tc main_v52)) (W11 (F := Ideal) m ρ c (Proc.devRef .tc main_v55)) = _
  rw [e1_0, e1_1, e1_2, e1_3, e1_4]

set_option maxHeartbeats 4000000 in
/-- Layer 1's output: the first 25000 rows of the call's array. -/
theorem h2 (c : Dev nD) : W13 (F := Ideal) m ρ c (Proc.devRef .tc main_v57) = H2 m c := by
  dsimp only [W13]
  simp only [hostOps2]
  after_results_simp
  rw [x1]
  rfl

set_option maxHeartbeats 4000000 in
/-- Argument 7 is as launched when the second call returns. -/
theorem W12_arg7 (c : Dev nD) : W12 (F := Ideal) m ρ c (Proc.devRef .tc main_arg7) = m ((c.tc : Thread nD τ).loc main_arg7) := by
  rw [W12_of_ne m ρ c main_arg7 (by decide)]
  dsimp only [W11, W10, W9, W8, W7]
  simp only [hostOps1, hostOps1_1, hostOps1_2, hostOps1_3, hostOps1_4]
  after_results_simp
  exact W6_arg7 m ρ c

set_option maxHeartbeats 4000000 in
/-- Argument 8 is as launched when the second call returns. -/
theorem W12_arg8 (c : Dev nD) : W12 (F := Ideal) m ρ c (Proc.devRef .tc main_arg8) = m ((c.tc : Thread nD τ).loc main_arg8) := by
  rw [W12_of_ne m ρ c main_arg8 (by decide)]
  dsimp only [W11, W10, W9, W8, W7]
  simp only [hostOps1, hostOps1_1, hostOps1_2, hostOps1_3, hostOps1_4]
  after_results_simp
  exact W6_arg8 m ρ c

set_option maxHeartbeats 4000000 in
/-- Argument 9 is as launched when the second call returns. -/
theorem W12_arg9 (c : Dev nD) : W12 (F := Ideal) m ρ c (Proc.devRef .tc main_arg9) = m ((c.tc : Thread nD τ).loc main_arg9) := by
  rw [W12_of_ne m ρ c main_arg9 (by decide)]
  dsimp only [W11, W10, W9, W8, W7]
  simp only [hostOps1, hostOps1_1, hostOps1_2, hostOps1_3, hostOps1_4]
  after_results_simp
  exact W6_arg9 m ρ c

set_option maxHeartbeats 4000000 in
/-- Argument 14 is as launched when the second call returns. -/
theorem W12_arg14 (c : Dev nD) : W12 (F := Ideal) m ρ c (Proc.devRef .tc main_arg14) = m ((c.tc : Thread nD τ).loc main_arg14) := by
  rw [W12_of_ne m ρ c main_arg14 (by decide)]
  dsimp only [W11, W10, W9, W8, W7]
  simp only [hostOps1, hostOps1_1, hostOps1_2, hostOps1_3, hostOps1_4]
  after_results_simp
  exact W6_arg14 m ρ c

set_option maxHeartbeats 4000000 in
/-- Argument 15 is as launched when the second call returns. -/
theorem W12_arg15 (c : Dev nD) : W12 (F := Ideal) m ρ c (Proc.devRef .tc main_arg15) = m ((c.tc : Thread nD τ).loc main_arg15) := by
  rw [W12_of_ne m ρ c main_arg15 (by decide)]
  dsimp only [W11, W10, W9, W8, W7]
  simp only [hostOps1, hostOps1_1, hostOps1_2, hostOps1_3, hostOps1_4]
  after_results_simp
  exact W6_arg15 m ρ c

end Cert.KernelIdeal.Fold

end
-- ==== Proof.KernelLayer2.lean ====
/-
  One layer of the kernel program as a function of whole arrays (the extents say which).

  The layer gathers the source rows, sums them by destination row, divides by max(count, 1), pads the mean rows and
  the nodes' own rows with rows of the padding value up to a multiple of 1024, applies the dense part (Spec.lean) and
  keeps the first rows. The count is summed as a VECTOR here (one entry per destination row).
-/
import proofs.«180757_j19524921327629_1_alg».proof.Proof.Gen.KernelIdeal
import proofs.«180757_j19524921327629_1_alg».proof.Proof.Spec

noncomputable section

namespace Cert.KernelIdeal.Layers

open Idealize.ShloMosaic Cert.KernelIdeal Cert.KernelIdeal.Gen

/-- The start rows of the gather, negative ids wrapped once. -/
def srcIx2 (src : IVec S125000 32) : IVec S125000x1 32 :=
  broadcastInDim S125000x1 ![0] bcast_S125000_S125000x1_0
    (select (cmpi .slt src (broadcastInDim S125000 ![] bcast_S_S125000 (constantI S_ 32 0#32)))
      (addi src (broadcastInDim S125000 ![] bcast_S_S125000 (constantI S_ 32 25000#32))) src)

/-- The messages summed by destination row. -/
def agg2 (h : FVec Ideal S25000x256 .f32) (src dst : IVec S125000 32) : FVec Ideal S12500x256 .f32 :=
  Host.scatterAdd scatter_S12500x256_S125000x1_S125000x256_1_0_0_1
    (broadcastInDim S12500x256 ![] bcast_S_S12500x256 (constant S_ .f32 0x00000000#32))
    (broadcastInDim S125000x1 ![0] bcast_S125000_S125000x1_0 dst)
    (Host.gather gather_S25000x256_S125000x1_S125000x256_1_0_n_n_0_1_1256 h (srcIx2 src))

/-- The number of messages per destination row, as a vector. -/
def cnt2 (dst : IVec S125000 32) : FVec Ideal S12500 .f32 :=
  Host.scatterAdd scatter_S12500_S125000x1_S125000_n_0_0_1
    (broadcastInDim S12500 ![] bcast_S_S12500 (constant S_ .f32 0x00000000#32))
    (broadcastInDim S125000x1 ![0] bcast_S125000_S125000x1_0 dst)
    (broadcastInDim S125000 ![] bcast_S_S125000 (constant S_ .f32 0x3F800000#32))

/-- The mean message per destination row (the sum over max(count, 1)). -/
def mean2 (h : FVec Ideal S25000x256 .f32) (src dst : IVec S125000 32) : FVec Ideal S12500x256 .f32 :=
  Host.divf (agg2 h src dst)
    (broadcastInDim S12500x256 ![0, 1] bcast_S12500x1_S12500x256_0_1
      (broadcastInDim S12500x1 ![0] bcast_S12500_S12500x1_0
        (maximumf (cnt2 dst) (broadcastInDim S12500 ![] bcast_S_S12500 (constant S_ .f32 0x3F800000#32)))))

/-- The padded mean rows the call reads (rows past 12500 hold the padding value). -/
def meanPad2 (h : FVec Ideal S25000x256 .f32) (src dst : IVec S125000 32) : FVec Ideal S13312x256 .bf16 :=
  pad S13312x256 ![0, 0] ![812, 0] ![0, 0] (truncf .bf16 (mean2 h src dst) bitsLt_bf16_f32)
    (sitofp .bf16 (constantI S_ 32 0#32) : FVec Ideal S_ .bf16) pads_S12500x256_S13312x256_08120_000 h_S_

/-- The padded own rows the call reads. -/
def selfPad2 (h : FVec Ideal S25000x256 .f32) : FVec Ideal S13312x256 .bf16 :=
  pad S13312x256 ![0, 0] ![812, 0] ![0, 0]
    (truncf .bf16 (extractStridedSlice S12500x256 ![0, 0] h slices_S25000x256_S12500x256_0_0) bitsLt_bf16_f32)
    (sitofp .bf16 (constantI S_ 32 0#32) : FVec Ideal S_ .bf16) pads_S12500x256_S13312x256_08120_000 h_S_

/-- The layer as one function of its inputs: the call's array, then its first 12500 rows. -/
def KL2 (h : FVec Ideal S25000x256 .f32) (src dst : IVec S125000 32) (Wn Ws : FVec Ideal S256x128 .f32)
    (b : FVec Ideal S128 .f32) : FVec Ideal S12500x128 .f32 :=
  extractStridedSlice S12500x128 ![0, 0]
    (Cert.Sage.lin (meanPad2 h src dst) (selfPad2 h) (truncf .bf16 Wn bitsLt_bf16_f32) (truncf .bf16 Ws bitsLt_bf16_f32)
      (shapeCast S1x128 b shapeCasts_S128_S1x128) : FVec Ideal S13312x128 .f32)
    slices_S13312x128_S12500x128_0_0

end Cert.KernelIdeal.Layers

end
-- ==== Proof.Region2.lean ====
/-
  What the pipelined call `cfg2` leaves in its output array.

  The call walks 13 row blocks of 1024 rows; at block t it reads rows [1024 t, 1024 t + 1024) of the two row
  operands and the whole of the two weight arrays and of the bias row, and writes rows [1024 t, 1024 t + 1024) of the
  output with the dense part (Spec.lean `lin`) of those blocks: this call takes no positive part. Row p of `lin` reads
  row p of the row operands only, so each written block is the restriction of ONE whole-array function of the five
  arrays, and the blocks tile the output.
-/
import proofs.«180757_j19524921327629_1_alg».proof.Proof.Gen.KernelIdeal.Frame
import proofs.«180757_j19524921327629_1_alg».proof.Proof.Spec
import proofs.«180757_j19524921327629_1_alg».proof.Proof.LibPlainDot
import Idealize.ShloMosaic.Lib.Pipeline.Value
import Idealize.ShloMosaic.Lib.ValueIdx

set_option maxRecDepth 16384

noncomputable section

namespace Cert.KernelIdeal.Regions

open Idealize.ShloMosaic Idealize.ShloMosaic.TcCoe Idealize.ShloMosaic.ValueIdx Idealize.SL.Sem
open Cert.KernelIdeal Cert.KernelIdeal.Gen
open Idealize.ShloMosaic.Pipeline (Dat Cfg Window)

/-- The zero offsets of a whole-buffer access, spelt as the constant function. -/
theorem lin2_offs : (![0, 0] : Fin 2 → Nat) = fun _ => 0 :=
  funext fun a => match a with | ⟨0, _⟩ => rfl | ⟨1, _⟩ => rfl

/-! ## The body's value at an entry -/

/-- The body's value at entry (p, q) of its block: the two row-by-column sums of the loaded blocks and the bias row's
    entry q, added in this order. -/
theorem lin2_pay_apply (x0 x1 : FVec Ideal S1024x256 .bf16) (x2 x3 : FVec Ideal S256x128 .bf16) (x4 : FVec Ideal S1x128 .f32)
    (p : Fin 1024) (q : Fin 128) :
    k2_pay1 (F := Ideal) x0 x1 x2 x3 x4 (ix2 p q)
      = (∑ k : Fin 256, x0 (ix2 p k) * x2 (ix2 k q)) + (∑ k : Fin 256, x1 (ix2 p k) * x3 (ix2 k q))
          + x4 (ix2 (0 : Fin 1) q) := by
  unfold k2_pay1
  simp only [shapeCast_self]
  rw [addf_apply, addf_apply]
  have e1 : matmul dot_S1024x256_S256x128_S1024x128_1_0_0_1_n_n none x0 x2 (constant (F := Ideal) S1024x128 .f32 0x00000000#32) (ix2 p q)
      = ∑ k : Fin 256, x0 (ix2 p k) * x2 (ix2 k q) := PlainDot.matmul_zero_apply 1024 256 128 x0 x2 p q
  have e2 : matmul dot_S1024x256_S256x128_S1024x128_1_0_0_1_n_n none x1 x3 (constant (F := Ideal) S1024x128 .f32 0x00000000#32) (ix2 p q)
      = ∑ k : Fin 256, x1 (ix2 p k) * x3 (ix2 k q) := PlainDot.matmul_zero_apply 1024 256 128 x1 x3 p q
  have e3 : broadcastTo S1024x128 x4 broadcasts_S1x128_S1024x128 (ix2 p q) = x4 (ix2 (0 : Fin 1) q) :=
    broadcastTo_apply x4 broadcasts_S1x128_S1024x128 (ix2 p q) (ix2 (0 : Fin 1) q) fun a =>
      match a with | ⟨0, _⟩ => rfl | ⟨1, _⟩ => rfl
  rw [e1, e2, e3]

/-- An entry of the body's value on blocks that are row block `n` of two row arrays, the whole weight arrays and the
    whole bias row, is the entry of `lin` of the arrays at the array row `n · 1024 + p`: row p of the block is that row of
    the arrays, and `lin` reads no other row. -/
theorem lin2_pay_block (A0 A1 : FVec Ideal S13312x256 .bf16) (W0 W1 : FVec Ideal S256x128 .bf16) (b : FVec Ideal S1x128 .f32)
    (x0 x1 : FVec Ideal S1024x256 .bf16) (x2 x3 : FVec Ideal S256x128 .bf16) (x4 : FVec Ideal S1x128 .f32) (n : Nat)
    (h0 : ∀ (y : S1024x256.Idx) (i : S13312x256.Idx), (i 0).val = n * 1024 + (y 0).val → (i 1).val = (y 1).val → x0 y = A0 i)
    (h1 : ∀ (y : S1024x256.Idx) (i : S13312x256.Idx), (i 0).val = n * 1024 + (y 0).val → (i 1).val = (y 1).val → x1 y = A1 i)
    (h2 : x2 = W0) (h3 : x3 = W1) (h4 : x4 = b)
    (y : S1024x128.Idx) (i : S13312x128.Idx) (hi0 : (i 0).val = n * 1024 + (y 0).val) (hi1 : (i 1).val = (y 1).val) :
    k2_pay1 (F := Ideal) x0 x1 x2 x3 x4 y = Cert.Sage.lin (M := 13312) (K := 256) (N := 128) A0 A1 W0 W1 b i := by
  subst h2 h3 h4
  obtain ⟨p, q, rfl⟩ : ∃ (p : Fin 1024) (q : Fin 128), y = ix2 p q := ⟨y 0, y 1, eq_ix2 y⟩
  obtain ⟨r, s, rfl⟩ : ∃ (r : Fin 13312) (s : Fin 128), i = ix2 r s := ⟨i 0, i 1, eq_ix2 i⟩
  obtain rfl : s = q := Fin.ext hi1
  rw [lin2_pay_apply]
  have e0 : ∀ k : Fin 256, x0 (ix2 p k) = A0 (ix2 r k) := fun k => h0 (ix2 p k) (ix2 r k) hi0 rfl
  have e1 : ∀ k : Fin 256, x1 (ix2 p k) = A1 (ix2 r k) := fun k => h1 (ix2 p k) (ix2 r k) hi0 rfl
  simp only [e0, e1]
  rfl

/-! ## The blocks the body is given -/

/-- Where the printed index maps send point `t`: the two row operands' and the output's block is row block `t` of its
    array; the weight arrays' and the bias row's one block is the whole array. Decided over the grid. -/
theorem lin2_idx : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

section Blocks
variable (V : (c : Dev nD) → (b : Ref sig .tc) → Buf (Elt Ideal) ((c : Thread nD τ).loc b)) (c : Dev nD) (t : Fin cfg2.N)

/-- The first row operand's block at point `t` is rows `t · 1024 + ·` of its array. -/
theorem lin2_rows_a (y : S1024x256.Idx) (i : S13312x256.Idx) (hi0 : (i 0).val = t.val * 1024 + (y 0).val)
    (hi1 : (i 1).val = (y 1).val) : iblk2 V c 0 t y = V c (Pipeline.arrRef spec2 0) i := by
  obtain ⟨e0, e1, -⟩ := lin2_idx t
  show V c (Pipeline.arrRef spec2 0) (((cfg2.win 0).blk t).view.emb y) = V c (Pipeline.arrRef spec2 0) i
  refine congrArg _ (funext fun a => Fin.ext ?_)
  match a with
  | ⟨0, _⟩ => show win2_0.index t (0 : Fin 2) * 1024 + 1 * (y 0).val = (i 0).val; rw [e0, hi0]; omega
  | ⟨1, _⟩ => show win2_0.index t (1 : Fin 2) * 256 + 1 * (y 1).val = (i 1).val; rw [e1, hi1]; omega

/-- The second row operand's block at point `t` is rows `t · 1024 + ·` of its array. -/
theorem lin2_rows_s (y : S1024x256.Idx) (i : S13312x256.Idx) (hi0 : (i 0).val = t.val * 1024 + (y 0).val)
    (hi1 : (i 1).val = (y 1).val) : iblk2 V c 1 t y = V c (Pipeline.arrRef spec2 1) i := by
  obtain ⟨-, -, e0, e1, -⟩ := lin2_idx t
  show V c (Pipeline.arrRef spec2 1) (((cfg2.win 1).blk t).view.emb y) = V c (Pipeline.arrRef spec2 1) i
  refine congrArg _ (funext fun a => Fin.ext ?_)
  match a with
  | ⟨0, _⟩ => show win2_1.index t (0 : Fin 2) * 1024 + 1 * (y 0).val = (i 0).val; rw [e0, hi0]; omega
  | ⟨1, _⟩ => show win2_1.index t (1 : Fin 2) * 256 + 1 * (y 1).val = (i 1).val; rw [e1, hi1]; omega

/-- The first weight array's block is the whole array. -/
theorem lin2_wn : (iblk2 V c 2 t : FVec Ideal S256x128 .bf16) = V c (Pipeline.arrRef spec2 2) := by
  obtain ⟨-, -, -, -, e0, e1, -⟩ := lin2_idx t
  funext y
  show V c (Pipeline.arrRef spec2 2) (((cfg2.win 2).blk t).view.emb y) = V c (Pipeline.arrRef spec2 2) y
  refine congrArg _ (funext fun a => Fin.ext ?_)
  match a with
  | ⟨0, _⟩ => show win2_2.index t (0 : Fin 2) * 256 + 1 * (y 0).val = (y 0).val; rw [e0]; omega
  | ⟨1, _⟩ => show win2_2.index t (1 : Fin 2) * 128 + 1 * (y 1).val = (y 1).val; rw [e1]; omega

/-- The second weight array's block is the whole array. -/
theorem lin2_ws : (iblk2 V c 3 t : FVec Ideal S256x128 .bf16) = V c (Pipeline.arrRef spec2 3) := by
  obtain ⟨-, -, -, -, -, -, e0, e1, -⟩ := lin2_idx t
  funext y
  show V c (Pipeline.arrRef spec2 3) (((cfg2.win 3).blk t).view.emb y) = V c (Pipeline.arrRef spec2 3) y
  refine congrArg _ (funext fun a => Fin.ext ?_)
  match a with
  | ⟨0, _⟩ => show win2_3.index t (0 : Fin 2) * 256 + 1 * (y 0).val = (y 0).val; rw [e0]; omega
  | ⟨1, _⟩ => show win2_3.index t (1 : Fin 2) * 128 + 1 * (y 1).val = (y 1).val; rw [e1]; omega

/-- The bias row's block is the whole row. -/
theorem lin2_bias : (iblk2 V c 4 t : FVec Ideal S1x128 .f32) = V c (Pipeline.arrRef spec2 4) := by
  obtain ⟨-, -, -, -, -, -, -, -, e0, e1, -⟩ := lin2_idx t
  funext y
  show V c (Pipeline.arrRef spec2 4) (((cfg2.win 4).blk t).view.emb y) = V c (Pipeline.arrRef spec2 4) y
  refine congrArg _ (funext fun a => Fin.ext ?_)
  match a with
  | ⟨0, _⟩ => show win2_4.index t (0 : Fin 2) * 1 + 1 * (y 0).val = (y 0).val; rw [e0]; omega
  | ⟨1, _⟩ => show win2_4.index t (1 : Fin 2) * 128 + 1 * (y 1).val = (y 1).val; rw [e1]; omega

/-! ## What a point writes back -/

/-- What point `t` writes back is block `t` of `lin` of the five arrays as the region finds them. -/
theorem lin2_flushed :
    (dat2 (F := Ideal) V c).flushed 5 t
      = ((cfg2.win 5).blk t).view.read (Elt Ideal) (Cert.Sage.lin (M := 13312) (K := 256) (N := 128)
          (V c (Pipeline.arrRef spec2 0)) (V c (Pipeline.arrRef spec2 1)) (V c (Pipeline.arrRef spec2 2))
          (V c (Pipeline.arrRef spec2 3)) (V c (Pipeline.arrRef spec2 4))) := by
  show (cfg2.win 5).cut (grid2.coords t) ((dat2 V c).after 5 t) = _
  rw [after2_5]
  unfold out2_5
  rw [View.canon_unit_zero lin2_offs]
  simp only [View.ld_unit_zero (S := S1024x256) lin2_offs, View.ld_unit_zero (S := S256x128) lin2_offs,
    View.ld_unit_zero (S := S1x128) lin2_offs]
  obtain ⟨-, -, -, -, -, -, -, -, -, -, e0, e1⟩ := lin2_idx t
  funext j
  refine lin2_pay_block (V c (Pipeline.arrRef spec2 0)) (V c (Pipeline.arrRef spec2 1)) (V c (Pipeline.arrRef spec2 2))
    (V c (Pipeline.arrRef spec2 3)) (V c (Pipeline.arrRef spec2 4))
    (iblk2 V c 0 t) (iblk2 V c 1 t) (iblk2 V c 2 t) (iblk2 V c 3 t) (iblk2 V c 4 t) t.val
    (lin2_rows_a V c t) (lin2_rows_s V c t) (lin2_wn V c t) (lin2_ws V c t) (lin2_bias V c t)
    j (((cfg2.win 5).blk t).view.emb j) ?_ ?_
  · show win2_5.index t (0 : Fin 2) * 1024 + 1 * (j 0).val = t.val * 1024 + (j 0).val; rw [e0]; omega
  · show win2_5.index t (1 : Fin 2) * 128 + 1 * (j 1).val = (j 1).val; rw [e1]; omega

end Blocks

/-! ## The blocks tile the output -/

/-- An index of the output array is in point `t`'s block iff each coordinate is in the block's range on its axis. -/
theorem lin2_mem_blk (t : Fin cfg2.N) (i : S13312x128.Idx) :
    i ∈ ((cfg2.win 5).blk t).view.set ↔ ∀ a : Fin 2, win2_5.index t a * S1024x128.size a ≤ (i a).val
      ∧ (i a).val < win2_5.index t a * S1024x128.size a + S1024x128.size a := by
  show i ∈ ((View.whole main_v85).slice (win2_5.rect t)).set ↔ _
  rw [View.set_slice_whole, Rect.mem_set_unit]
  exact Iff.rfl

/-- Row `r` of the output lies in the block of point `r / 1024`, which is written back. -/
theorem lin2_cover (i : S13312x128.Idx) :
    ∃ t : Fin cfg2.N, (cfg2.win 5).flush t = true ∧ i ∈ ((cfg2.win 5).blk t).view.set := by
  have h0 : (i 0).val < 13312 := idx2_lt0 i
  have h1 : (i 1).val < 128 := idx2_lt1 i
  have hN : cfg2.N = 13 := N_2
  have ht : (i 0).val / 1024 < cfg2.N := (show (i 0).val / 1024 < 13 by omega).trans_eq hN.symm
  obtain ⟨-, -, -, -, -, -, -, -, -, -, e0, e1⟩ := lin2_idx ⟨(i 0).val / 1024, ht⟩
  refine ⟨⟨(i 0).val / 1024, ht⟩, flush2_5 _, ?_⟩
  rw [lin2_mem_blk]
  intro a
  match a with
  | ⟨0, _⟩ =>
    show win2_5.index ⟨(i 0).val / 1024, ht⟩ (0 : Fin 2) * 1024 ≤ (i 0).val
      ∧ (i 0).val < win2_5.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_5.index ⟨(i 0).val / 1024, ht⟩ (1 : Fin 2) * 128 ≤ (i 1).val
      ∧ (i 1).val < win2_5.index ⟨(i 0).val / 1024, ht⟩ (1 : Fin 2) * 128 + 128
    rw [e1]; omega

/-! ## The array -/

/-- After the region, from ANY entry contents `V`: the output window's array is `lin` of the five input windows'
    arrays as the region found them. -/
theorem region2_arr (V : (c : Dev nD) → (b : Ref sig .tc) → Buf (Elt Ideal) ((c : Thread nD τ).loc b)) (c : Dev nD) :
    (dat2 (F := Ideal) V c).arrAt 5 cfg2.N
      = (Cert.Sage.lin (M := 13312) (K := 256) (N := 128)
          (V c (Pipeline.arrRef spec2 0)) (V c (Pipeline.arrRef spec2 1)) (V c (Pipeline.arrRef spec2 2))
          (V c (Pipeline.arrRef spec2 3)) (V c (Pipeline.arrRef spec2 4))) := by
  exact (dat2 (F := Ideal) V c).arrAt_eq_of_cover 5 _ (fun t _ => lin2_flushed V c t) lin2_cover

end Cert.KernelIdeal.Regions

end
-- ==== Proof.Fold2.lean ====
/-
  The kernel program from the second call's return to the end: the result.

  The host operations after the second call read layer 1's output and the launch contents of layer 2's edge lists,
  weights and bias, and compute the five arrays the third call's windows read; the call leaves `lin` of them
  (Region2.lean: no positive part in the last layer), and the last host operation keeps the first 12500 rows: the
  result buffer holds layer 2 of layer 1 of layer 0 of the arguments.
-/
import proofs.«180757_j19524921327629_1_alg».proof.Proof.Fold1
import proofs.«180757_j19524921327629_1_alg».proof.Proof.KernelLayer2
import proofs.«180757_j19524921327629_1_alg».proof.Proof.Region2
import Idealize.ShloMosaic.Lib.StableHlo.Run

set_option maxRecDepth 16384

noncomputable section

namespace Cert.KernelIdeal.Fold

open Idealize.ShloMosaic Idealize.ShloMosaic.TcCoe Idealize.SL.Sem Idealize.ShloMosaic.StableHlo
open Cert.KernelIdeal Cert.KernelIdeal.Gen Cert.KernelIdeal.Layers Cert.KernelIdeal.Regions

variable (m : (ℓ : Loc nD τ sig) → Buf (Elt Ideal) ℓ) (ρ : Dev nD → PrngReg)

/-- The program's result as a function of the launch contents: the three layers composed. -/
def composed (c : Dev nD) : FVec Ideal S12500x128 .f32 :=
  KL2 (H2 m c) (m ((c.tc : Thread nD τ).loc main_arg14)) (m ((c.tc : Thread nD τ).loc main_arg15)) (m ((c.tc : Thread nD τ).loc main_arg7)) (m ((c.tc : Thread nD τ).loc main_arg8)) (m ((c.tc : Thread nD τ).loc main_arg9))

set_option maxHeartbeats 4000000 in
/-- The first row operand at the call's entry: the padded mean rows of layer 1's output. -/
theorem e2_0 (c : Dev nD) : W17 (F := Ideal) m ρ c (Proc.devRef .tc main_v82) = meanPad2 (H2 m c) (m ((c.tc : Thread nD τ).loc main_arg14)) (m ((c.tc : Thread nD τ).loc main_arg15)) := by
  dsimp only [W17, W16, W15, W14, W13]
  simp only [hostOps2, hostOps2_1, hostOps2_2, hostOps2_3, hostOps2_4]
  after_results_simp
  rw [W12_arg14, W12_arg15, x1]
  rfl

set_option maxHeartbeats 4000000 in
/-- The second row operand at the call's entry: the padded first rows of layer 1's output. -/
theorem e2_1 (c : Dev nD) : W17 (F := Ideal) m ρ c (Proc.devRef .tc main_v83) = selfPad2 (H2 m c) := by
  dsimp only [W17, W16, W15, W14, W13]
  simp only [hostOps2, hostOps2_1, hostOps2_2, hostOps2_3, hostOps2_4]
  after_results_simp
  rw [x1]
  rfl

set_option maxHeartbeats 4000000 in
/-- The neighbour weights at the call's entry. -/
theorem e2_2 (c : Dev nD) : W17 (F := Ideal) m ρ c (Proc.devRef .tc main_v80) = castW (s := S256x128) (m ((c.tc : Thread nD τ).loc main_arg7)) := by
  dsimp only [W17, W16, W15, W14, W13]
  simp only [hostOps2, hostOps2_1, hostOps2_2, hostOps2_3, hostOps2_4]
  after_results_simp
  rw [W12_arg7]

set_option maxHeartbeats 4000000 in
/-- The own-row weights at the call's entry. -/
theorem e2_3 (c : Dev nD) : W17 (F := Ideal) m ρ c (Proc.devRef .tc main_v81) = castW (s := S256x128) (m ((c.tc : Thread nD τ).loc main_arg8)) := by
  dsimp only [W17, W16, W15, W14, W13]
  simp only [hostOps2, hostOps2_1, hostOps2_2, hostOps2_3, hostOps2_4]
  after_results_simp
  rw [W12_arg8]

set_option maxHeartbeats 4000000 in
/-- The bias row at the call's entry. -/
theorem e2_4 (c : Dev nD) : W17 (F := Ideal) m ρ c (Proc.devRef .tc main_v84) = shapeCast S1x128 (m ((c.tc : Thread nD τ).loc main_arg9)) shapeCasts_S128_S1x128 := by
  dsimp only [W17, W16, W15, W14, W13]
  simp only [hostOps2, hostOps2_1, hostOps2_2, hostOps2_3, hostOps2_4]
  after_results_simp
  rw [W12_arg9] <;> rfl

/-- What the third call leaves in its output array, over the launch contents. -/
theorem x2 (c : Dev nD) : W18 (F := Ideal) m ρ c (Proc.devRef .tc main_v85)
    = Cert.Sage.lin (M := 13312) (K := 256) (N := 128) (meanPad2 (H2 m c) (m ((c.tc : Thread nD τ).loc main_arg14)) (m ((c.tc : Thread nD τ).loc main_arg15))) (selfPad2 (H2 m c))
        (castW (s := S256x128) (m ((c.tc : Thread nD τ).loc main_arg7))) (castW (s := S256x128) (m ((c.tc : Thread nD τ).loc main_arg8))) (shapeCast S1x128 (m ((c.tc : Thread nD τ).loc main_arg9)) shapeCasts_S128_S1x128) := by
  refine (W18_arr m ρ c 5).trans ((region2_arr (V17 m ρ) c).trans ?_)
  show Cert.Sage.lin (M := 13312) (K := 256) (N := 128) (W17 (F := Ideal) m ρ c (Proc.devRef .tc main_v82)) (W17 (F := Ideal) m ρ c (Proc.devRef .tc main_v83))
    (W17 (F := Ideal) m ρ c (Proc.devRef .tc main_v80)) (W17 (F := Ideal) m ρ c (Proc.devRef .tc main_v81)) (W17 (F := Ideal) m ρ c (Proc.devRef .tc main_v84)) = _
  rw [e2_0, e2_1, e2_2, e2_3, e2_4]

set_option maxHeartbeats 4000000 in
/-- The result buffer at the last boundary: the first 12500 rows of the third call's array. -/
theorem result (c : Dev nD) : W19 (F := Ideal) m ρ c (Proc.devRef .tc main_v86) = composed m c := by
  dsimp only [W19]
  simp only [hostOps3]
  after_results_simp
  rw [x2]
  rfl

end Cert.KernelIdeal.Fold

end
-- ==== Proof.RefLayer0.lean ====
/-
  One layer of the reference program as a function of whole arrays (the extents say which).

  The layer gathers the source rows, sums them by destination row, divides by max(count, 1) and applies
  mean · Wn + own rows · Ws + bias as two whole matrix products. The count is summed as a one-COLUMN array here.
-/
import proofs.«180757_j19524921327629_1_alg».proof.Proof.Gen.ReferenceIdeal
import Idealize.ShloMosaic.PureOps.Ideal.Laws

noncomputable section

namespace Cert.ReferenceIdeal.Layers

open Idealize.ShloMosaic Cert.ReferenceIdeal Cert.ReferenceIdeal.Gen

/-- The start rows of the gather, negative ids wrapped once. -/
def srcIx0 (src : IVec S500000 32) : IVec S500000x1 32 :=
  broadcastInDim S500000x1 ![0] bcast_S500000_S500000x1_0
    (select (cmpi .slt src (broadcastInDim S500000 ![] bcast_S_S500000 (constantI S_ 32 0#32)))
      (addi src (broadcastInDim S500000 ![] bcast_S_S500000 (constantI S_ 32 100000#32))) src)

/-- The messages summed by destination row. -/
def agg0 (h : FVec Ideal S100000x256 .f32) (src dst : IVec S500000 32) : FVec Ideal S50000x256 .f32 :=
  Host.scatterAdd scatter_S50000x256_S500000x1_S500000x256_1_0_0_1
    (broadcastInDim S50000x256 ![] bcast_S_S50000x256 (constant S_ .f32 0x00000000#32))
    (broadcastInDim S500000x1 ![0] bcast_S500000_S500000x1_0 dst)
    (Host.gather gather_S100000x256_S500000x1_S500000x256_1_0_n_n_0_1_1256 h (srcIx0 src))

/-- The number of messages per destination row, as a one-column array. -/
def cntCol0 (dst : IVec S500000 32) : FVec Ideal S50000x1 .f32 :=
  Host.scatterAdd scatter_S50000x1_S500000x1_S500000x1_1_0_0_1
    (broadcastInDim S50000x1 ![] bcast_S_S50000x1 (constant S_ .f32 0x00000000#32))
    (broadcastInDim S500000x1 ![0] bcast_S500000_S500000x1_0 dst)
    (broadcastInDim S500000x1 ![] bcast_S_S500000x1 (constant S_ .f32 0x3F800000#32))

/-- The mean message per destination row (the sum over max(count, 1)). -/
def meanR0 (h : FVec Ideal S100000x256 .f32) (src dst : IVec S500000 32) : FVec Ideal S50000x256 .f32 :=
  Host.divf (agg0 h src dst)
    (broadcastInDim S50000x256 ![0, 1] bcast_S50000x1_S50000x256_0_1
      (maximumf (cntCol0 dst) (broadcastInDim S50000x1 ![] bcast_S_S50000x1 (constant S_ .f32 0x3F800000#32))))

/-- The layer as one function of its inputs: mean · Wn + own rows · Ws + bias, then the positive part. -/
def RL0 (h : FVec Ideal S100000x256 .f32) (src dst : IVec S500000 32) (Wn Ws : FVec Ideal S256x256 .f32)
    (b : FVec Ideal S256 .f32) : FVec Ideal S50000x256 .f32 :=
  maximumf (addf
    (addf (Host.dotGeneral dot_S50000x256_S256x256_S50000x256_1_0_0_1_n_n none (meanR0 h src dst) Wn)
      (Host.dotGeneral dot_S50000x256_S256x256_S50000x256_1_0_0_1_n_n none
        (extractStridedSlice S50000x256 ![0, 0] h slices_S100000x256_S50000x256_0_0) Ws))
    (broadcastInDim S50000x256 ![0, 1] bcast_S1x256_S50000x256_0_1 (broadcastInDim S1x256 ![1] bcast_S256_S1x256_1 b)))
    (broadcastInDim S50000x256 ![] bcast_S_S50000x256 (constant S_ .f32 0x00000000#32))

end Cert.ReferenceIdeal.Layers

end
-- ==== Proof.RefLayer1.lean ====
/-
  One layer of the reference program as a function of whole arrays (the extents say which).

  The layer gathers the source rows, sums them by destination row, divides by max(count, 1) and applies
  mean · Wn + own rows · Ws + bias as two whole matrix products. The count is summed as a one-COLUMN array here.
-/
import proofs.«180757_j19524921327629_1_alg».proof.Proof.Gen.ReferenceIdeal
import Idealize.ShloMosaic.PureOps.Ideal.Laws

noncomputable section

namespace Cert.ReferenceIdeal.Layers

open Idealize.ShloMosaic Cert.ReferenceIdeal Cert.ReferenceIdeal.Gen

/-- The start rows of the gather, negative ids wrapped once. -/
def srcIx1 (src : IVec S250000 32) : IVec S250000x1 32 :=
  broadcastInDim S250000x1 ![0] bcast_S250000_S250000x1_0
    (select (cmpi .slt src (broadcastInDim S250000 ![] bcast_S_S250000 (constantI S_ 32 0#32)))
      (addi src (broadcastInDim S250000 ![] bcast_S_S250000 (constantI S_ 32 50000#32))) src)

/-- The messages summed by destination row. -/
def agg1 (h : FVec Ideal S50000x256 .f32) (src dst : IVec S250000 32) : FVec Ideal S25000x256 .f32 :=
  Host.scatterAdd scatter_S25000x256_S250000x1_S250000x256_1_0_0_1
    (broadcastInDim S25000x256 ![] bcast_S_S25000x256 (constant S_ .f32 0x00000000#32))
    (broadcastInDim S250000x1 ![0] bcast_S250000_S250000x1_0 dst)
    (Host.gather gather_S50000x256_S250000x1_S250000x256_1_0_n_n_0_1_1256 h (srcIx1 src))

/-- The number of messages per destination row, as a one-column array. -/
def cntCol1 (dst : IVec S250000 32) : FVec Ideal S25000x1 .f32 :=
  Host.scatterAdd scatter_S25000x1_S250000x1_S250000x1_1_0_0_1
    (broadcastInDim S25000x1 ![] bcast_S_S25000x1 (constant S_ .f32 0x00000000#32))
    (broadcastInDim S250000x1 ![0] bcast_S250000_S250000x1_0 dst)
    (broadcastInDim S250000x1 ![] bcast_S_S250000x1 (constant S_ .f32 0x3F800000#32))

/-- The mean message per destination row (the sum over max(count, 1)). -/
def meanR1 (h : FVec Ideal S50000x256 .f32) (src dst : IVec S250000 32) : FVec Ideal S25000x256 .f32 :=
  Host.divf (agg1 h src dst)
    (broadcastInDim S25000x256 ![0, 1] bcast_S25000x1_S25000x256_0_1
      (maximumf (cntCol1 dst) (broadcastInDim S25000x1 ![] bcast_S_S25000x1 (constant S_ .f32 0x3F800000#32))))

/-- The layer as one function of its inputs: mean · Wn + own rows · Ws + bias, then the positive part. -/
def RL1 (h : FVec Ideal S50000x256 .f32) (src dst : IVec S250000 32) (Wn Ws : FVec Ideal S256x256 .f32)
    (b : FVec Ideal S256 .f32) : FVec Ideal S25000x256 .f32 :=
  maximumf (addf
    (addf (Host.dotGeneral dot_S25000x256_S256x256_S25000x256_1_0_0_1_n_n none (meanR1 h src dst) Wn)
      (Host.dotGeneral dot_S25000x256_S256x256_S25000x256_1_0_0_1_n_n none
        (extractStridedSlice S25000x256 ![0, 0] h slices_S50000x256_S25000x256_0_0) Ws))
    (broadcastInDim S25000x256 ![0, 1] bcast_S1x256_S25000x256_0_1 (broadcastInDim S1x256 ![1] bcast_S256_S1x256_1 b)))
    (broadcastInDim S25000x256 ![] bcast_S_S25000x256 (constant S_ .f32 0x00000000#32))

end Cert.ReferenceIdeal.Layers

end
-- ==== Proof.RefLayer2.lean ====
/-
  One layer of the reference program as a function of whole arrays (the extents say which).

  The layer gathers the source rows, sums them by destination row, divides by max(count, 1) and applies
  mean · Wn + own rows · Ws + bias as two whole matrix products. The count is summed as a one-COLUMN array here.
-/
import proofs.«180757_j19524921327629_1_alg».proof.Proof.Gen.ReferenceIdeal
import Idealize.ShloMosaic.PureOps.Ideal.Laws

noncomputable section

namespace Cert.ReferenceIdeal.Layers

open Idealize.ShloMosaic Cert.ReferenceIdeal Cert.ReferenceIdeal.Gen

/-- The start rows of the gather, negative ids wrapped once. -/
def srcIx2 (src : IVec S125000 32) : IVec S125000x1 32 :=
  broadcastInDim S125000x1 ![0] bcast_S125000_S125000x1_0
    (select (cmpi .slt src (broadcastInDim S125000 ![] bcast_S_S125000 (constantI S_ 32 0#32)))
      (addi src (broadcastInDim S125000 ![] bcast_S_S125000 (constantI S_ 32 25000#32))) src)

/-- The messages summed by destination row. -/
def agg2 (h : FVec Ideal S25000x256 .f32) (src dst : IVec S125000 32) : FVec Ideal S12500x256 .f32 :=
  Host.scatterAdd scatter_S12500x256_S125000x1_S125000x256_1_0_0_1
    (broadcastInDim S12500x256 ![] bcast_S_S12500x256 (constant S_ .f32 0x00000000#32))
    (broadcastInDim S125000x1 ![0] bcast_S125000_S125000x1_0 dst)
    (Host.gather gather_S25000x256_S125000x1_S125000x256_1_0_n_n_0_1_1256 h (srcIx2 src))

/-- The number of messages per destination row, as a one-column array. -/
def cntCol2 (dst : IVec S125000 32) : FVec Ideal S12500x1 .f32 :=
  Host.scatterAdd scatter_S12500x1_S125000x1_S125000x1_1_0_0_1
    (broadcastInDim S12500x1 ![] bcast_S_S12500x1 (constant S_ .f32 0x00000000#32))
    (broadcastInDim S125000x1 ![0] bcast_S125000_S125000x1_0 dst)
    (broadcastInDim S125000x1 ![] bcast_S_S125000x1 (constant S_ .f32 0x3F800000#32))

/-- The mean message per destination row (the sum over max(count, 1)). -/
def meanR2 (h : FVec Ideal S25000x256 .f32) (src dst : IVec S125000 32) : FVec Ideal S12500x256 .f32 :=
  Host.divf (agg2 h src dst)
    (broadcastInDim S12500x256 ![0, 1] bcast_S12500x1_S12500x256_0_1
      (maximumf (cntCol2 dst) (broadcastInDim S12500x1 ![] bcast_S_S12500x1 (constant S_ .f32 0x3F800000#32))))

/-- The layer as one function of its inputs: mean · Wn + own rows · Ws + bias. -/
def RL2 (h : FVec Ideal S25000x256 .f32) (src dst : IVec S125000 32) (Wn Ws : FVec Ideal S256x128 .f32)
    (b : FVec Ideal S128 .f32) : FVec Ideal S12500x128 .f32 :=
  addf
    (addf (Host.dotGeneral dot_S12500x256_S256x128_S12500x128_1_0_0_1_n_n none (meanR2 h src dst) Wn)
      (Host.dotGeneral dot_S12500x256_S256x128_S12500x128_1_0_0_1_n_n none
        (extractStridedSlice S12500x256 ![0, 0] h slices_S25000x256_S12500x256_0_0) Ws))
    (broadcastInDim S12500x128 ![0, 1] bcast_S1x128_S12500x128_0_1 (broadcastInDim S1x128 ![1] bcast_S128_S1x128_1 b))

end Cert.ReferenceIdeal.Layers

end
-- ==== Proof.RefValue.lean ====
/-
  The reference program's result as three layers composed.

  The generated run states the result buffer at one composed term of the arguments; that term is layer 2 of layer 1 of
  layer 0 (RefLayer0/1/2.lean), each layer reading the previous layer's whole output array, its own edge lists and its
  own weights.
-/
import proofs.«180757_j19524921327629_1_alg».proof.Proof.Gen.ReferenceIdeal.Run
import proofs.«180757_j19524921327629_1_alg».proof.Proof.RefLayer0
import proofs.«180757_j19524921327629_1_alg».proof.Proof.RefLayer1
import proofs.«180757_j19524921327629_1_alg».proof.Proof.RefLayer2

set_option maxRecDepth 16384

noncomputable section

namespace Cert.ReferenceIdeal.RefValue

open Idealize.ShloMosaic Idealize.ShloMosaic.TcCoe Idealize.SL.Sem Cert.ReferenceIdeal Cert.ReferenceIdeal.Layers

/-- The three layers composed, over the launch contents of the sixteen arguments. -/
def composed (m : (ℓ : Loc nD τ sig) → Buf (Elt Ideal) ℓ) (c : Dev nD) : FVec Ideal S12500x128 .f32 :=
  RL2
    (RL1
      (RL0 (m ((c.tc : Thread nD τ).loc main_arg0)) (m ((c.tc : Thread nD τ).loc main_arg10)) (m ((c.tc : Thread nD τ).loc main_arg11))
        (m ((c.tc : Thread nD τ).loc main_arg1)) (m ((c.tc : Thread nD τ).loc main_arg2)) (m ((c.tc : Thread nD τ).loc main_arg3)))
      (m ((c.tc : Thread nD τ).loc main_arg12)) (m ((c.tc : Thread nD τ).loc main_arg13))
      (m ((c.tc : Thread nD τ).loc main_arg4)) (m ((c.tc : Thread nD τ).loc main_arg5)) (m ((c.tc : Thread nD τ).loc main_arg6)))
    (m ((c.tc : Thread nD τ).loc main_arg14)) (m ((c.tc : Thread nD τ).loc main_arg15))
    (m ((c.tc : Thread nD τ).loc main_arg7)) (m ((c.tc : Thread nD τ).loc main_arg8)) (m ((c.tc : Thread nD τ).loc main_arg9))

/-- The run's composed term is the three layers composed. -/
theorem res_eq (m : (ℓ : Loc nD τ sig) → Buf (Elt Ideal) ℓ) (c : Dev nD) :
    Cert.ReferenceIdeal.Value.res_main_v76 (F := Ideal) m c = composed m c := by
  unfold Cert.ReferenceIdeal.Value.res_main_v76 composed RL2 RL1 RL0 meanR2 meanR1 meanR0 cntCol2 cntCol1 cntCol0
    agg2 agg1 agg0 srcIx2 srcIx1 srcIx0
  rfl

end Cert.ReferenceIdeal.RefValue

end
-- ==== Proof.LibSegmentCount.lean ====
/-
  Counting the updates that land on a row: the rank-1 count and the one-column count are the same number.

  `jax.ops.segment_sum` of a vector of ones over segment ids `dst` is a scatter-add into a zero vector of length n;
  the same sum of an E×1 column of ones is a scatter-add into an n×1 column. Both read the segment id of update j at
  entry (j, 0) of the E×1 index array, signed and unclamped, and add the update at that row when the id lies in
  [0, n); so on the extended reals entry r of the vector and entry (r, 0) of the column are one sum over the same
  updates j (those whose id is r), whatever the two operands and the two update arrays hold, as long as they agree
  entrywise under j ↦ (j, 0) and r ↦ (r, 0). The dimension records are stated by their field lists with the
  well-formedness proof an argument, so a printed record with these lists is definitionally the record here.
-/
import Idealize.ShloMosaic.PureOps.Ideal.Laws
import Idealize.ShloMosaic.Lib.ValueIdx

namespace Idealize.ShloMosaic.SegmentCount

open Idealize.ShloMosaic Idealize.ShloMosaic.ValueIdx

/-- The scatter of an `[E]` update vector into an `[n]` vector at the rows an `[E, 1]` index array names. -/
abbrev vecDims (n E : Nat) (wf : ScatterDims.WF ⟨1, ![n]⟩ ⟨2, ![E, 1]⟩ ⟨1, ![E]⟩ [] [0] [0] 1) :
    ScatterDims ⟨1, ![n]⟩ ⟨2, ![E, 1]⟩ ⟨1, ![E]⟩ := ⟨[], [0], [0], 1, wf⟩

/-- The scatter of an `[E, 1]` update column into an `[n, 1]` column at the rows an `[E, 1]` index array names. -/
abbrev colDims (n E : Nat) (wf : ScatterDims.WF ⟨2, ![n, 1]⟩ ⟨2, ![E, 1]⟩ ⟨2, ![E, 1]⟩ [1] [0] [0] 1) :
    ScatterDims ⟨2, ![n, 1]⟩ ⟨2, ![E, 1]⟩ ⟨2, ![E, 1]⟩ := ⟨[1], [0], [0], 1, wf⟩

variable {n E w : Nat}

theorem vec_start (wf) (j : (⟨1, ![E]⟩ : Shape).Idx) (idx : IVec ⟨2, ![E, 1]⟩ w) :
    (vecDims n E wf).start j idx 0 = (idx (ix2 (j 0) 0)).toInt := by
  unfold ScatterDims.start
  rw [dif_pos (show (0 : Fin 1) ∈ [(0 : Fin 1)] from List.mem_singleton.2 rfl)]
  refine congrArg (fun k => (idx k).toInt) ?_
  funext b
  match b with
  | ⟨0, _⟩ => rfl
  | ⟨1, _⟩ => rfl

theorem vec_window (wf) (j : (⟨1, ![E]⟩ : Shape).Idx) : (vecDims n E wf).window j 0 = 0 := by
  unfold ScatterDims.window
  have h : ¬ (0 : Fin 1) ∈ (vecDims n E wf).sKept := (show ¬ ((0 : Fin 1) ∈ (List.finRange 1).filter (fun x => decide (x ∉ [(0 : Fin 1)]))) by decide)
  exact dif_neg h

theorem col_start0 (wf) (j : (⟨2, ![E, 1]⟩ : Shape).Idx) (idx : IVec ⟨2, ![E, 1]⟩ w) :
    (colDims n E wf).start j idx 0 = (idx (ix2 (j 0) 0)).toInt := by
  unfold ScatterDims.start
  rw [dif_pos (show (0 : Fin 2) ∈ [(0 : Fin 2)] from List.mem_singleton.2 rfl)]
  refine congrArg (fun k => (idx k).toInt) ?_
  funext b
  match b with
  | ⟨0, _⟩ => rfl
  | ⟨1, _⟩ => rfl

theorem col_start1 (wf) (j : (⟨2, ![E, 1]⟩ : Shape).Idx) (idx : IVec ⟨2, ![E, 1]⟩ w) :
    (colDims n E wf).start j idx 1 = 0 := by
  unfold ScatterDims.start
  rw [dif_neg (show ¬ (1 : Fin 2) ∈ [(0 : Fin 2)] by decide)]

theorem col_window0 (wf) (j : (⟨2, ![E, 1]⟩ : Shape).Idx) : (colDims n E wf).window j 0 = 0 := by
  unfold ScatterDims.window
  have h : ¬ (0 : Fin 2) ∈ (colDims n E wf).sKept := (show ¬ ((0 : Fin 2) ∈ (List.finRange 2).filter (fun x => decide (x ∉ [(0 : Fin 2)]))) by decide)
  exact dif_neg h

theorem col_window1 (wf) (j : (⟨2, ![E, 1]⟩ : Shape).Idx) : (colDims n E wf).window j 1 = 0 := by
  unfold ScatterDims.window
  have h : (1 : Fin 2) ∈ (colDims n E wf).sKept := (show ((1 : Fin 2) ∈ (List.finRange 2).filter (fun x => decide (x ∉ [(0 : Fin 2)]))) by decide)
  rw [dif_pos h]
  have : ∀ x : Fin 1, x.val = 0 := fun x => by omega
  exact this _

/-- Update j of the vector lands on row r exactly when its segment id is r. -/
theorem vec_result_iff (wf) (j : (⟨1, ![E]⟩ : Shape).Idx) (idx : IVec ⟨2, ![E, 1]⟩ w) (r : Fin n) :
    (vecDims n E wf).resultIdx? j idx = some (ix1 r) ↔ (idx (ix2 (j 0) 0)).toInt = (r.val : Int) := by
  unfold ScatterDims.resultIdx?
  split
  · rename_i h
    rw [Option.some.injEq]
    have h0 : 0 ≤ (vecDims n E wf).start j idx 0 + ((vecDims n E wf).window j 0 : Int) ∧
        (vecDims n E wf).start j idx 0 + ((vecDims n E wf).window j 0 : Int) < (n : Int) := h 0
    rw [vec_start, vec_window] at h0
    constructor
    · intro hf
      have hv : ((vecDims n E wf).start j idx 0 + ((vecDims n E wf).window j 0 : Int)).toNat = r.val :=
        congrArg (fun f => (f 0).val) hf
      rw [vec_start, vec_window] at hv
      omega
    · intro hz
      funext a
      match a with
      | ⟨0, _⟩ =>
        apply Fin.ext
        show ((vecDims n E wf).start j idx 0 + ((vecDims n E wf).window j 0 : Int)).toNat = r.val
        rw [vec_start, vec_window]; omega
  · rename_i h
    constructor
    · intro hf; exact absurd hf (by simp)
    · intro hz
      exfalso; apply h; intro a
      match a with
      | ⟨0, _⟩ =>
        show 0 ≤ (vecDims n E wf).start j idx 0 + ((vecDims n E wf).window j 0 : Int) ∧
          (vecDims n E wf).start j idx 0 + ((vecDims n E wf).window j 0 : Int) < (n : Int)
        rw [vec_start, vec_window]; omega

/-- Update (j, 0) of the column lands on entry (r, 0) exactly when its segment id is r. -/
theorem col_result_iff (wf) (j : (⟨2, ![E, 1]⟩ : Shape).Idx) (idx : IVec ⟨2, ![E, 1]⟩ w) (r : Fin n) :
    (colDims n E wf).resultIdx? j idx = some (ix2 r 0) ↔ (idx (ix2 (j 0) 0)).toInt = (r.val : Int) := by
  unfold ScatterDims.resultIdx?
  split
  · rename_i h
    rw [Option.some.injEq]
    have h0 : 0 ≤ (colDims n E wf).start j idx 0 + ((colDims n E wf).window j 0 : Int) ∧
        (colDims n E wf).start j idx 0 + ((colDims n E wf).window j 0 : Int) < (n : Int) := h 0
    rw [col_start0, col_window0] at h0
    constructor
    · intro hf
      have hv : ((colDims n E wf).start j idx 0 + ((colDims n E wf).window j 0 : Int)).toNat = r.val :=
        congrArg (fun f => (f 0).val) hf
      rw [col_start0, col_window0] at hv
      omega
    · intro hz
      funext a
      match a with
      | ⟨0, _⟩ =>
        apply Fin.ext
        show ((colDims n E wf).start j idx 0 + ((colDims n E wf).window j 0 : Int)).toNat = r.val
        rw [col_start0, col_window0]; omega
      | ⟨1, _⟩ =>
        apply Fin.ext
        show ((colDims n E wf).start j idx 1 + ((colDims n E wf).window j 1 : Int)).toNat = 0
        rw [col_start1, col_window1]; rfl
  · rename_i h
    constructor
    · intro hf; exact absurd hf (by simp)
    · intro hz
      exfalso; apply h; intro a
      match a with
      | ⟨0, _⟩ =>
        show 0 ≤ (colDims n E wf).start j idx 0 + ((colDims n E wf).window j 0 : Int) ∧
          (colDims n E wf).start j idx 0 + ((colDims n E wf).window j 0 : Int) < (n : Int)
        rw [col_start0, col_window0]; omega
      | ⟨1, _⟩ =>
        show 0 ≤ (colDims n E wf).start j idx 1 + ((colDims n E wf).window j 1 : Int) ∧
          (colDims n E wf).start j idx 1 + ((colDims n E wf).window j 1 : Int) < (1 : Int)
        rw [col_start1, col_window1]; omega

/-- Update j of the vector, as update (j, 0) of the column. -/
abbrev toCol (j : (⟨1, ![E]⟩ : Shape).Idx) : (⟨2, ![E, 1]⟩ : Shape).Idx := ix2 (n0 := E) (n1 := 1) (j 0) 0

/-- Entry r of the scatter-added vector is entry (r, 0) of the scatter-added column, on the extended reals, when
    the operands agree there and the updates agree row by row. -/
theorem hostScatterAdd_vec_eq_col (wf1) (wf2) (x1 : (⟨1, ![n]⟩ : Shape).Idx → EReal) (x2 : (⟨2, ![n, 1]⟩ : Shape).Idx → EReal)
    (idx : IVec ⟨2, ![E, 1]⟩ w) (u1 : (⟨1, ![E]⟩ : Shape).Idx → EReal) (u2 : (⟨2, ![E, 1]⟩ : Shape).Idx → EReal) (r : Fin n)
    (hx : x1 (ix1 r) = x2 (ix2 r 0)) (hu : ∀ j, u1 j = u2 (toCol j)) :
    Ideal.hostScatterAdd (vecDims n E wf1) x1 idx u1 (ix1 r) = Ideal.hostScatterAdd (colDims n E wf2) x2 idx u2 (ix2 r 0) := by
  unfold Ideal.hostScatterAdd
  rw [hx]
  refine congrArg (x2 (ix2 r 0) + ·) ?_
  refine Finset.sum_bij (fun j _ => toCol j) ?_ ?_ ?_ ?_
  · intro j hj
    rw [Finset.mem_filter] at hj ⊢
    exact ⟨Finset.mem_univ _, (col_result_iff wf2 (toCol j) idx r).2 ((vec_result_iff wf1 j idx r).1 hj.2)⟩
  · intro a _ b _ h
    rw [eq_ix1 a, eq_ix1 b]
    exact congrArg ix1 (congrFun h 0)
  · intro b hb
    refine ⟨ix1 (b 0), ?_, ?_⟩
    · rw [Finset.mem_filter] at hb ⊢
      exact ⟨Finset.mem_univ _, (vec_result_iff wf1 (ix1 (b 0)) idx r).2 ((col_result_iff wf2 b idx r).1 hb.2)⟩
    · show ix2 (b 0) 0 = b
      rw [eq_ix2 b]
      refine congrArg (ix2 (b 0)) ?_
      exact Subsingleton.elim _ _
  · intro j _; exact hu j

end Idealize.ShloMosaic.SegmentCount
-- ==== Proof.LibHostRead.lean ====
/-
  Host operations read at an entry, for arrays of rank at most two.

  Each statement says what one operation of a host program holds at an entry given by its coordinates, generic in the
  extents: a column, a vector stood up as a column, or a vector laid along a row, broadcast over a matrix, reads the
  entry that shares the kept coordinate; rows of a padding value appended below a matrix leave the matrix's own rows
  as they were; a scalar constant broadcast to any shape is the extended real its word encodes; the host's quotient
  is the quotient of the entries; and the host's scatter-add is, on the extended reals, the operand plus the sum of
  the updates that land on the entry.
-/
import Idealize.ShloMosaic.PureOps.Ideal.Laws
import Idealize.ShloMosaic.Lib.ValueLayout
import Idealize.ShloMosaic.Lib.KernelVsHost

namespace Idealize.ShloMosaic.HostRead

open Idealize.ShloMosaic Idealize.ShloMosaic.ValueIdx

section Layout
variable {α : Type}

/-- A one-column array broadcast along its rows, read at (r, t), is the column at (r, 0). -/
theorem broadcastInDim_oneCol_apply {m n : Nat} (hbc : (⟨2, ![m, 1]⟩ : Shape).BroadcastsInDim ⟨2, ![m, n]⟩ ![0, 1])
    (y : (⟨2, ![m, 1]⟩ : Shape).Idx → α) (r : Fin m) (t : Fin n) :
    broadcastInDim ⟨2, ![m, n]⟩ ![0, 1] hbc y (ix2 r t) = y (ix2 r (0 : Fin 1)) := by
  refine broadcastInDim_apply ![0, 1] hbc y (ix2 r t) (ix2 r (0 : Fin 1)) ?_
  intro a
  match a with
  | ⟨0, _⟩ =>
    show r.val = if m = 1 then 0 else r.val
    split
    · have := r.isLt; omega
    · rfl
  | ⟨1, _⟩ =>
    show (0 : ℕ) = if (1 : ℕ) = 1 then 0 else t.val
    rw [if_pos rfl]

/-- A vector stood up as a one-column array, read at (r, u), is the vector at r. -/
theorem broadcastInDim_vecCol_apply {m : Nat} (hbc : (⟨1, ![m]⟩ : Shape).BroadcastsInDim ⟨2, ![m, 1]⟩ ![0])
    (v : (⟨1, ![m]⟩ : Shape).Idx → α) (r : Fin m) (u : Fin 1) :
    broadcastInDim ⟨2, ![m, 1]⟩ ![0] hbc v (ix2 r u) = v (ix1 r) := by
  refine broadcastInDim_apply ![0] hbc v (ix2 r u) (ix1 r) ?_
  intro a
  match a with
  | ⟨0, _⟩ =>
    show r.val = if m = 1 then 0 else r.val
    split
    · have := r.isLt; omega
    · rfl

/-- A vector laid along one row, read at (u, t), is the vector at t. -/
theorem broadcastInDim_vecRow_apply {n : Nat} (hbc : (⟨1, ![n]⟩ : Shape).BroadcastsInDim ⟨2, ![1, n]⟩ ![1])
    (v : (⟨1, ![n]⟩ : Shape).Idx → α) (u : Fin 1) (t : Fin n) :
    broadcastInDim ⟨2, ![1, n]⟩ ![1] hbc v (ix2 u t) = v (ix1 t) := by
  refine broadcastInDim_apply ![1] hbc v (ix2 u t) (ix1 t) ?_
  intro a
  match a with
  | ⟨0, _⟩ =>
    show t.val = if n = 1 then 0 else t.val
    split
    · have := t.isLt; omega
    · rfl

/-- Rows of a padding value appended below a matrix: at a row of the matrix the padded array is the matrix. -/
theorem pad_rowsBelow_apply {m n p M : Nat} {u : Shape} (x : (⟨2, ![m, n]⟩ : Shape).Idx → α) (v : u.Idx → α)
    (h : (⟨2, ![m, n]⟩ : Shape).Pads ![0, 0] ![p, 0] ![0, 0] ⟨2, ![M, n]⟩) (hu : 0 < u.numel) (hM : m ≤ M)
    (r : Fin m) (t : Fin n) :
    pad ⟨2, ![M, n]⟩ ![0, 0] ![p, 0] ![0, 0] x v h hu (ix2 (Fin.castLE hM r) t) = x (ix2 r t) := by
  refine pad_apply_of_inside _ _ _ x v h hu (ix2 (Fin.castLE hM r) t) (ix2 r t) ?_
  intro a
  match a with
  | ⟨0, _⟩ => show r.val = 0 + r.val * (0 + 1); omega
  | ⟨1, _⟩ => show t.val = 0 + t.val * (0 + 1); omega

end Layout

/-- A scalar constant broadcast to any shape reads, everywhere, the extended real its word encodes. -/
theorem scalar_constant_apply {t : Shape} {φ : FTy} (h : (⟨0, ![]⟩ : Shape).BroadcastsInDim t ![]) (b : BitVec φ.bits)
    (j : t.Idx) : broadcastInDim t ![] h (constant (F := Ideal) ⟨0, ![]⟩ φ b) j = Ideal.ofBits φ b := rfl

/-- The host's quotient at an index is the quotient of the entries. -/
theorem hostDivf_apply {s : Shape} {φ : FTy} (x y : FVec Ideal s φ) (i : s.Idx) :
    Host.divf x y i = Ideal.div (x i) (y i) := rfl

/-- On the extended reals the host's scatter-add is the exact sum, whatever the operands: each entry of the operand
    plus the updates that land on it. -/
theorem scatterAdd_eq {s si su : Shape} {φ : FTy} {w : Nat} (d : ScatterDims s si su) (x : FVec Ideal s φ)
    (idx : IVec si w) (upd : FVec Ideal su φ) : Host.scatterAdd d x idx upd = Ideal.hostScatterAdd d x idx upd := rfl

end Idealize.ShloMosaic.HostRead
-- ==== Proof.LayerEq0.lean ====
/-
  One layer: the kernel program's function is the reference's.

  Entry (r, q) of either side is  max( Σ_k mean(r, k) · Wn(k, q) + Σ_k h(r, k) · Ws(k, q) + b(q), 0 )  with
  mean(r, k) = agg(r, k) / max(count(r), 1): the kernel reads row r of the zero-padded mean and own rows (r lies below
  the padding), its casts to a narrower float format are the identity on the extended reals, its two products into a
  zero accumulator are the two sums, and its count vector's entry r is the reference's count column's entry (r, 0)
  (LibSegmentCount.lean). The summed messages agg are the same scatter-add of the same gather on both sides.
-/
import proofs.«180757_j19524921327629_1_alg».proof.Proof.KernelLayer0
import proofs.«180757_j19524921327629_1_alg».proof.Proof.RefLayer0
import proofs.«180757_j19524921327629_1_alg».proof.Proof.LibPlainDot
import proofs.«180757_j19524921327629_1_alg».proof.Proof.LibSegmentCount
import proofs.«180757_j19524921327629_1_alg».proof.Proof.LibHostRead
import Idealize.ShloMosaic.Lib.StackMember

noncomputable section

namespace Cert.LayerEq

open Idealize.ShloMosaic Idealize.ShloMosaic.ValueIdx Idealize.ShloMosaic.HostRead

namespace Layer0

/-! ## The count: a vector on one side, a one-column array on the other -/

/-- The kernel program's count scatter is the scatter of a vector of updates into a vector (the same field lists). -/
theorem vecDims_eq : Cert.KernelIdeal.scatter_S50000_S500000x1_S500000_n_0_0_1
    = SegmentCount.vecDims 50000 500000 Cert.KernelIdeal.Gen.scatter_S50000_S500000x1_S500000_n_0_0_1_wf := rfl

/-- The reference program's count scatter is the scatter of a column of updates into a column (the same field lists). -/
theorem colDims_eq : Cert.ReferenceIdeal.scatter_S50000x1_S500000x1_S500000x1_1_0_0_1
    = SegmentCount.colDims 50000 500000 Cert.ReferenceIdeal.Gen.scatter_S50000x1_S500000x1_S500000x1_1_0_0_1_wf := rfl

/-- Entry r of the count vector is entry (r, 0) of the count column: both start from zero and add a one for every
    message whose destination is r. -/
theorem cnt_eq (dst : IVec Cert.KernelIdeal.S500000 32) (r : Fin 50000) :
    Cert.KernelIdeal.Layers.cnt0 dst (ix1 r) = Cert.ReferenceIdeal.Layers.cntCol0 dst (ix2 r (0 : Fin 1)) := by
  unfold Cert.KernelIdeal.Layers.cnt0 Cert.ReferenceIdeal.Layers.cntCol0
  rw [scatterAdd_eq, scatterAdd_eq, vecDims_eq, colDims_eq]
  refine SegmentCount.hostScatterAdd_vec_eq_col _ _ _ _ _ _ _ r ?_ ?_
  · rw [broadcastInDim_constant, broadcastInDim_constant, broadcast_apply, broadcast_apply]
  · intro j
    rw [broadcastInDim_constant, broadcastInDim_constant, broadcast_apply, broadcast_apply]

/-! ## The summed messages and the mean -/

/-- The two programs' scatter of the messages has the same field lists. -/
theorem scatterDims_eq : Cert.KernelIdeal.scatter_S50000x256_S500000x1_S500000x256_1_0_0_1
    = Cert.ReferenceIdeal.scatter_S50000x256_S500000x1_S500000x256_1_0_0_1 := rfl

/-- The two programs' gather of the source rows has the same field lists. -/
theorem gatherDims_eq : Cert.KernelIdeal.gather_S100000x256_S500000x1_S500000x256_1_0_n_n_0_1_1256
    = Cert.ReferenceIdeal.gather_S100000x256_S500000x1_S500000x256_1_0_n_n_0_1_1256 := rfl

/-- The two programs wrap the source ids the same way. -/
theorem srcIx_eq (src : IVec Cert.KernelIdeal.S500000 32) :
    Cert.KernelIdeal.Layers.srcIx0 src = Cert.ReferenceIdeal.Layers.srcIx0 src := rfl

/-- The two programs sum the same messages: the same scatter-add of the same gather. -/
theorem agg_eq (h : FVec Ideal Cert.KernelIdeal.S100000x256 .f32) (src dst : IVec Cert.KernelIdeal.S500000 32) :
    Cert.KernelIdeal.Layers.agg0 h src dst = Cert.ReferenceIdeal.Layers.agg0 h src dst := by
  unfold Cert.KernelIdeal.Layers.agg0 Cert.ReferenceIdeal.Layers.agg0
  rw [scatterDims_eq, gatherDims_eq, srcIx_eq]

/-- The mean message at (r, k) is the same quotient on both sides: the same sum over max(count, 1), the count read
    from the vector on one side and from the column on the other. -/
theorem mean_eq (h : FVec Ideal Cert.KernelIdeal.S100000x256 .f32) (src dst : IVec Cert.KernelIdeal.S500000 32)
    (r : Fin 50000) (k : Fin 256) :
    Cert.KernelIdeal.Layers.mean0 h src dst (ix2 r k) = Cert.ReferenceIdeal.Layers.meanR0 h src dst (ix2 r k) := by
  unfold Cert.KernelIdeal.Layers.mean0 Cert.ReferenceIdeal.Layers.meanR0
  rw [hostDivf_apply, hostDivf_apply, agg_eq]
  refine congrArg (Ideal.div _) ?_
  refine (broadcastInDim_oneCol_apply _ _ r k).trans ?_
  refine (broadcastInDim_vecCol_apply _ _ r 0).trans ?_
  refine Eq.trans ?_ (broadcastInDim_oneCol_apply _ _ r k).symm
  rw [maximumf_apply, maximumf_apply, cnt_eq, broadcastInDim_constant, broadcastInDim_constant,
    broadcast_apply, broadcast_apply]

/-! ## The kernel program's layer at an entry -/

/-- The dense part's positive variant read at (p, q). -/
theorem linRelu_apply {M K N : Nat} (a s : (⟨2, ![M, K]⟩ : Shape).Idx → EReal) (wn ws : (⟨2, ![K, N]⟩ : Shape).Idx → EReal)
    (b : (⟨2, ![1, N]⟩ : Shape).Idx → EReal) (p : Fin M) (q : Fin N) :
    Cert.Sage.linRelu a s wn ws b (ix2 p q)
      = max ((∑ k : Fin K, a (ix2 p k) * wn (ix2 k q)) + (∑ k : Fin K, s (ix2 p k) * ws (ix2 k q))
          + b (ix2 (0 : Fin 1) q)) 0 := rfl

/-- Row r of the padded mean rows lies below the padding: it is row r of the mean (the narrowing cast is the identity). -/
theorem meanPad_apply (h : FVec Ideal Cert.KernelIdeal.S100000x256 .f32) (src dst : IVec Cert.KernelIdeal.S500000 32)
    (r : Fin 50000) (k : Fin 256) :
    Cert.KernelIdeal.Layers.meanPad0 h src dst (ix2 (Fin.castLE (by decide : 50000 ≤ 50176) r) k)
      = Cert.KernelIdeal.Layers.mean0 h src dst (ix2 r k) := by
  unfold Cert.KernelIdeal.Layers.meanPad0
  exact (pad_rowsBelow_apply _ _ _ _ (by decide) r k).trans (truncf_apply _ _ _)

/-- Row r of the padded own rows is row r of the first 50000 rows of h. -/
theorem selfPad_apply (h : FVec Ideal Cert.KernelIdeal.S100000x256 .f32) (r : Fin 50000) (k : Fin 256) :
    Cert.KernelIdeal.Layers.selfPad0 h (ix2 (Fin.castLE (by decide : 50000 ≤ 50176) r) k)
      = extractStridedSlice Cert.KernelIdeal.S50000x256 ![0, 0] h
          Cert.KernelIdeal.Gen.slices_S100000x256_S50000x256_0_0 (ix2 r k) := by
  unfold Cert.KernelIdeal.Layers.selfPad0
  exact (pad_rowsBelow_apply _ _ _ _ (by decide) r k).trans (truncf_apply _ _ _)

/-- The first 50000 rows of a 50176-row array, read at (r, q), is the array at (r, q). -/
theorem rows_apply (X : FVec Ideal Cert.KernelIdeal.S50176x256 .f32) (r : Fin 50000) (q : Fin 256) :
    extractStridedSlice Cert.KernelIdeal.S50000x256 ![0, 0] X Cert.KernelIdeal.Gen.slices_S50176x256_S50000x256_0_0 (ix2 r q)
      = X (ix2 (Fin.castLE (by decide : 50000 ≤ 50176) r) q) :=
  slice2_axis0_apply 0 X _ r q _ (Nat.zero_add _).symm

/-- The kernel program's layer at (r, q): the two sums over row r, the bias, the positive part. -/
theorem kl_apply (h : FVec Ideal Cert.KernelIdeal.S100000x256 .f32) (src dst : IVec Cert.KernelIdeal.S500000 32)
    (Wn Ws : FVec Ideal Cert.KernelIdeal.S256x256 .f32) (b : FVec Ideal Cert.KernelIdeal.S256 .f32)
    (r : Fin 50000) (q : Fin 256) :
    Cert.KernelIdeal.Layers.KL0 h src dst Wn Ws b (ix2 r q)
      = max ((∑ k : Fin 256, Cert.KernelIdeal.Layers.mean0 h src dst (ix2 r k) * Wn (ix2 k q))
          + (∑ k : Fin 256, extractStridedSlice Cert.KernelIdeal.S50000x256 ![0, 0] h
                Cert.KernelIdeal.Gen.slices_S100000x256_S50000x256_0_0 (ix2 r k) * Ws (ix2 k q))
          + b (ix1 q)) 0 := by
  unfold Cert.KernelIdeal.Layers.KL0
  rw [rows_apply, linRelu_apply]
  refine congrArg (max · 0) (congrArg₂ (· + ·) (congrArg₂ (· + ·) ?_ ?_) ?_)
  · exact Finset.sum_congr rfl fun k _ => congrArg₂ (· * ·) (meanPad_apply h src dst r k) (truncf_apply _ _ _)
  · exact Finset.sum_congr rfl fun k _ => congrArg₂ (· * ·) (selfPad_apply h r k) (truncf_apply _ _ _)
  · exact shapeCast_a_1a_apply b _ 0 q

/-! ## The reference program's layer at an entry -/

/-- The reference's products are plain M×K by K×N products (the same field lists). -/
theorem dotDims_eq : Cert.ReferenceIdeal.dot_S50000x256_S256x256_S50000x256_1_0_0_1_n_n = DotDims.plain 50000 256 256 := rfl

/-- The reference program's layer at (r, q): the same two sums, bias and positive part. -/
theorem rl_apply (h : FVec Ideal Cert.KernelIdeal.S100000x256 .f32) (src dst : IVec Cert.KernelIdeal.S500000 32)
    (Wn Ws : FVec Ideal Cert.KernelIdeal.S256x256 .f32) (b : FVec Ideal Cert.KernelIdeal.S256 .f32)
    (r : Fin 50000) (q : Fin 256) :
    Cert.ReferenceIdeal.Layers.RL0 h src dst Wn Ws b (ix2 r q)
      = max ((∑ k : Fin 256, Cert.ReferenceIdeal.Layers.meanR0 h src dst (ix2 r k) * Wn (ix2 k q))
          + (∑ k : Fin 256, extractStridedSlice Cert.ReferenceIdeal.S50000x256 ![0, 0] h
                Cert.ReferenceIdeal.Gen.slices_S100000x256_S50000x256_0_0 (ix2 r k) * Ws (ix2 k q))
          + b (ix1 q)) 0 := by
  unfold Cert.ReferenceIdeal.Layers.RL0
  rw [maximumf_apply, addf_apply, addf_apply, dotDims_eq, StackMember.dotGeneral_plain_apply,
    StackMember.dotGeneral_plain_apply, broadcastInDim_oneRow_apply, broadcastInDim_vecRow_apply,
    scalar_constant_apply, Ideal.ofBits_zero_f32]

end Layer0

open Layer0 in
/-- The kernel program's layer and the reference's are one function of the layer's inputs. -/
theorem layer0_eq (h : FVec Ideal Cert.KernelIdeal.S100000x256 .f32) (src dst : IVec Cert.KernelIdeal.S500000 32)
    (Wn Ws : FVec Ideal Cert.KernelIdeal.S256x256 .f32) (b : FVec Ideal Cert.KernelIdeal.S256 .f32) :
    Cert.KernelIdeal.Layers.KL0 h src dst Wn Ws b = Cert.ReferenceIdeal.Layers.RL0 h src dst Wn Ws b := by
  funext i
  obtain ⟨r, q, rfl⟩ : ∃ (r : Fin 50000) (q : Fin 256), i = ix2 r q := ⟨i 0, i 1, eq_ix2 i⟩
  have hsum : (∑ k : Fin 256, Cert.KernelIdeal.Layers.mean0 h src dst (ix2 r k) * Wn (ix2 k q))
      = ∑ k : Fin 256, Cert.ReferenceIdeal.Layers.meanR0 h src dst (ix2 r k) * Wn (ix2 k q) :=
    Finset.sum_congr rfl fun k _ => by rw [mean_eq]
  rw [kl_apply, rl_apply, hsum]

end Cert.LayerEq

end
-- ==== Proof.LayerEq1.lean ====
/-
  One layer: the kernel program's function is the reference's.

  Entry (r, q) of either side is  max( Σ_k mean(r, k) · Wn(k, q) + Σ_k h(r, k) · Ws(k, q) + b(q), 0 )  with
  mean(r, k) = agg(r, k) / max(count(r), 1): the kernel reads row r of the zero-padded mean and own rows (r lies below
  the padding), its casts to a narrower float format are the identity on the extended reals, its two products into a
  zero accumulator are the two sums, and its count vector's entry r is the reference's count column's entry (r, 0)
  (LibSegmentCount.lean). The summed messages agg are the same scatter-add of the same gather on both sides.
-/
import proofs.«180757_j19524921327629_1_alg».proof.Proof.KernelLayer1
import proofs.«180757_j19524921327629_1_alg».proof.Proof.RefLayer1
import proofs.«180757_j19524921327629_1_alg».proof.Proof.LibPlainDot
import proofs.«180757_j19524921327629_1_alg».proof.Proof.LibSegmentCount
import proofs.«180757_j19524921327629_1_alg».proof.Proof.LibHostRead
import Idealize.ShloMosaic.Lib.StackMember

noncomputable section

namespace Cert.LayerEq

open Idealize.ShloMosaic Idealize.ShloMosaic.ValueIdx Idealize.ShloMosaic.HostRead

namespace Layer1

/-! ## The count: a vector on one side, a one-column array on the other -/

/-- The kernel program's count scatter is the scatter of a vector of updates into a vector (the same field lists). -/
theorem vecDims_eq : Cert.KernelIdeal.scatter_S25000_S250000x1_S250000_n_0_0_1
    = SegmentCount.vecDims 25000 250000 Cert.KernelIdeal.Gen.scatter_S25000_S250000x1_S250000_n_0_0_1_wf := rfl

/-- The reference program's count scatter is the scatter of a column of updates into a column (the same field lists). -/
theorem colDims_eq : Cert.ReferenceIdeal.scatter_S25000x1_S250000x1_S250000x1_1_0_0_1
    = SegmentCount.colDims 25000 250000 Cert.ReferenceIdeal.Gen.scatter_S25000x1_S250000x1_S250000x1_1_0_0_1_wf := rfl

/-- Entry r of the count vector is entry (r, 0) of the count column: both start from zero and add a one for every
    message whose destination is r. -/
theorem cnt_eq (dst : IVec Cert.KernelIdeal.S250000 32) (r : Fin 25000) :
    Cert.KernelIdeal.Layers.cnt1 dst (ix1 r) = Cert.ReferenceIdeal.Layers.cntCol1 dst (ix2 r (0 : Fin 1)) := by
  unfold Cert.KernelIdeal.Layers.cnt1 Cert.ReferenceIdeal.Layers.cntCol1
  rw [scatterAdd_eq, scatterAdd_eq, vecDims_eq, colDims_eq]
  refine SegmentCount.hostScatterAdd_vec_eq_col _ _ _ _ _ _ _ r ?_ ?_
  · rw [broadcastInDim_constant, broadcastInDim_constant, broadcast_apply, broadcast_apply]
  · intro j
    rw [broadcastInDim_constant, broadcastInDim_constant, broadcast_apply, broadcast_apply]

/-! ## The summed messages and the mean -/

/-- The two programs' scatter of the messages has the same field lists. -/
theorem scatterDims_eq : Cert.KernelIdeal.scatter_S25000x256_S250000x1_S250000x256_1_0_0_1
    = Cert.ReferenceIdeal.scatter_S25000x256_S250000x1_S250000x256_1_0_0_1 := rfl

/-- The two programs' gather of the source rows has the same field lists. -/
theorem gatherDims_eq : Cert.KernelIdeal.gather_S50000x256_S250000x1_S250000x256_1_0_n_n_0_1_1256
    = Cert.ReferenceIdeal.gather_S50000x256_S250000x1_S250000x256_1_0_n_n_0_1_1256 := rfl

/-- The two programs wrap the source ids the same way. -/
theorem srcIx_eq (src : IVec Cert.KernelIdeal.S250000 32) :
    Cert.KernelIdeal.Layers.srcIx1 src = Cert.ReferenceIdeal.Layers.srcIx1 src := rfl

/-- The two programs sum the same messages: the same scatter-add of the same gather. -/
theorem agg_eq (h : FVec Ideal Cert.KernelIdeal.S50000x256 .f32) (src dst : IVec Cert.KernelIdeal.S250000 32) :
    Cert.KernelIdeal.Layers.agg1 h src dst = Cert.ReferenceIdeal.Layers.agg1 h src dst := by
  unfold Cert.KernelIdeal.Layers.agg1 Cert.ReferenceIdeal.Layers.agg1
  rw [scatterDims_eq, gatherDims_eq, srcIx_eq]

/-- The mean message at (r, k) is the same quotient on both sides: the same sum over max(count, 1), the count read
    from the vector on one side and from the column on the other. -/
theorem mean_eq (h : FVec Ideal Cert.KernelIdeal.S50000x256 .f32) (src dst : IVec Cert.KernelIdeal.S250000 32)
    (r : Fin 25000) (k : Fin 256) :
    Cert.KernelIdeal.Layers.mean1 h src dst (ix2 r k) = Cert.ReferenceIdeal.Layers.meanR1 h src dst (ix2 r k) := by
  unfold Cert.KernelIdeal.Layers.mean1 Cert.ReferenceIdeal.Layers.meanR1
  rw [hostDivf_apply, hostDivf_apply, agg_eq]
  refine congrArg (Ideal.div _) ?_
  refine (broadcastInDim_oneCol_apply _ _ r k).trans ?_
  refine (broadcastInDim_vecCol_apply _ _ r 0).trans ?_
  refine Eq.trans ?_ (broadcastInDim_oneCol_apply _ _ r k).symm
  rw [maximumf_apply, maximumf_apply, cnt_eq, broadcastInDim_constant, broadcastInDim_constant,
    broadcast_apply, broadcast_apply]

/-! ## The kernel program's layer at an entry -/

/-- The dense part's positive variant read at (p, q). -/
theorem linRelu_apply {M K N : Nat} (a s : (⟨2, ![M, K]⟩ : Shape).Idx → EReal) (wn ws : (⟨2, ![K, N]⟩ : Shape).Idx → EReal)
    (b : (⟨2, ![1, N]⟩ : Shape).Idx → EReal) (p : Fin M) (q : Fin N) :
    Cert.Sage.linRelu a s wn ws b (ix2 p q)
      = max ((∑ k : Fin K, a (ix2 p k) * wn (ix2 k q)) + (∑ k : Fin K, s (ix2 p k) * ws (ix2 k q))
          + b (ix2 (0 : Fin 1) q)) 0 := rfl

/-- Row r of the padded mean rows lies below the padding: it is row r of the mean (the narrowing cast is the identity). -/
theorem meanPad_apply (h : FVec Ideal Cert.KernelIdeal.S50000x256 .f32) (src dst : IVec Cert.KernelIdeal.S250000 32)
    (r : Fin 25000) (k : Fin 256) :
    Cert.KernelIdeal.Layers.meanPad1 h src dst (ix2 (Fin.castLE (by decide : 25000 ≤ 25600) r) k)
      = Cert.KernelIdeal.Layers.mean1 h src dst (ix2 r k) := by
  unfold Cert.KernelIdeal.Layers.meanPad1
  exact (pad_rowsBelow_apply _ _ _ _ (by decide) r k).trans (truncf_apply _ _ _)

/-- Row r of the padded own rows is row r of the first 25000 rows of h. -/
theorem selfPad_apply (h : FVec Ideal Cert.KernelIdeal.S50000x256 .f32) (r : Fin 25000) (k : Fin 256) :
    Cert.KernelIdeal.Layers.selfPad1 h (ix2 (Fin.castLE (by decide : 25000 ≤ 25600) r) k)
      = extractStridedSlice Cert.KernelIdeal.S25000x256 ![0, 0] h
          Cert.KernelIdeal.Gen.slices_S50000x256_S25000x256_0_0 (ix2 r k) := by
  unfold Cert.KernelIdeal.Layers.selfPad1
  exact (pad_rowsBelow_apply _ _ _ _ (by decide) r k).trans (truncf_apply _ _ _)

/-- The first 25000 rows of a 25600-row array, read at (r, q), is the array at (r, q). -/
theorem rows_apply (X : FVec Ideal Cert.KernelIdeal.S25600x256 .f32) (r : Fin 25000) (q : Fin 256) :
    extractStridedSlice Cert.KernelIdeal.S25000x256 ![0, 0] X Cert.KernelIdeal.Gen.slices_S25600x256_S25000x256_0_0 (ix2 r q)
      = X (ix2 (Fin.castLE (by decide : 25000 ≤ 25600) r) q) :=
  slice2_axis0_apply 0 X _ r q _ (Nat.zero_add _).symm

/-- The kernel program's layer at (r, q): the two sums over row r, the bias, the positive part. -/
theorem kl_apply (h : FVec Ideal Cert.KernelIdeal.S50000x256 .f32) (src dst : IVec Cert.KernelIdeal.S250000 32)
    (Wn Ws : FVec Ideal Cert.KernelIdeal.S256x256 .f32) (b : FVec Ideal Cert.KernelIdeal.S256 .f32)
    (r : Fin 25000) (q : Fin 256) :
    Cert.KernelIdeal.Layers.KL1 h src dst Wn Ws b (ix2 r q)
      = max ((∑ k : Fin 256, Cert.KernelIdeal.Layers.mean1 h src dst (ix2 r k) * Wn (ix2 k q))
          + (∑ k : Fin 256, extractStridedSlice Cert.KernelIdeal.S25000x256 ![0, 0] h
                Cert.KernelIdeal.Gen.slices_S50000x256_S25000x256_0_0 (ix2 r k) * Ws (ix2 k q))
          + b (ix1 q)) 0 := by
  unfold Cert.KernelIdeal.Layers.KL1
  rw [rows_apply, linRelu_apply]
  refine congrArg (max · 0) (congrArg₂ (· + ·) (congrArg₂ (· + ·) ?_ ?_) ?_)
  · exact Finset.sum_congr rfl fun k _ => congrArg₂ (· * ·) (meanPad_apply h src dst r k) (truncf_apply _ _ _)
  · exact Finset.sum_congr rfl fun k _ => congrArg₂ (· * ·) (selfPad_apply h r k) (truncf_apply _ _ _)
  · exact shapeCast_a_1a_apply b _ 0 q

/-! ## The reference program's layer at an entry -/

/-- The reference's products are plain M×K by K×N products (the same field lists). -/
theorem dotDims_eq : Cert.ReferenceIdeal.dot_S25000x256_S256x256_S25000x256_1_0_0_1_n_n = DotDims.plain 25000 256 256 := rfl

/-- The reference program's layer at (r, q): the same two sums, bias and positive part. -/
theorem rl_apply (h : FVec Ideal Cert.KernelIdeal.S50000x256 .f32) (src dst : IVec Cert.KernelIdeal.S250000 32)
    (Wn Ws : FVec Ideal Cert.KernelIdeal.S256x256 .f32) (b : FVec Ideal Cert.KernelIdeal.S256 .f32)
    (r : Fin 25000) (q : Fin 256) :
    Cert.ReferenceIdeal.Layers.RL1 h src dst Wn Ws b (ix2 r q)
      = max ((∑ k : Fin 256, Cert.ReferenceIdeal.Layers.meanR1 h src dst (ix2 r k) * Wn (ix2 k q))
          + (∑ k : Fin 256, extractStridedSlice Cert.ReferenceIdeal.S25000x256 ![0, 0] h
                Cert.ReferenceIdeal.Gen.slices_S50000x256_S25000x256_0_0 (ix2 r k) * Ws (ix2 k q))
          + b (ix1 q)) 0 := by
  unfold Cert.ReferenceIdeal.Layers.RL1
  rw [maximumf_apply, addf_apply, addf_apply, dotDims_eq, StackMember.dotGeneral_plain_apply,
    StackMember.dotGeneral_plain_apply, broadcastInDim_oneRow_apply, broadcastInDim_vecRow_apply,
    scalar_constant_apply, Ideal.ofBits_zero_f32]

end Layer1

open Layer1 in
/-- The kernel program's layer and the reference's are one function of the layer's inputs. -/
theorem layer1_eq (h : FVec Ideal Cert.KernelIdeal.S50000x256 .f32) (src dst : IVec Cert.KernelIdeal.S250000 32)
    (Wn Ws : FVec Ideal Cert.KernelIdeal.S256x256 .f32) (b : FVec Ideal Cert.KernelIdeal.S256 .f32) :
    Cert.KernelIdeal.Layers.KL1 h src dst Wn Ws b = Cert.ReferenceIdeal.Layers.RL1 h src dst Wn Ws b := by
  funext i
  obtain ⟨r, q, rfl⟩ : ∃ (r : Fin 25000) (q : Fin 256), i = ix2 r q := ⟨i 0, i 1, eq_ix2 i⟩
  have hsum : (∑ k : Fin 256, Cert.KernelIdeal.Layers.mean1 h src dst (ix2 r k) * Wn (ix2 k q))
      = ∑ k : Fin 256, Cert.ReferenceIdeal.Layers.meanR1 h src dst (ix2 r k) * Wn (ix2 k q) :=
    Finset.sum_congr rfl fun k _ => by rw [mean_eq]
  rw [kl_apply, rl_apply, hsum]

end Cert.LayerEq

end
-- ==== Proof.LibEntryRead.lean ====
/-
  Host operations read at one entry, on the extended reals.

  Small facts used when a host program's array is read entry by entry: a plain matrix product is the sum over the
  shared axis; rows padded at the high end read the operand below its extent; the broadcasts between a scalar, a
  vector, a column, a row and a matrix read the operand at the obvious entry; the host's quotient and its
  accumulating scatter are the extended reals' quotient and the exact sum. All are generic in the extents.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import proofs.«180757_j19524921327629_1_alg».proof.Proof.LibPlainDot

namespace Idealize.ShloMosaic.EntryRead

open Idealize.ShloMosaic Idealize.ShloMosaic.ValueIdx

variable {α : Type}

/-- The host's plain M×K by K×N product at entry (p, q) is the sum over the shared axis. -/
theorem dotGeneral_plain_apply {φ₁ φ₂ : FTy} (M K N : Nat) (l : FVec Ideal ⟨2, ![M, K]⟩ φ₁) (r : FVec Ideal ⟨2, ![K, N]⟩ φ₂)
    (p : Fin M) (q : Fin N) :
    Host.dotGeneral (DotDims.plain M K N) none l r (ix2 p q) = ∑ k : Fin K, l (ix2 p k) * r (ix2 k q) := by
  refine Eq.trans ?_ (PlainDot.matmul_zero_apply M K N l r p q)
  exact (Ideal.dotGeneral_apply _ _ _ l r _).trans (Ideal.matmul_constant_zero_apply _ none l r _).symm

/-- Rows padded at the high end: a row below the operand's extent reads the operand. -/
theorem pad_rows_apply {N NP D hi : Nat} (x : (⟨2, ![N, D]⟩ : Shape).Idx → α) {u : Shape} (v : u.Idx → α)
    (h : (⟨2, ![N, D]⟩ : Shape).Pads ![0, 0] ![hi, 0] ![0, 0] ⟨2, ![NP, D]⟩) (hu : 0 < u.numel)
    (r : Fin N) (r' : Fin NP) (k : Fin D) (hr : r'.val = r.val) :
    pad ⟨2, ![NP, D]⟩ ![0, 0] ![hi, 0] ![0, 0] x v h hu (ix2 r' k) = x (ix2 r k) :=
  pad_apply_of_inside _ _ _ x v h hu _ _ (fun a => by
    match a with
    | ⟨0, _⟩ => show r'.val = 0 + r.val * (0 + 1); omega
    | ⟨1, _⟩ => show k.val = 0 + k.val * (0 + 1); omega)

/-- A scalar broadcast to any shape reads the scalar. -/
theorem bcast_scalar_apply {t : Shape} (h : (⟨0, ![]⟩ : Shape).BroadcastsInDim t ![]) (x : (⟨0, ![]⟩ : Shape).Idx → α) (j : t.Idx) :
    broadcastInDim t ![] h x j = x ix0 :=
  broadcastInDim_apply _ h x j ix0 (fun a => a.elim0)

/-- A vector broadcast to a column reads the vector at the row. -/
theorem bcast_vec_col_apply {n : Nat} (h : (⟨1, ![n]⟩ : Shape).BroadcastsInDim ⟨2, ![n, 1]⟩ ![0]) (x : (⟨1, ![n]⟩ : Shape).Idx → α)
    (r : Fin n) (z : Fin 1) : broadcastInDim ⟨2, ![n, 1]⟩ ![0] h x (ix2 r z) = x (ix1 r) :=
  broadcastInDim_apply _ h x _ _ (fun a => by
    match a with
    | ⟨0, _⟩ =>
      show r.val = if n = 1 then 0 else r.val
      split <;> omega)

/-- A column broadcast along the rows of a matrix reads the column at the row. -/
theorem bcast_col_mat_apply {n d : Nat} (h : (⟨2, ![n, 1]⟩ : Shape).BroadcastsInDim ⟨2, ![n, d]⟩ ![0, 1]) (x : (⟨2, ![n, 1]⟩ : Shape).Idx → α)
    (r : Fin n) (k : Fin d) : broadcastInDim ⟨2, ![n, d]⟩ ![0, 1] h x (ix2 r k) = x (ix2 r 0) :=
  broadcastInDim_apply _ h x _ _ (fun a => by
    match a with
    | ⟨0, _⟩ =>
      show r.val = if n = 1 then 0 else r.val
      split <;> omega
    | ⟨1, _⟩ => show (0 : Fin 1).val = if (1 : Nat) = 1 then 0 else k.val; rfl)

/-- A vector broadcast to a one-row matrix reads the vector at the column. -/
theorem bcast_vec_row_apply {d : Nat} (h : (⟨1, ![d]⟩ : Shape).BroadcastsInDim ⟨2, ![1, d]⟩ ![1]) (x : (⟨1, ![d]⟩ : Shape).Idx → α)
    (z : Fin 1) (q : Fin d) : broadcastInDim ⟨2, ![1, d]⟩ ![1] h x (ix2 z q) = x (ix1 q) :=
  broadcastInDim_apply _ h x _ _ (fun a => by
    match a with
    | ⟨0, _⟩ =>
      show q.val = if d = 1 then 0 else q.val
      split <;> omega)

/-- A one-row matrix broadcast down the rows reads the row at the column. -/
theorem bcast_row_mat_apply {n d : Nat} (h : (⟨2, ![1, d]⟩ : Shape).BroadcastsInDim ⟨2, ![n, d]⟩ ![0, 1]) (x : (⟨2, ![1, d]⟩ : Shape).Idx → α)
    (r : Fin n) (q : Fin d) : broadcastInDim ⟨2, ![n, d]⟩ ![0, 1] h x (ix2 r q) = x (ix2 0 q) :=
  broadcastInDim_apply _ h x _ _ (fun a => by
    match a with
    | ⟨0, _⟩ => show (0 : Fin 1).val = if (1 : Nat) = 1 then 0 else r.val; rfl
    | ⟨1, _⟩ =>
      show q.val = if d = 1 then 0 else q.val
      split <;> omega)

/-- The host's quotient at an entry is the extended reals' quotient of the entries. -/
theorem hostDivf_apply {s : Shape} {φ : FTy} (x y : FVec Ideal s φ) (i : s.Idx) : Host.divf x y i = Ideal.div (x i) (y i) := rfl

/-- The host's accumulating scatter on the extended reals is the exact sum. -/
theorem scatterAdd_eq {s si su : Shape} {φ : FTy} {w : Nat} (d : ScatterDims s si su) (x : FVec Ideal s φ) (idx : IVec si w)
    (upd : FVec Ideal su φ) : Host.scatterAdd d x idx upd = Ideal.hostScatterAdd d x idx upd := rfl

end Idealize.ShloMosaic.EntryRead
-- ==== Proof.LayerEq2.lean ====
/-
  The last layer: the kernel program's function is the reference's (no positive part in this layer).

  Entry (r, q), r < 12500, q < 128, of either side is
      Σ_k mean(r, k) · Wn(k, q)  +  Σ_k h(r, k) · Ws(k, q)  +  b(q),     mean(r, k) = agg(r, k) / max(count(r), 1).
  Kernel side: the kept rows [0, 12500) of the dense part's array read row r of the padded operands, and r lies below
  the padding, so the padded mean rows read mean(r, ·) and the padded own rows read h(r, ·); the casts to the
  narrower float format are the identity on the extended reals; the bias row reads b(q). Reference side: each
  whole matrix product is the sum over the shared axis, and the bias is broadcast down the rows. The summed messages
  agg are one term on both sides; the count is entry r of a vector on the kernel side and entry (r, 0) of a column
  on the reference's, one sum (LibSegmentCount.lean); the two ones are one constant.
-/
import proofs.«180757_j19524921327629_1_alg».proof.Proof.KernelLayer2
import proofs.«180757_j19524921327629_1_alg».proof.Proof.RefLayer2
import proofs.«180757_j19524921327629_1_alg».proof.Proof.LibPlainDot
import proofs.«180757_j19524921327629_1_alg».proof.Proof.LibSegmentCount
import proofs.«180757_j19524921327629_1_alg».proof.Proof.LibEntryRead

noncomputable section

namespace Cert.LayerEq.L2

open Idealize.ShloMosaic Idealize.ShloMosaic.ValueIdx Idealize.ShloMosaic.EntryRead

variable (h : FVec Ideal Cert.KernelIdeal.S25000x256 .f32) (src dst : IVec Cert.KernelIdeal.S125000 32)
  (Wn Ws : FVec Ideal Cert.KernelIdeal.S256x128 .f32) (b : FVec Ideal Cert.KernelIdeal.S128 .f32)

/-- The constant one, as an extended real. -/
abbrev one : EReal := Ideal.ofBits .f32 0x3F800000#32

/-- The dense part at an entry: the two sums and the bias. -/
theorem lin_apply {M K N : Nat} (a s : (⟨2, ![M, K]⟩ : Shape).Idx → EReal) (wn ws : (⟨2, ![K, N]⟩ : Shape).Idx → EReal)
    (bb : (⟨2, ![1, N]⟩ : Shape).Idx → EReal) (p : Fin M) (q : Fin N) :
    Cert.Sage.lin a s wn ws bb (ix2 p q)
      = (∑ k : Fin K, a (ix2 p k) * wn (ix2 k q)) + (∑ k : Fin K, s (ix2 p k) * ws (ix2 k q)) + bb (ix2 (0 : Fin 1) q) := rfl

/-- The two programs name one scatter, one gather and one start-row array. -/
theorem scatterDims_eq : Cert.KernelIdeal.scatter_S12500x256_S125000x1_S125000x256_1_0_0_1 = Cert.ReferenceIdeal.scatter_S12500x256_S125000x1_S125000x256_1_0_0_1 := rfl
theorem gatherDims_eq : Cert.KernelIdeal.gather_S25000x256_S125000x1_S125000x256_1_0_n_n_0_1_1256 = Cert.ReferenceIdeal.gather_S25000x256_S125000x1_S125000x256_1_0_n_n_0_1_1256 := rfl
theorem srcIx_eq : Cert.KernelIdeal.Layers.srcIx2 src = Cert.ReferenceIdeal.Layers.srcIx2 src := rfl

/-- The summed messages are one array on both sides. -/
theorem agg_eq : Cert.KernelIdeal.Layers.agg2 h src dst = Cert.ReferenceIdeal.Layers.agg2 h src dst := by
  unfold Cert.KernelIdeal.Layers.agg2 Cert.ReferenceIdeal.Layers.agg2
  rw [scatterDims_eq, gatherDims_eq, srcIx_eq]

theorem vecDims_eq : Cert.KernelIdeal.scatter_S12500_S125000x1_S125000_n_0_0_1 = SegmentCount.vecDims 12500 125000 (by decide) := rfl
theorem colDims_eq : Cert.ReferenceIdeal.scatter_S12500x1_S125000x1_S125000x1_1_0_0_1 = SegmentCount.colDims 12500 125000 (by decide) := rfl

/-- The count of row r: the vector's entry is the column's. -/
theorem cnt_eq (r : Fin 12500) : Cert.KernelIdeal.Layers.cnt2 dst (ix1 r) = Cert.ReferenceIdeal.Layers.cntCol2 dst (ix2 r 0) := by
  unfold Cert.KernelIdeal.Layers.cnt2 Cert.ReferenceIdeal.Layers.cntCol2
  rw [scatterAdd_eq, scatterAdd_eq, vecDims_eq, colDims_eq]
  refine SegmentCount.hostScatterAdd_vec_eq_col _ _ _ _ _ _ _ r ?_ ?_
  · rw [bcast_scalar_apply, bcast_scalar_apply]
  · intro j
    rw [bcast_scalar_apply, bcast_scalar_apply]

/-- The kernel side's mean at an entry. -/
theorem meanK_apply (r : Fin 12500) (k : Fin 256) :
    Cert.KernelIdeal.Layers.mean2 h src dst (ix2 r k) = Ideal.div (Cert.KernelIdeal.Layers.agg2 h src dst (ix2 r k)) (max (Cert.KernelIdeal.Layers.cnt2 dst (ix1 r)) one) := by
  unfold Cert.KernelIdeal.Layers.mean2
  rw [hostDivf_apply]
  refine congrArg (Ideal.div _) ?_
  rw [bcast_col_mat_apply, bcast_vec_col_apply, maximumf_apply, bcast_scalar_apply]
  rfl

/-- The reference's mean at an entry. -/
theorem meanR_apply (r : Fin 12500) (k : Fin 256) :
    Cert.ReferenceIdeal.Layers.meanR2 h src dst (ix2 r k) = Ideal.div (Cert.ReferenceIdeal.Layers.agg2 h src dst (ix2 r k)) (max (Cert.ReferenceIdeal.Layers.cntCol2 dst (ix2 r 0)) one) := by
  unfold Cert.ReferenceIdeal.Layers.meanR2
  rw [hostDivf_apply]
  refine congrArg (Ideal.div _) ?_
  rw [bcast_col_mat_apply, maximumf_apply, bcast_scalar_apply]
  rfl

/-- Row r < 12500 as a row of the layer's 25000-row input, and of the 13312-row padded operands. -/
abbrev up (r : Fin 12500) : Fin 25000 := ⟨r.val, by omega⟩
abbrev upP (r : Fin 12500) : Fin 13312 := ⟨r.val, by omega⟩

/-- The kernel program's layer at an entry. -/
theorem kl_apply (r : Fin 12500) (q : Fin 128) :
    Cert.KernelIdeal.Layers.KL2 h src dst Wn Ws b (ix2 r q)
      = (∑ k : Fin 256, Ideal.div (Cert.KernelIdeal.Layers.agg2 h src dst (ix2 r k)) (max (Cert.KernelIdeal.Layers.cnt2 dst (ix1 r)) one) * Wn (ix2 k q))
        + (∑ k : Fin 256, h (ix2 (up r) k) * Ws (ix2 k q)) + b (ix1 q) := by
  unfold Cert.KernelIdeal.Layers.KL2
  refine (slice2_axis0_apply 0 _ _ r q (upP r) (by show r.val = 0 + r.val; omega)).trans ?_
  rw [lin_apply]
  refine congrArg₂ (· + ·) (congrArg₂ (· + ·) ?_ ?_) ?_
  · refine Finset.sum_congr rfl fun k _ => ?_
    refine congrArg₂ (· * ·) ?_ rfl
    unfold Cert.KernelIdeal.Layers.meanPad2
    refine (pad_rows_apply _ _ _ _ r (upP r) k rfl).trans ?_
    refine (truncf_apply (ψ := .bf16) (Cert.KernelIdeal.Layers.mean2 h src dst) Cert.KernelIdeal.Gen.bitsLt_bf16_f32 (ix2 r k)).trans ?_
    exact meanK_apply h src dst r k
  · refine Finset.sum_congr rfl fun k _ => ?_
    refine congrArg₂ (· * ·) ?_ rfl
    unfold Cert.KernelIdeal.Layers.selfPad2
    refine (pad_rows_apply _ _ _ _ r (upP r) k rfl).trans ?_
    refine (truncf_apply (ψ := .bf16) (extractStridedSlice Cert.KernelIdeal.S12500x256 ![0, 0] h Cert.KernelIdeal.Gen.slices_S25000x256_S12500x256_0_0) Cert.KernelIdeal.Gen.bitsLt_bf16_f32 (ix2 r k)).trans ?_
    exact slice2_axis0_apply 0 h _ r k (up r) (by show r.val = 0 + r.val; omega)
  · exact shapeCast_a_1a_apply b _ 0 q

/-- The reference's layer at an entry. -/
theorem rl_apply (r : Fin 12500) (q : Fin 128) :
    Cert.ReferenceIdeal.Layers.RL2 h src dst Wn Ws b (ix2 r q)
      = (∑ k : Fin 256, Ideal.div (Cert.ReferenceIdeal.Layers.agg2 h src dst (ix2 r k)) (max (Cert.ReferenceIdeal.Layers.cntCol2 dst (ix2 r 0)) one) * Wn (ix2 k q))
        + (∑ k : Fin 256, h (ix2 (up r) k) * Ws (ix2 k q)) + b (ix1 q) := by
  unfold Cert.ReferenceIdeal.Layers.RL2
  rw [addf_apply, addf_apply]
  refine congrArg₂ (· + ·) (congrArg₂ (· + ·) ?_ ?_) ?_
  · refine (dotGeneral_plain_apply 12500 256 128 _ _ r q).trans ?_
    refine Finset.sum_congr rfl fun k _ => ?_
    rw [meanR_apply]
  · refine (dotGeneral_plain_apply 12500 256 128 _ _ r q).trans ?_
    refine Finset.sum_congr rfl fun k _ => ?_
    refine congrArg₂ (· * ·) ?_ rfl
    exact slice2_axis0_apply 0 h _ r k (up r) (by show r.val = 0 + r.val; omega)
  · rw [bcast_row_mat_apply, bcast_vec_row_apply]

end Cert.LayerEq.L2

namespace Cert.LayerEq

open Idealize.ShloMosaic Idealize.ShloMosaic.ValueIdx

/-- The kernel program's layer and the reference's are one function of the layer's inputs. -/
theorem layer2_eq (h : FVec Ideal Cert.KernelIdeal.S25000x256 .f32) (src dst : IVec Cert.KernelIdeal.S125000 32)
    (Wn Ws : FVec Ideal Cert.KernelIdeal.S256x128 .f32) (b : FVec Ideal Cert.KernelIdeal.S128 .f32) :
    Cert.KernelIdeal.Layers.KL2 h src dst Wn Ws b = Cert.ReferenceIdeal.Layers.RL2 h src dst Wn Ws b := by
  funext i
  obtain ⟨r, q, rfl⟩ : ∃ (r : Fin 12500) (q : Fin 128), i = ix2 r q := ⟨i 0, i 1, eq_ix2 i⟩
  rw [L2.kl_apply, L2.rl_apply, L2.agg_eq, L2.cnt_eq]

end Cert.LayerEq

end
-- ==== Proof.lean ====
/-
  Three SAGE convolution layers: the kernel program against the reference, on the extended reals.

  Each layer gathers the source rows, sums them by destination row, divides by max(count, 1), and applies
  mean · Wn + own rows · Ws + bias (the first two layers then take the positive part). The reference does this with
  whole matrix products on the host. The kernel program pads the mean rows and the own rows with zero rows to a
  multiple of 1024, computes the dense part block of 1024 rows by block in a pallas call on operands cast to a
  narrower float format, and keeps the first rows of the call's array; it counts the messages per row in a vector
  where the reference counts them in a one-column array. On the extended reals a change of float format is the
  identity, a product into a zero accumulator is the plain sum, row r of the dense part reads row r of its row
  operands only (so the padding never reaches a kept row), and the two counts are one sum (LibSegmentCount.lean):
  layer by layer the two programs compute one function (LayerEq0/1/2.lean), hence so do the three layers composed.

  The kernel program's run with its result named is KernelRun.lean (the generated frame's launch, called again with
  the result kept); Fold0/1/2.lean read the result buffer back through the host operations and the three calls
  (Region0/1/2.lean: what each call leaves) to the three layers composed; RefValue.lean does the same for the
  reference's generated run. The ideal pass changed nothing (its ledger is empty), so `preserves` is trivial.
-/
import proofs.«180757_j19524921327629_1_alg».proof.Defs
import proofs.«180757_j19524921327629_1_alg».proof.Proof.Gen.Kernel
import proofs.«180757_j19524921327629_1_alg».proof.Proof.Gen.Kernel.Skeleton
import proofs.«180757_j19524921327629_1_alg».proof.Proof.Gen.Kernel.Launch
import proofs.«180757_j19524921327629_1_alg».proof.Proof.Gen.Kernel.Points
import proofs.«180757_j19524921327629_1_alg».proof.Proof.Gen.Kernel.Frame
import proofs.«180757_j19524921327629_1_alg».proof.Proof.Gen.KernelIdeal
import proofs.«180757_j19524921327629_1_alg».proof.Proof.Gen.KernelIdeal.Skeleton
import proofs.«180757_j19524921327629_1_alg».proof.Proof.Gen.KernelIdeal.Launch
import proofs.«180757_j19524921327629_1_alg».proof.Proof.Gen.KernelIdeal.Points
import proofs.«180757_j19524921327629_1_alg».proof.Proof.Gen.KernelIdeal.Frame
import proofs.«180757_j19524921327629_1_alg».proof.Proof.Gen.ReferenceIdeal
import proofs.«180757_j19524921327629_1_alg».proof.Proof.Gen.Pre_finite_inputs
import proofs.«180757_j19524921327629_1_alg».proof.Proof.KernelRun
import proofs.«180757_j19524921327629_1_alg».proof.Proof.Fold2
import proofs.«180757_j19524921327629_1_alg».proof.Proof.RefValue
import proofs.«180757_j19524921327629_1_alg».proof.Proof.LayerEq0
import proofs.«180757_j19524921327629_1_alg».proof.Proof.LayerEq1
import proofs.«180757_j19524921327629_1_alg».proof.Proof.LayerEq2
import Idealize.ShloMosaic.Adequacy
import Idealize.ShloMosaic.Init

set_option maxRecDepth 16384

noncomputable section

namespace Cert.Proof

open Idealize.ShloMosaic Idealize.ShloMosaic.TcCoe Idealize.SL.Sem

/-- From memories that agree on the sixteen arguments, the reference's three layers composed and the kernel
    program's are one array: the arguments are rewritten, then each layer's two functions are one. -/
theorem composed_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (h13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (h14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14))
    (h15 : m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) :
    Cert.ReferenceIdeal.RefValue.composed m' c = Cert.KernelIdeal.Fold.composed m c := by
  unfold Cert.ReferenceIdeal.RefValue.composed Cert.KernelIdeal.Fold.composed Cert.KernelIdeal.Fold.H2 Cert.KernelIdeal.Fold.H1
  rw [h0, h1, h2, h3, h4, h5, h6, h7, h8, h9, h10, h11, h12, h13, h14, h15]
  rw [Cert.LayerEq.layer0_eq, Cert.LayerEq.layer1_eq, Cert.LayerEq.layer2_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the result buffer at the three layers composed (the kernel program's run read
    back by Fold2.lean's `result`, the reference's by RefValue.lean's `res_eq`), one array by `composed_eq`. -/
theorem algebraic : Cert.algebraic_KernelIdeal_ReferenceIdeal := by
  intro m ρ m' ρ' _ hagree
  refine ⟨fun c => Cert.KernelIdeal.Fold.composed m c, ?_, ?_⟩
  · exact (θ_run Cert.KernelIdeal.defs _ _).mono
      (fun r h c => ⟨(h c).1.trans (Cert.KernelIdeal.Fold.result m ρ c), (h c).2⟩)
      (Cert.KernelIdeal.Gen.run_named (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.res_eq]
    obtain ⟨h0, h1, h2, h3, h4, h5, h6, h7, h8, h9, h10, h11, h12, h13, h14, h15⟩ := hagree c
    exact composed_eq m m' c h0 h1 h2 h3 h4 h5 h6 h7 h8 h9 h10 h11 h12 h13 h14 h15

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
